-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S20000 : Shape := ⟨1, ![20000]⟩
abbrev S80000x96 : Shape := ⟨2, ![80000, 96]⟩
abbrev S80000 : Shape := ⟨1, ![80000]⟩
abbrev S2x1600000 : Shape := ⟨2, ![2, 1600000]⟩
abbrev S50x8 : Shape := ⟨2, ![50, 8]⟩
abbrev S12x8 : Shape := ⟨2, ![12, 8]⟩
abbrev S150x8 : Shape := ⟨2, ![150, 8]⟩
abbrev S72x128 : Shape := ⟨2, ![72, 128]⟩
abbrev S128 : Shape := ⟨1, ![128]⟩
abbrev S112x128 : Shape := ⟨2, ![112, 128]⟩
abbrev S128x128 : Shape := ⟨2, ![128, 128]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S80000x96 : S_.BroadcastsInDim S80000x96 (![] : Fin 0 → Fin S80000x96.rank)
  reducesTo_S80000x96_S_d0_1 : S80000x96.ReducesTo [0, 1] S_
  bcast_S_S50x8 : S_.BroadcastsInDim S50x8 (![] : Fin 0 → Fin S50x8.rank)
  reducesTo_S50x8_S_d0_1 : S50x8.ReducesTo [0, 1] S_
  bcast_S_S12x8 : S_.BroadcastsInDim S12x8 (![] : Fin 0 → Fin S12x8.rank)
  reducesTo_S12x8_S_d0_1 : S12x8.ReducesTo [0, 1] S_
  bcast_S_S150x8 : S_.BroadcastsInDim S150x8 (![] : Fin 0 → Fin S150x8.rank)
  reducesTo_S150x8_S_d0_1 : S150x8.ReducesTo [0, 1] S_
  bcast_S_S72x128 : S_.BroadcastsInDim S72x128 (![] : Fin 0 → Fin S72x128.rank)
  reducesTo_S72x128_S_d0_1 : S72x128.ReducesTo [0, 1] S_
  bcast_S_S128 : S_.BroadcastsInDim S128 (![] : Fin 0 → Fin S128.rank)
  reducesTo_S128_S_d0 : S128.ReducesTo [0] S_
  bcast_S_S112x128 : S_.BroadcastsInDim S112x128 (![] : Fin 0 → Fin S112x128.rank)
  reducesTo_S112x128_S_d0_1 : S112x128.ReducesTo [0, 1] S_
  bcast_S_S128x128 : S_.BroadcastsInDim S128x128 (![] : Fin 0 → Fin S128x128.rank)
  reducesTo_S128x128_S_d0_1 : S128x128.ReducesTo [0, 1] S_
  bcast_S_S20000 : S_.BroadcastsInDim S20000 (![] : Fin 0 → Fin S20000.rank)
  reducesTo_S20000_S_d0 : S20000.ReducesTo [0] S_
  bcast_S_S80000 : S_.BroadcastsInDim S80000 (![] : Fin 0 → Fin S80000.rank)
  reducesTo_S80000_S_d0 : S80000.ReducesTo [0] S_

variable [Facts]

def fn_part5 {F : FTy → Type} [FloatOps F] (main_v81 : IVec S_ 1) (main_v83 : IVec S80000 1) (main_c_33 : IVec S_ 1) : IVec S_ 1 :=
  let main_v84 : IVec S_ 1 := (fun x v => Host.reduce IntOp.andi x v reducesTo_S80000_S_d0 h_S_) main_v83 main_c_33
  let main_v85 : IVec S_ 1 := andi main_v81 main_v84
  main_v85

def fn_part4 {F : FTy → Type} [FloatOps F] (main_arg1 : IVec S20000 32) (main_arg3 : IVec S80000 32) (main_arg4 : IVec S80000 32) (main_arg18 : FVec F S128x128 .f32) (main_v63 : IVec S_ 1) (main_v67 : IVec S_ 1) : IVec S_ 1 :=
  let main_v68 : IVec S_ 1 := andi main_v63 main_v67
  let main_v69 : FVec F S128x128 .f32 := Host.absf main_arg18
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_c_28 : IVec S_ 32 := constantI S_ 32 0#32
  let main_v74 : IVec S20000 32 := broadcastInDim S20000 ![] bcast_S_S20000 main_c_28
  let main_v75 : IVec S20000 1 := cmpi .sge main_arg1 main_v74
  let main_c_29 : IVec S_ 1 := constantI S_ 1 1#1
  let main_v76 : IVec S_ 1 := (fun x v => Host.reduce IntOp.andi x v reducesTo_S20000_S_d0 h_S_) main_v75 main_c_29
  let main_v77 : IVec S_ 1 := andi main_v73 main_v76
  let main_c_30 : IVec S_ 32 := constantI S_ 32 0#32
  let main_v78 : IVec S80000 32 := broadcastInDim S80000 ![] bcast_S_S80000 main_c_30
  let main_v79 : IVec S80000 1 := cmpi .sge main_arg3 main_v78
  let main_c_31 : IVec S_ 1 := constantI S_ 1 1#1
  let main_v80 : IVec S_ 1 := (fun x v => Host.reduce IntOp.andi x v reducesTo_S80000_S_d0 h_S_) main_v79 main_c_31
  let main_v81 : IVec S_ 1 := andi main_v77 main_v80
  let main_c_32 : IVec S_ 32 := constantI S_ 32 0#32
  let main_v82 : IVec S80000 32 := broadcastInDim S80000 ![] bcast_S_S80000 main_c_32
  let main_v83 : IVec S80000 1 := cmpi .sge main_arg4 main_v82
  let main_c_33 : IVec S_ 1 := constantI S_ 1 1#1
  fn_part5 (F := F) main_v81 main_v83 main_c_33

def fn_part3 {F : FTy → Type} [FloatOps F] (main_arg1 : IVec S20000 32) (main_arg3 : IVec S80000 32) (main_arg4 : IVec S80000 32) (main_arg15 : FVec F S128x128 .f32) (main_arg16 : FVec F S128x128 .f32) (main_arg17 : FVec F S128 .f32) (main_arg18 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg3 main_arg4 main_arg18 main_v63 main_v67

def fn_part2 {F : FTy → Type} [FloatOps F] (main_arg1 : IVec S20000 32) (main_arg3 : IVec S80000 32) (main_arg4 : IVec S80000 32) (main_arg11 : FVec F S112x128 .f32) (main_arg12 : FVec F S128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_v33 : IVec S_ 1) : IVec S_ 1 :=
  let main_v34 : FVec F S112x128 .f32 := Host.absf main_arg11
  let main_cst_12 : FVec F S_ .f32 := constant S_ .f32 0x7F800000#32
  let main_v35 : FVec F S112x128 .f32 := broadcastInDim S112x128 ![] bcast_S_S112x128 main_cst_12
  let main_v36 : IVec S112x128 1 := cmpf .olt main_v34 main_v35
  let main_c_13 : IVec S_ 1 := constantI S_ 1 1#1
  let main_v37 : IVec S_ 1 := (fun x v => Host.reduce IntOp.andi x v reducesTo_S112x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg1 main_arg3 main_arg4 main_arg15 main_arg16 main_arg17 main_arg18 main_v48 main_v49 main_v50

def fn_part1 {F : FTy → Type} [FloatOps F] (main_arg1 : IVec S20000 32) (main_arg3 : IVec S80000 32) (main_arg4 : IVec S80000 32) (main_arg8 : FVec F S150x8 .f32) (main_arg9 : FVec F S72x128 .f32) (main_arg10 : FVec F S128 .f32) (main_arg11 : FVec F S112x128 .f32) (main_arg12 : FVec F S128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_v13 : IVec S_ 1) (main_v16 : IVec S12x8 1) : IVec S_ 1 :=
  let main_c_5 : IVec S_ 1 := constantI S_ 1 1#1
  let main_v17 : IVec S_ 1 := (fun x v => Host.reduce IntOp.andi x v reducesTo_S12x8_S_d0_1 h_S_) main_v16 main_c_5
  let main_v18 : IVec S_ 1 := andi main_v13 main_v17
  let main_v19 : FVec F S150x8 .f32 := Host.absf main_arg8
  let main_cst_6 : FVec F S_ .f32 := constant S_ .f32 0x7F800000#32
  let main_v20 : FVec F S150x8 .f32 := broadcastInDim S150x8 ![] bcast_S_S150x8 main_cst_6
  let main_v21 : IVec S150x8 1 := cmpf .olt main_v19 main_v20
  let main_c_7 : IVec S_ 1 := constantI S_ 1 1#1
  let main_v22 : IVec S_ 1 := (fun x v => Host.reduce IntOp.andi x v reducesTo_S150x8_S_d0_1 h_S_) main_v21 main_c_7
  let main_v23 : IVec S_ 1 := andi main_v18 main_v22
  let main_v24 : FVec F S72x128 .f32 := Host.absf main_arg9
  let main_cst_8 : FVec F S_ .f32 := constant S_ .f32 0x7F800000#32
  let main_v25 : FVec F S72x128 .f32 := broadcastInDim S72x128 ![] bcast_S_S72x128 main_cst_8
  let main_v26 : IVec S72x128 1 := cmpf .olt main_v24 main_v25
  let main_c_9 : IVec S_ 1 := constantI S_ 1 1#1
  let main_v27 : IVec S_ 1 := (fun x v => Host.reduce IntOp.andi x v reducesTo_S72x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg3 main_arg4 main_arg11 main_arg12 main_arg13 main_arg14 main_arg15 main_arg16 main_arg17 main_arg18 main_v33

def fn {F : FTy → Type} [FloatOps F] (main_arg0 : FVec F S20000x64 .f32) (main_arg1 : IVec S20000 32) (main_arg2 : FVec F S80000x96 .f32) (main_arg3 : IVec S80000 32) (main_arg4 : IVec S80000 32) (main_arg5 : IVec S2x1600000 32) (main_arg6 : FVec F S50x8 .f32) (main_arg7 : FVec F S12x8 .f32) (main_arg8 : FVec F S150x8 .f32) (main_arg9 : FVec F S72x128 .f32) (main_arg10 : FVec F S128 .f32) (main_arg11 : FVec F S112x128 .f32) (main_arg12 : FVec F S128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S80000x96 .f32 := Host.absf main_arg2
  let main_cst_0 : FVec F S_ .f32 := constant S_ .f32 0x7F800000#32
  let main_v5 : FVec F S80000x96 .f32 := broadcastInDim S80000x96 ![] bcast_S_S80000x96 main_cst_0
  let main_v6 : IVec S80000x96 1 := cmpf .olt main_v4 main_v5
  let main_c_1 : IVec S_ 1 := constantI S_ 1 1#1
  let main_v7 : IVec S_ 1 := (fun x v => Host.reduce IntOp.andi x v reducesTo_S80000x96_S_d0_1 h_S_) main_v6 main_c_1
  let main_v8 : IVec S_ 1 := andi main_v3 main_v7
  let main_v9 : FVec F S50x8 .f32 := Host.absf main_arg6
  let main_cst_2 : FVec F S_ .f32 := constant S_ .f32 0x7F800000#32
  let main_v10 : FVec F S50x8 .f32 := broadcastInDim S50x8 ![] bcast_S_S50x8 main_cst_2
  let main_v11 : IVec S50x8 1 := cmpf .olt main_v9 main_v10
  let main_c_3 : IVec S_ 1 := constantI S_ 1 1#1
  let main_v12 : IVec S_ 1 := (fun x v => Host.reduce IntOp.andi x v reducesTo_S50x8_S_d0_1 h_S_) main_v11 main_c_3
  let main_v13 : IVec S_ 1 := andi main_v8 main_v12
  let main_v14 : FVec F S12x8 .f32 := Host.absf main_arg7
  let main_cst_4 : FVec F S_ .f32 := constant S_ .f32 0x7F800000#32
  let main_v15 : FVec F S12x8 .f32 := broadcastInDim S12x8 ![] bcast_S_S12x8 main_cst_4
  let main_v16 : IVec S12x8 1 := cmpf .olt main_v14 main_v15
  fn_part1 (F := F) main_arg1 main_arg3 main_arg4 main_arg8 main_arg9 main_arg10 main_arg11 main_arg12 main_arg13 main_arg14 main_arg15 main_arg16 main_arg17 main_arg18 main_v13 main_v16
-- ==== Kernel.lean ====
abbrev S20000x64 : Shape := ⟨2, ![20000, 64]⟩
abbrev S20000 : Shape := ⟨1, ![20000]⟩
abbrev S80000x96 : Shape := ⟨2, ![80000, 96]⟩
abbrev S80000 : Shape := ⟨1, ![80000]⟩
abbrev S2x1600000 : Shape := ⟨2, ![2, 1600000]⟩
abbrev S50x8 : Shape := ⟨2, ![50, 8]⟩
abbrev S12x8 : Shape := ⟨2, ![12, 8]⟩
abbrev S150x8 : Shape := ⟨2, ![150, 8]⟩
abbrev S72x128 : Shape := ⟨2, ![72, 128]⟩
abbrev S128 : Shape := ⟨1, ![128]⟩
abbrev S112x128 : Shape := ⟨2, ![112, 128]⟩
abbrev S128x128 : Shape := ⟨2, ![128, 128]⟩
abbrev S_ : Shape := ⟨0, ![]⟩
abbrev S64x128 : Shape := ⟨2, ![64, 128]⟩
abbrev S8x128 : Shape := ⟨2, ![8, 128]⟩
abbrev S20000x1 : Shape := ⟨2, ![20000, 1]⟩
abbrev S1x128 : Shape := ⟨2, ![1, 128]⟩
abbrev S20000x128 : Shape := ⟨2, ![20000, 128]⟩
abbrev S2000x64 : Shape := ⟨2, ![2000, 64]⟩
abbrev S2000x1 : Shape := ⟨2, ![2000, 1]⟩
abbrev S2000x128 : Shape := ⟨2, ![2000, 128]⟩
abbrev S2000x50 : Shape := ⟨2, ![2000, 50]⟩
abbrev S2000x8 : Shape := ⟨2, ![2000, 8]⟩
abbrev S96x128 : Shape := ⟨2, ![96, 128]⟩
abbrev S80000x1 : Shape := ⟨2, ![80000, 1]⟩
abbrev S80000x128 : Shape := ⟨2, ![80000, 128]⟩
abbrev S4000x96 : Shape := ⟨2, ![4000, 96]⟩
abbrev S4000x1 : Shape := ⟨2, ![4000, 1]⟩
abbrev S4000x128 : Shape := ⟨2, ![4000, 128]⟩
abbrev S4000x12 : Shape := ⟨2, ![4000, 12]⟩
abbrev S4000x150 : Shape := ⟨2, ![4000, 150]⟩
abbrev S4000x8 : Shape := ⟨2, ![4000, 8]⟩
abbrev S100000x128 : Shape := ⟨2, ![100000, 128]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S1600000x128 : Shape := ⟨2, ![1600000, 128]⟩

abbrev nBuf : Space → Nat
  | .hbm => 131
  | .vmem => 49
  | .smem => 0
  | _ => 0

abbrev hbmTy0_0 (i : Nat) : BufTy := match i % 128 with
  | 0 => ⟨S20000x64, .f32⟩
  | 1 => ⟨S20000, .i32⟩
  | 2 => ⟨S80000x96, .f32⟩
  | 3 => ⟨S80000, .i32⟩
  | 4 => ⟨S80000, .i32⟩
  | 5 => ⟨S2x1600000, .i32⟩
  | 6 => ⟨S50x8, .f32⟩
  | 7 => ⟨S12x8, .f32⟩
  | 8 => ⟨S150x8, .f32⟩
  | 9 => ⟨S72x128, .f32⟩
  | 10 => ⟨S128, .f32⟩
  | 11 => ⟨S112x128, .f32⟩
  | 12 => ⟨S128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S_, .i32⟩
  | 20 => ⟨S_, .i32⟩
  | 21 => ⟨S_, .i32⟩
  | 22 => ⟨S20000, .i32⟩
  | 23 => ⟨S20000, .i32⟩
  | 24 => ⟨S_, .i32⟩
  | 25 => ⟨S20000, .i32⟩
  | 26 => ⟨S20000, .i32⟩
  | 27 => ⟨S_, .i32⟩
  | 28 => ⟨S_, .i32⟩
  | 29 => ⟨S_, .i32⟩
  | 30 => ⟨S80000, .i32⟩
  | 31 => ⟨S80000, .i32⟩
  | 32 => ⟨S_, .i32⟩
  | 33 => ⟨S80000, .i32⟩
  | 34 => ⟨S80000, .i32⟩
  | 35 => ⟨S_, .i32⟩
  | 36 => ⟨S_, .i32⟩
  | 37 => ⟨S_, .i32⟩
  | 38 => ⟨S80000, .i32⟩
  | 39 => ⟨S80000, .i32⟩
  | 40 => ⟨S_, .i32⟩
  | 41 => ⟨S80000, .i32⟩
  | 42 => ⟨S80000, .i32⟩
  | 43 => ⟨S64x128, .f32⟩
  | 44 => ⟨S8x128, .f32⟩
  | 45 => ⟨S20000x1, .i32⟩
  | 46 => ⟨S1x128, .f32⟩
  | 47 => ⟨S20000x128, .f32⟩
  | 48 => ⟨S96x128, .f32⟩
  | 49 => ⟨S8x128, .f32⟩
  | 50 => ⟨S8x128, .f32⟩
  | 51 => ⟨S_, .i32⟩
  | 52 => ⟨S80000, .i32⟩
  | 53 => ⟨S80000, .i32⟩
  | 54 => ⟨S80000, .i32⟩
  | 55 => ⟨S80000x1, .i32⟩
  | 56 => ⟨S1x128, .f32⟩
  | 57 => ⟨S80000x128, .f32⟩
  | 58 => ⟨S100000x128, .f32⟩
  | 59 => ⟨S1x1600000, .i32⟩
  | 60 => ⟨S1600000, .i32⟩
  | 61 => ⟨S1x1600000, .i32⟩
  | 62 => ⟨S1600000, .i32⟩
  | 63 => ⟨S_, .f32⟩
  | 64 => ⟨S1600000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S100000, .f32⟩
  | 71 => ⟨S100000, .f32⟩
  | 72 => ⟨S_, .f32⟩
  | 73 => ⟨S100000, .f32⟩
  | 74 => ⟨S100000, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000x1, .f32⟩
  | 94 => ⟨S1600000x128, .f32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S1x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000x1, .f32⟩
  | 121 => ⟨S1600000x128, .f32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S1x128, .f32⟩
  | _ => ⟨S20000x64, .f32⟩

abbrev hbmTy0_1 (i : Nat) : BufTy := match i % 128 with
  | 0 => ⟨S20000x128, .f32⟩
  | 1 => ⟨S1x128, .f32⟩
  | 2 => ⟨S80000x128, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x1, .i32⟩
  | .local _ .vmem, ⟨3, _⟩ => ⟨S2000x1, .i32⟩
  | .local _ .vmem, ⟨4, _⟩ => ⟨S50x8, .f32⟩
  | .local _ .vmem, ⟨5, _⟩ => ⟨S64x128, .f32⟩
  | .local _ .vmem, ⟨6, _⟩ => ⟨S8x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S4000x96, .f32⟩
  | .local _ .vmem, ⟨11, _⟩ => ⟨S4000x96, .f32⟩
  | .local _ .vmem, ⟨12, _⟩ => ⟨S4000x1, .i32⟩
  | .local _ .vmem, ⟨13, _⟩ => ⟨S4000x1, .i32⟩
  | .local _ .vmem, ⟨14, _⟩ => ⟨S12x8, .f32⟩
  | .local _ .vmem, ⟨15, _⟩ => ⟨S150x8, .f32⟩
  | .local _ .vmem, ⟨16, _⟩ => ⟨S96x128, .f32⟩
  | .local _ .vmem, ⟨17, _⟩ => ⟨S8x128, .f32⟩
  | .local _ .vmem, ⟨18, _⟩ => ⟨S8x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S4000x128, .f32⟩
  | .local _ .vmem, ⟨48, _⟩ => ⟨S4000x128, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v0 : Ref sig .tc := ⟨.hbm, 26, rfl⟩
abbrev main_c_1 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v1 : Ref sig .tc := ⟨.hbm, 34, rfl⟩
abbrev main_c_3 : Ref sig .tc := ⟨.hbm, 35, rfl⟩
abbrev main_c_4 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_c_5 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst : Ref sig .tc := ⟨.hbm, 63, rfl⟩
abbrev main_v22 : Ref sig .tc := ⟨.hbm, 64, rfl⟩
abbrev main_cst_6 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_7 : Ref sig .tc := ⟨.hbm, 69, rfl⟩
abbrev main_v26 : Ref sig .tc := ⟨.hbm, 70, rfl⟩
abbrev main_v27 : Ref sig .tc := ⟨.hbm, 71, rfl⟩
abbrev main_cst_8 : Ref sig .tc := ⟨.hbm, 72, rfl⟩
abbrev main_v28 : Ref sig .tc := ⟨.hbm, 73, rfl⟩
abbrev main_v29 : Ref sig .tc := ⟨.hbm, 74, rfl⟩
abbrev main_c_9 : Ref sig .tc := ⟨.hbm, 75, rfl⟩
abbrev main_v30 : Ref sig .tc := ⟨.hbm, 76, rfl⟩
abbrev main_v31 : Ref sig .tc := ⟨.hbm, 77, rfl⟩
abbrev main_c_10 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_c_11 : Ref sig .tc := ⟨.hbm, 84, rfl⟩
abbrev main_v37 : Ref sig .tc := ⟨.hbm, 85, rfl⟩
abbrev main_v38 : Ref sig .tc := ⟨.hbm, 86, rfl⟩
abbrev main_c_12 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_13 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_c_14 : Ref sig .tc := ⟨.hbm, 102, rfl⟩
abbrev main_v52 : Ref sig .tc := ⟨.hbm, 103, rfl⟩
abbrev main_v53 : Ref sig .tc := ⟨.hbm, 104, rfl⟩
abbrev main_c_15 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_c_16 : Ref sig .tc := ⟨.hbm, 111, rfl⟩
abbrev main_v59 : Ref sig .tc := ⟨.hbm, 112, rfl⟩
abbrev main_v60 : Ref sig .tc := ⟨.hbm, 113, rfl⟩
abbrev main_c_17 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_18 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem5_1 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S12x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S150x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_1 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S20000 : S_.BroadcastsInDim S20000 (![] : Fin 0 → Fin S20000.rank)
  bcast_S_S80000 : S_.BroadcastsInDim S80000 (![] : Fin 0 → Fin S80000.rank)
  slices_S72x128_S64x128_0_0 : S72x128.Slices ![0, 0] S64x128
  slices_S72x128_S8x128_64_0 : S72x128.Slices ![64, 0] S8x128
  shapeCasts_S20000_S20000x1 : S20000.ShapeCasts S20000x1
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x50_d1_w32 : S2000x50.Iotas .tc 32 [1]
  broadcasts_S2000x1_S2000x50 : S2000x1.Broadcasts S2000x50
  bitsLt_bf16_f32 : FTy.bits .bf16 < FTy.bits .f32
  inb_S50x8_S50x8_0_0 : ∀ a, (![0, 0] : Fin 2 → Nat) a + S50x8.size a ≤ S50x8.size a
  h_S50x8 : 0 < S50x8.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S112x128_S96x128_0_0 : S112x128.Slices ![0, 0] S96x128
  slices_S112x128_S8x128_96_0 : S112x128.Slices ![96, 0] S8x128
  slices_S112x128_S8x128_104_0 : S112x128.Slices ![104, 0] S8x128
  shapeCasts_S80000_S80000x1 : S80000.ShapeCasts S80000x1
  inb_S4000x96_S4000x96_0_0 : ∀ a, (![0, 0] : Fin 2 → Nat) a + S4000x96.size a ≤ S4000x96.size a
  h_S4000x96 : 0 < S4000x96.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x12_d1_w32 : S4000x12.Iotas .tc 32 [1]
  iota_S4000x150_d1_w32 : S4000x150.Iotas .tc 32 [1]
  broadcasts_S4000x1_S4000x12 : S4000x1.Broadcasts S4000x12
  broadcasts_S4000x1_S4000x150 : S4000x1.Broadcasts S4000x150
  inb_S12x8_S12x8_0_0 : ∀ a, (![0, 0] : Fin 2 → Nat) a + S12x8.size a ≤ S12x8.size a
  h_S12x8 : 0 < S12x8.numel
  inb_S150x8_S150x8_0_0 : ∀ a, (![0, 0] : Fin 2 → Nat) a + S150x8.size a ≤ S150x8.size a
  h_S150x8 : 0 < S150x8.numel
  inb_S96x128_S96x128_0_0 : ∀ a, (![0, 0] : Fin 2 → Nat) a + S96x128.size a ≤ S96x128.size a
  h_S96x128 : 0 < S96x128.numel
  shapeCasts_S96x128_S96x128 : S96x128.ShapeCasts S96x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  concatenates_S20000x128_S80000x128_S100000x128_d0 : Shape.Concatenates [S20000x128, S80000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  dot_S2000x50_S50x8_S2000x8_1_0_0_1_n_n_wf : DotDims.WF S2000x50 S50x8 S2000x8 [1] [0] [0] [1] [] []
  dot_S2000x64_S64x128_S2000x128_1_0_0_1_n_n_wf : DotDims.WF S2000x64 S64x128 S2000x128 [1] [0] [0] [1] [] []
  dot_S2000x8_S8x128_S2000x128_1_0_0_1_n_n_wf : DotDims.WF S2000x8 S8x128 S2000x128 [1] [0] [0] [1] [] []
  dot_S4000x12_S12x8_S4000x8_1_0_0_1_n_n_wf : DotDims.WF S4000x12 S12x8 S4000x8 [1] [0] [0] [1] [] []
  dot_S4000x150_S150x8_S4000x8_1_0_0_1_n_n_wf : DotDims.WF S4000x150 S150x8 S4000x8 [1] [0] [0] [1] [] []
  dot_S4000x96_S96x128_S4000x128_1_0_0_1_n_n_wf : DotDims.WF S4000x96 S96x128 S4000x128 [1] [0] [0] [1] [] []
  dot_S4000x8_S8x128_S4000x128_1_0_0_1_n_n_wf : DotDims.WF S4000x8 S8x128 S4000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S20000x64.size a
  hwx0_0 : ∀ i : grid0.Coords, EltTy.bits .f32 = 32 ∨ (Rect.block (s := S20000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .i32 = 32 ∨ (Rect.block (s := S20000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x8.size a ≤ S50x8.size a
  hwx0_2 : ∀ i : grid0.Coords, EltTy.bits .f32 = 32 ∨ (Rect.block (s := S50x8) S50x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S20000x128.size a
  hwx0_6 : ∀ i : grid0.Coords, EltTy.bits .f32 = 32 ∨ (Rect.block (s := S20000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x96.size a ≤ S80000x96.size a
  hwx1_0 : ∀ i : grid1.Coords, EltTy.bits .f32 = 32 ∨ (Rect.block (s := S80000x96) S4000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S80000x1.size a
  hwx1_1 : ∀ i : grid1.Coords, EltTy.bits .i32 = 32 ∨ (Rect.block (s := S80000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12x8.size a ≤ S12x8.size a
  hwx1_2 : ∀ i : grid1.Coords, EltTy.bits .f32 = 32 ∨ (Rect.block (s := S12x8) S12x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S150x8.size a ≤ S150x8.size a
  hwx1_3 : ∀ i : grid1.Coords, EltTy.bits .f32 = 32 ∨ (Rect.block (s := S150x8) S150x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x128.size a ≤ S96x128.size a
  hwx1_4 : ∀ i : grid1.Coords, EltTy.bits .f32 = 32 ∨ (Rect.block (s := S96x128) S96x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S80000x128.size a
  hwx1_8 : ∀ i : grid1.Coords, EltTy.bits .f32 = 32 ∨ (Rect.block (s := S80000x128) S4000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S20000x128.size a
  hwx3_5 : ∀ i : grid3.Coords, EltTy.bits .f32 = 32 ∨ (Rect.block (s := S20000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S80000x128.size a
  hwx4_5 : ∀ i : grid4.Coords, EltTy.bits .f32 = 32 ∨ (Rect.block (s := S80000x128) S4000x128.size (cc4_transform_5 i) (hinb4_5 i)).WholeWords (EltTy.packing .f32)

variable [Facts₀]

def dot_S2000x50_S50x8_S2000x8_1_0_0_1_n_n : DotDims S2000x50 S50x8 S2000x8 where
  lhsContracting := [1]
  rhsContracting := [0]
  lhsNonContracting := [0]
  rhsNonContracting := [1]
  lhsBatch := []
  rhsBatch := []
  wf := dot_S2000x50_S50x8_S2000x8_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def dot_S4000x12_S12x8_S4000x8_1_0_0_1_n_n : DotDims S4000x12 S12x8 S4000x8 where
  lhsContracting := [1]
  rhsContracting := [0]
  lhsNonContracting := [0]
  rhsNonContracting := [1]
  lhsBatch := []
  rhsBatch := []
  wf := dot_S4000x12_S12x8_S4000x8_1_0_0_1_n_n_wf
def dot_S4000x150_S150x8_S4000x8_1_0_0_1_n_n : DotDims S4000x150 S150x8 S4000x8 where
  lhsContracting := [1]
  rhsContracting := [0]
  lhsNonContracting := [0]
  rhsNonContracting := [1]
  lhsBatch := []
  rhsBatch := []
  wf := dot_S4000x150_S150x8_S4000x8_1_0_0_1_n_n_wf
def dot_S4000x96_S96x128_S4000x128_1_0_0_1_n_n : DotDims S4000x96 S96x128 S4000x128 where
  lhsContracting := [1]
  rhsContracting := [0]
  lhsNonContracting := [0]
  rhsNonContracting := [1]
  lhsBatch := []
  rhsBatch := []
  wf := dot_S4000x96_S96x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S50x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S4000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S12x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S150x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S96x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S8x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S8x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v17) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v51) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v75) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S20000x64 : Shape := ⟨2, ![20000, 64]⟩
abbrev S20000 : Shape := ⟨1, ![20000]⟩
abbrev S80000x96 : Shape := ⟨2, ![80000, 96]⟩
abbrev S80000 : Shape := ⟨1, ![80000]⟩
abbrev S2x1600000 : Shape := ⟨2, ![2, 1600000]⟩
abbrev S50x8 : Shape := ⟨2, ![50, 8]⟩
abbrev S12x8 : Shape := ⟨2, ![12, 8]⟩
abbrev S150x8 : Shape := ⟨2, ![150, 8]⟩
abbrev S72x128 : Shape := ⟨2, ![72, 128]⟩
abbrev S128 : Shape := ⟨1, ![128]⟩
abbrev S112x128 : Shape := ⟨2, ![112, 128]⟩
abbrev S128x128 : Shape := ⟨2, ![128, 128]⟩
abbrev S_ : Shape := ⟨0, ![]⟩
abbrev S20000x1 : Shape := ⟨2, ![20000, 1]⟩
abbrev S20000x8 : Shape := ⟨2, ![20000, 8]⟩
abbrev S20000x72 : Shape := ⟨2, ![20000, 72]⟩
abbrev S80000x1 : Shape := ⟨2, ![80000, 1]⟩
abbrev S80000x8 : Shape := ⟨2, ![80000, 8]⟩
abbrev S80000x112 : Shape := ⟨2, ![80000, 112]⟩
abbrev S20000x128 : Shape := ⟨2, ![20000, 128]⟩
abbrev S1x128 : Shape := ⟨2, ![1, 128]⟩
abbrev S80000x128 : Shape := ⟨2, ![80000, 128]⟩
abbrev S100000x128 : Shape := ⟨2, ![100000, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 134
  | .vmem => 0
  | .smem => 0
  | _ => 0

abbrev hbmTy0_0 (i : Nat) : BufTy := match i % 128 with
  | 0 => ⟨S20000x64, .f32⟩
  | 1 => ⟨S20000, .i32⟩
  | 2 => ⟨S80000x96, .f32⟩
  | 3 => ⟨S80000, .i32⟩
  | 4 => ⟨S80000, .i32⟩
  | 5 => ⟨S2x1600000, .i32⟩
  | 6 => ⟨S50x8, .f32⟩
  | 7 => ⟨S12x8, .f32⟩
  | 8 => ⟨S150x8, .f32⟩
  | 9 => ⟨S72x128, .f32⟩
  | 10 => ⟨S128, .f32⟩
  | 11 => ⟨S112x128, .f32⟩
  | 12 => ⟨S128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S_, .i32⟩
  | 20 => ⟨S20000, .i32⟩
  | 21 => ⟨S20000, .i1⟩
  | 22 => ⟨S_, .i32⟩
  | 23 => ⟨S20000, .i32⟩
  | 24 => ⟨S20000, .i32⟩
  | 25 => ⟨S20000, .i32⟩
  | 26 => ⟨S20000x1, .i32⟩
  | 27 => ⟨S20000x8, .f32⟩
  | 28 => ⟨S20000x72, .f32⟩
  | 29 => ⟨S_, .i32⟩
  | 30 => ⟨S80000, .i32⟩
  | 31 => ⟨S80000, .i1⟩
  | 32 => ⟨S_, .i32⟩
  | 33 => ⟨S80000, .i32⟩
  | 34 => ⟨S80000, .i32⟩
  | 35 => ⟨S80000, .i32⟩
  | 36 => ⟨S80000x1, .i32⟩
  | 37 => ⟨S80000x8, .f32⟩
  | 38 => ⟨S_, .i32⟩
  | 39 => ⟨S80000, .i32⟩
  | 40 => ⟨S80000, .i1⟩
  | 41 => ⟨S_, .i32⟩
  | 42 => ⟨S80000, .i32⟩
  | 43 => ⟨S80000, .i32⟩
  | 44 => ⟨S80000, .i32⟩
  | 45 => ⟨S80000x1, .i32⟩
  | 46 => ⟨S80000x8, .f32⟩
  | 47 => ⟨S80000x112, .f32⟩
  | 48 => ⟨S20000x128, .f32⟩
  | 49 => ⟨S1x128, .f32⟩
  | 50 => ⟨S20000x128, .f32⟩
  | 51 => ⟨S20000x128, .f32⟩
  | 52 => ⟨S_, .f32⟩
  | 53 => ⟨S20000x128, .f32⟩
  | 54 => ⟨S20000x128, .f32⟩
  | 55 => ⟨S80000x128, .f32⟩
  | 56 => ⟨S1x128, .f32⟩
  | 57 => ⟨S80000x128, .f32⟩
  | 58 => ⟨S80000x128, .f32⟩
  | 59 => ⟨S_, .f32⟩
  | 60 => ⟨S80000x128, .f32⟩
  | 61 => ⟨S80000x128, .f32⟩
  | 62 => ⟨S100000x128, .f32⟩
  | 63 => ⟨S1x1600000, .i32⟩
  | 64 => ⟨S1600000, .i32⟩
  | 65 => ⟨S1x1600000, .i32⟩
  | 66 => ⟨S1600000, .i32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S_, .f32⟩
  | 115 => ⟨S1600000, .f32⟩
  | 116 => ⟨S_, .f32⟩
  | 117 => ⟨S100000, .f32⟩
  | 118 => ⟨S1600000x1, .i32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x128, .f32⟩
  | 125 => ⟨S100000x128, .f32⟩
  | 126 => ⟨S100000x128, .f32⟩
  | 127 => ⟨S1x128, .f32⟩
  | _ => ⟨S20000x64, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S20000x128, .f32⟩
  | 5 => ⟨S80000x128, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_c_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_c_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call0_cst : Ref sig .tc := ⟨.hbm, 52, rfl⟩
abbrev main_call0_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_cst : Ref sig .tc := ⟨.hbm, 59, rfl⟩
abbrev main_call1_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_c_6 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_9 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call2_cst : Ref sig .tc := ⟨.hbm, 98, rfl⟩
abbrev main_call2_v0 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_c_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_13 : Ref sig .tc := ⟨.hbm, 114, rfl⟩
abbrev main_v74 : Ref sig .tc := ⟨.hbm, 115, rfl⟩
abbrev main_cst_14 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_15 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  concatenates_S20000x64_S20000x8_S20000x72_d1 : Shape.Concatenates [S20000x64, S20000x8] S20000x72 1
  bcast_S_S80000 : S_.BroadcastsInDim S80000 (![] : Fin 0 → Fin S80000.rank)
  bcast_S80000_S80000x1_0 : S80000.BroadcastsInDim S80000x1 (![0] : Fin 1 → Fin S80000x1.rank)
  concatenates_S80000x96_S80000x8_S80000x8_S80000x112_d1 : Shape.Concatenates [S80000x96, S80000x8, S80000x8] S80000x112 1
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x128_S80000x128_0_1 : S1x128.BroadcastsInDim S80000x128 (![0, 1] : Fin 2 → Fin S80000x128.rank)
  bcast_S_S80000x128 : S_.BroadcastsInDim S80000x128 (![] : Fin 0 → Fin S80000x128.rank)
  concatenates_S20000x128_S80000x128_S100000x128_d0 : Shape.Concatenates [S20000x128, S80000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S100000x128_S20000x128_0_0 : S100000x128.Slices ![0, 0] S20000x128
  slices_S100000x128_S80000x128_20000_0 : S100000x128.Slices ![20000, 0] S80000x128
  gather_S50x8_S20000x1_S20000x8_1_0_n_n_0_1_18_wf : GatherDims.WF S50x8 S20000x1 S20000x8 [1] [0] [] [0] [] 1 ![1, 8]
  gather_S12x8_S80000x1_S80000x8_1_0_n_n_0_1_18_wf : GatherDims.WF S12x8 S80000x1 S80000x8 [1] [0] [] [0] [] 1 ![1, 8]
  gather_S150x8_S80000x1_S80000x8_1_0_n_n_0_1_18_wf : GatherDims.WF S150x8 S80000x1 S80000x8 [1] [0] [] [0] [] 1 ![1, 8]
  dot_S20000x72_S72x128_S20000x128_1_0_0_1_n_n_wf : DotDims.WF S20000x72 S72x128 S20000x128 [1] [0] [0] [1] [] []
  dot_S80000x112_S112x128_S80000x128_1_0_0_1_n_n_wf : DotDims.WF S80000x112 S112x128 S80000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S50x8_S20000x1_S20000x8_1_0_n_n_0_1_18 : GatherDims S50x8 S20000x1 S20000x8 where
  offsetDims := [1]
  collapsedSliceDims := [0]
  operandBatchingDims := []
  startIndicesBatchingDims := []
  startIndexMap := [0]
  indexVectorDim := 1
  sliceSizes := ![1, 8]
  wf := gather_S50x8_S20000x1_S20000x8_1_0_n_n_0_1_18_wf
def gather_S12x8_S80000x1_S80000x8_1_0_n_n_0_1_18 : GatherDims S12x8 S80000x1 S80000x8 where
  offsetDims := [1]
  collapsedSliceDims := [0]
  operandBatchingDims := []
  startIndicesBatchingDims := []
  startIndexMap := [0]
  indexVectorDim := 1
  sliceSizes := ![1, 8]
  wf := gather_S12x8_S80000x1_S80000x8_1_0_n_n_0_1_18_wf
def gather_S150x8_S80000x1_S80000x8_1_0_n_n_0_1_18 : GatherDims S150x8 S80000x1 S80000x8 where
  offsetDims := [1]
  collapsedSliceDims := [0]
  operandBatchingDims := []
  startIndicesBatchingDims := []
  startIndexMap := [0]
  indexVectorDim := 1
  sliceSizes := ![1, 8]
  wf := gather_S150x8_S80000x1_S80000x8_1_0_n_n_0_1_18_wf
def dot_S20000x72_S72x128_S20000x128_1_0_0_1_n_n : DotDims S20000x72 S72x128 S20000x128 where
  lhsContracting := [1]
  rhsContracting := [0]
  lhsNonContracting := [0]
  rhsNonContracting := [1]
  lhsBatch := []
  rhsBatch := []
  wf := dot_S20000x72_S72x128_S20000x128_1_0_0_1_n_n_wf
def dot_S80000x112_S112x128_S80000x128_1_0_0_1_n_n : DotDims S80000x112 S112x128 S80000x128 where
  lhsContracting := [1]
  rhsContracting := [0]
  lhsNonContracting := [0]
  rhsNonContracting := [1]
  lhsBatch := []
  rhsBatch := []
  wf := dot_S80000x112_S112x128_S80000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, element by element, over the extended reals.

  A two-layer mean-aggregating graph convolution over 100000 nodes (20000 of one kind, 80000 of another) with 128
  features. Each node's input features are a dense row joined with one (first kind) or two (second kind) rows of small
  embedding tables; a linear map, a bias and a rectifier give the first hidden layer. A layer of the convolution sends
  node `i` to `mean_{e : dst e = i} h[src e] · Wl + bl + h[i] · Wr`.

  Here: the one-hot reading of a table row as a sum (`lookup`), the two input layers (`polAt`, `compAt`) and the dense
  half of a convolution layer (`denseAt`) at one row and one column, in the order of operations the blocked program
  uses. Index words are 32-bit.
-/
import proofs.«422622_j33603824124606_3_alg».proof.KernelIdeal
import Idealize.ShloMosaic.PureOps.Ideal
import Idealize.ShloMosaic.Lib.ValueIdx

noncomputable section

open scoped BigOperators

namespace Cert.Spec

open Idealize.ShloMosaic Idealize.ShloMosaic.ValueIdx Cert.KernelIdeal

/-- The weight a one-hot row gives table row `t` when the index word is `v`: one where `v` is the number `t`, else zero. -/
def hot (v : BitVec 32) (t : Nat) : EReal := if v = BitVec.ofNat 32 t then 1 else 0

/-- Row `v` of a table with `T` rows, column `k`, read as the one-hot row times the table: `∑ t, [v = t] · tbl[t, k]`. -/
def lookup {T C : Nat} (tbl : (⟨2, ![T, C]⟩ : Shape).Idx → EReal) (v : BitVec 32) (k : Fin C) : EReal :=
  ∑ t : Fin T, hot v t.val * tbl (ix2 t k)

/-- The first kind's input layer at row `r`, column `q`:
    `max (x[r,:]·wx[:,q] + emb[idx r,:]·we[:,q] + b[q]) 0`. -/
def polAt (x : S20000x64.Idx → EReal) (idx : S20000x1.Idx → BitVec 32) (emb : S50x8.Idx → EReal)
    (wx : S64x128.Idx → EReal) (we : S8x128.Idx → EReal) (b : S1x128.Idx → EReal) (r : Fin 20000) (q : Fin 128) : EReal :=
  max (((∑ k : Fin 64, x (ix2 r k) * wx (ix2 k q))
        + (∑ k : Fin 8, lookup emb (idx (ix2 r 0)) k * we (ix2 k q)))
      + b (ix2 0 q)) 0

/-- The second kind's input layer at row `r`, column `q`; the two table indices arrive packed in one word,
    the first in the bits from 8 up (`hi`), the second in the low 8 bits (`lo`). -/
def compAt (hi lo : BitVec 32 → BitVec 32) (x : S80000x96.Idx → EReal) (idx : S80000x1.Idx → BitVec 32)
    (semb : S12x8.Idx → EReal) (iemb : S150x8.Idx → EReal)
    (wx : S96x128.Idx → EReal) (ws : S8x128.Idx → EReal) (wi : S8x128.Idx → EReal) (b : S1x128.Idx → EReal)
    (r : Fin 80000) (q : Fin 128) : EReal :=
  max ((((∑ k : Fin 96, x (ix2 r k) * wx (ix2 k q))
          + (∑ k : Fin 8, lookup semb (hi (idx (ix2 r 0))) k * ws (ix2 k q)))
        + (∑ k : Fin 8, lookup iemb (lo (idx (ix2 r 0))) k * wi (ix2 k q)))
      + b (ix2 0 q)) 0

/-- The dense half of a convolution layer at row `r` (of `h` and of the aggregated messages `m`), column `q`:
    `m[r,:]·wl[:,q] + h[r,:]·wr[:,q] + bl[q]`. -/
def denseAt (h m : S100000x128.Idx → EReal) (wl : S128x128.Idx → EReal) (bl : S1x128.Idx → EReal)
    (wr : S128x128.Idx → EReal) (r : Fin 100000) (q : Fin 128) : EReal :=
  ((∑ k : Fin 128, m (ix2 r k) * wl (ix2 k q)) + (∑ k : Fin 128, h (ix2 r k) * wr (ix2 k q))) + bl (ix2 0 q)

end Cert.Spec

end
-- ==== Proof.AggDefs.lean ====
/-
  Mean aggregation over incoming edges, two ways.

  For an edge list with destinations `dst` (32-bit words, read signed) and per-edge messages `msg[e, :]`, the blocked
  program scales every message by the reciprocal in-degree of its destination BEFORE adding the messages up per
  destination, `∑_{e : dst e = i} msg[e, f] · (1 / max (deg i) 1)`, while the plain program adds first and divides the
  sum by `max (deg i) 1` afterwards. The degree `deg i = ∑_{e : dst e = i} 1` is a natural number, so the scale is a
  non-negative real and multiplication by it distributes over the sum of extended reals whatever the messages are; and a
  quotient by a non-zero real is the product with its reciprocal. An edge whose destination word is outside
  `[0, 100000)` lands nowhere in either sum.
-/
import proofs.«422622_j33603824124606_3_alg».proof.KernelIdeal
import proofs.«422622_j33603824124606_3_alg».proof.ReferenceIdeal
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Agg

open Idealize.ShloMosaic Idealize.ShloMosaic.ValueIdx

variable [Cert.KernelIdeal.Facts₀] [Cert.ReferenceIdeal.Facts₀]

section Blocked
open Cert.KernelIdeal Cert.KernelIdeal.Facts₀

/-- The reciprocal in-degrees as the blocked program's host code computes them: `1 / max (scatter-add of ones by dst) 1`. -/
def invDeg (dst : IVec S1600000 32) : FVec Ideal S100000 .f32 :=
  Host.divf (broadcastInDim S100000 ![] bcast_S_S100000 (constant (F := Ideal) S_ .f32 0x3F800000#32))
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

/-- The blocked program's aggregation: messages scaled by `inv[dst e]` (a gather at the wrapped destination), then
    scatter-added by destination into zeros. -/
def scaledSum (inv : FVec Ideal S100000 .f32) (msg : FVec Ideal S1600000x128 .f32) (dst : IVec S1600000 32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf msg
      (broadcastInDim S1600000x128 ![0, 1] bcast_S1600000x1_S1600000x128_0_1
        (broadcastInDim S1600000x1 ![0] bcast_S1600000_S1600000x1_0
          (Host.gather gather_S100000_S1600000x1_S1600000_n_0_n_n_0_1_1 inv
            (broadcastInDim S1600000x1 ![0] bcast_S1600000_S1600000x1_0
              (select (cmpi .slt dst (broadcastInDim S1600000 ![] bcast_S_S1600000 (constantI S_ 32 0#32)))
                (addi dst (broadcastInDim S1600000 ![] bcast_S_S1600000 (constantI S_ 32 100000#32))) dst))))))

end Blocked

section Plain
open Cert.ReferenceIdeal Cert.ReferenceIdeal.Facts₀

/-- The plain program's aggregation: scatter-add the messages by destination, then divide by `max (in-degree) 1`. -/
def sumThenDivide (msg : FVec Ideal S1600000x128 .f32) (dst : IVec S1600000 32) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      msg)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

end Plain

end Cert.Agg

end
-- ==== Proof.KSpec.lean ====
/-
  What the blocked program computes, as whole-array functions of its nineteen argument arrays.

  The host code around the five kernels: the three index inputs are clipped into their tables' row ranges
  (`clip`: a signed maximum with 0, then a signed minimum with the last row), the first as a column (`polIdx`), the other two
  packed into one column as `s · 256 + i` (`compIdx`); the two input weight matrices are cut into their dense and
  embedding row ranges; a bias vector becomes a one-row matrix (`row128`). The edge list's two rows are the sources
  and the destinations (`srcOf`, `dstOf`); a source word below zero is wrapped by 100000 before it indexes a row
  (`srcCol`). A convolution layer's messages are the gathered source rows (`gatherRows`), aggregated by destination with
  the reciprocal in-degrees (`agg`, over `Cert.Agg.scaledSum`).

  Then the program: the two input layers joined (`h0`), the first convolution layer with its rectifier (`h1`), and the
  second on the first 20000 rows (`outPol`) and on the last 80000 (`outComp`).
-/
import proofs.«422622_j33603824124606_3_alg».proof.KernelIdeal
import proofs.«422622_j33603824124606_3_alg».proof.Proof.Spec
import proofs.«422622_j33603824124606_3_alg».proof.Proof.AggDefs

noncomputable section

namespace Cert.KSpec

open Idealize.ShloMosaic Idealize.ShloMosaic.ValueIdx Cert.KernelIdeal Cert.KernelIdeal.Facts₀

variable [Cert.KernelIdeal.Facts₀] [Cert.ReferenceIdeal.Facts₀]

/-! ## The host code's pieces -/

/-- A vector of index words clipped into `[0, hi]`, each word read signed. -/
def clip (s : Shape) (hb : S_.BroadcastsInDim s (![] : Fin 0 → Fin s.rank)) (hi : BitVec 32) (x : IVec s 32) : IVec s 32 :=
  minsi (broadcastInDim s ![] hb (constantI S_ 32 hi)) (maxsi (broadcastInDim s ![] hb (constantI S_ 32 0#32)) x)

/-- The first kind's table indices, clipped into the 50 rows, as a column. -/
def polIdx (x1 : IVec S20000 32) : IVec S20000x1 32 :=
  shapeCast S20000x1 (clip S20000 bcast_S_S20000 49#32 x1) shapeCasts_S20000_S20000x1

/-- The second kind's two table indices, clipped into 12 and 150 rows and packed as `s · 256 + i`, as a column. -/
def compIdx (x3 x4 : IVec S80000 32) : IVec S80000x1 32 :=
  shapeCast S80000x1
    (addi (muli (clip S80000 bcast_S_S80000 11#32 x3) (broadcastInDim S80000 ![] bcast_S_S80000 (constantI S_ 32 256#32)))
      (clip S80000 bcast_S_S80000 149#32 x4))
    shapeCasts_S80000_S80000x1

/-- A 128-vector as a one-row matrix. -/
def row128 (b : FVec Ideal S128 .f32) : FVec Ideal S1x128 .f32 := shapeCast S1x128 b shapeCasts_S128_S1x128

def polWx (x9 : FVec Ideal S72x128 .f32) : FVec Ideal S64x128 .f32 := extractStridedSlice S64x128 ![0, 0] x9 slices_S72x128_S64x128_0_0
def polWe (x9 : FVec Ideal S72x128 .f32) : FVec Ideal S8x128 .f32 := extractStridedSlice S8x128 ![64, 0] x9 slices_S72x128_S8x128_64_0
def compWx (x11 : FVec Ideal S112x128 .f32) : FVec Ideal S96x128 .f32 := extractStridedSlice S96x128 ![0, 0] x11 slices_S112x128_S96x128_0_0
def compWs (x11 : FVec Ideal S112x128 .f32) : FVec Ideal S8x128 .f32 := extractStridedSlice S8x128 ![96, 0] x11 slices_S112x128_S8x128_96_0
def compWi (x11 : FVec Ideal S112x128 .f32) : FVec Ideal S8x128 .f32 := extractStridedSlice S8x128 ![104, 0] x11 slices_S112x128_S8x128_104_0

/-- The edges' source words: row 0 of the edge list. -/
def srcOf (x5 : IVec S2x1600000 32) : IVec S1600000 32 :=
  shapeCast S1600000 (extractStridedSlice S1x1600000 ![0, 0] x5 slices_S2x1600000_S1x1600000_0_0) shapeCasts_S1x1600000_S1600000
/-- The edges' destination words: row 1 of the edge list. -/
def dstOf (x5 : IVec S2x1600000 32) : IVec S1600000 32 :=
  shapeCast S1600000 (extractStridedSlice S1x1600000 ![1, 0] x5 slices_S2x1600000_S1x1600000_1_0) shapeCasts_S1x1600000_S1600000

/-- The source words as a column of row indices: a word below zero wrapped by the number of rows. -/
def srcCol (x5 : IVec S2x1600000 32) : IVec S1600000x1 32 :=
  broadcastInDim S1600000x1 ![0] bcast_S1600000_S1600000x1_0
    (select (cmpi .slt (srcOf x5) (broadcastInDim S1600000 ![] bcast_S_S1600000 (constantI S_ 32 0#32)))
      (addi (srcOf x5) (broadcastInDim S1600000 ![] bcast_S_S1600000 (constantI S_ 32 100000#32))) (srcOf x5))

/-- The rows of `h` at the edges' sources. -/
def gatherRows (h : FVec Ideal S100000x128 .f32) (x5 : IVec S2x1600000 32) : FVec Ideal S1600000x128 .f32 :=
  Host.gather gather_S100000x128_S1600000x1_S1600000x128_1_0_n_n_0_1_1128 h (srcCol x5)

/-- The mean of the source rows over each node's incoming edges. -/
def agg (h : FVec Ideal S100000x128 .f32) (x5 : IVec S2x1600000 32) : FVec Ideal S100000x128 .f32 :=
  Cert.Agg.scaledSum (Cert.Agg.invDeg (dstOf x5)) (gatherRows h x5) (dstOf x5)

/-- Two row ranges joined into the 100000 rows. -/
def joined (a : FVec Ideal S20000x128 .f32) (b : FVec Ideal S80000x128 .f32) : FVec Ideal S100000x128 .f32 :=
  concatenate S100000x128 0 [⟨S20000x128, a⟩, ⟨S80000x128, b⟩] concatenates_S20000x128_S80000x128_S100000x128_d0

/-! ## The program -/

def hPol (x0 : FVec Ideal S20000x64 .f32) (x1 : IVec S20000 32) (x6 : FVec Ideal S50x8 .f32) (x9 : FVec Ideal S72x128 .f32)
    (x10 : FVec Ideal S128 .f32) : FVec Ideal S20000x128 .f32 :=
  fun i => Cert.Spec.polAt x0 (polIdx x1) x6 (polWx x9) (polWe x9) (row128 x10) (i 0) (i 1)

def hComp (x2 : FVec Ideal S80000x96 .f32) (x3 x4 : IVec S80000 32) (x7 : FVec Ideal S12x8 .f32) (x8 : FVec Ideal S150x8 .f32)
    (x11 : FVec Ideal S112x128 .f32) (x12 : FVec Ideal S128 .f32) : FVec Ideal S80000x128 .f32 :=
  fun i => Cert.Spec.compAt (fun v => IntOp.shrsi .vector v 8#32) (fun v => IntOp.andi v 255#32)
    x2 (compIdx x3 x4) x7 x8 (compWx x11) (compWs x11) (compWi x11) (row128 x12) (i 0) (i 1)

/-- One convolution layer's dense half at every row. -/
def layer (h : FVec Ideal S100000x128 .f32) (x5 : IVec S2x1600000 32) (wl : FVec Ideal S128x128 .f32) (b : FVec Ideal S128 .f32)
    (wr : FVec Ideal S128x128 .f32) (r : Fin 100000) (q : Fin 128) : EReal :=
  Cert.Spec.denseAt h (agg h x5) wl (row128 b) wr r q

/-- The first hidden layer after the first convolution layer and its rectifier. -/
def h1 (h : FVec Ideal S100000x128 .f32) (x5 : IVec S2x1600000 32) (x13 : FVec Ideal S128x128 .f32) (x14 : FVec Ideal S128 .f32)
    (x15 : FVec Ideal S128x128 .f32) : FVec Ideal S100000x128 .f32 :=
  fun i => max (layer h x5 x13 x14 x15 (i 0) (i 1)) 0

/-- The second convolution layer on the first 20000 rows. -/
def outPol (g : FVec Ideal S100000x128 .f32) (x5 : IVec S2x1600000 32) (x16 : FVec Ideal S128x128 .f32) (x17 : FVec Ideal S128 .f32)
    (x18 : FVec Ideal S128x128 .f32) : FVec Ideal S20000x128 .f32 :=
  fun i => layer g x5 x16 x17 x18 ⟨(i 0).val, by have := idx2_lt0 i; omega⟩ (i 1)

/-- The second convolution layer on the last 80000 rows. -/
def outComp (g : FVec Ideal S100000x128 .f32) (x5 : IVec S2x1600000 32) (x16 : FVec Ideal S128x128 .f32) (x17 : FVec Ideal S128 .f32)
    (x18 : FVec Ideal S128x128 .f32) : FVec Ideal S80000x128 .f32 :=
  fun i => layer g x5 x16 x17 x18 ⟨(i 0).val + 20000, by have := idx2_lt0 i; omega⟩ (i 1)

end Cert.KSpec

end
-- ==== Proof.Region0.lean ====
/-
  The ten row blocks the first input-layer kernel writes are the rows of one whole-array function.

  The kernel walks the 20000 rows in ten blocks of 2000; at a block it multiplies the rows' dense features with `wx`, the
  one-hot rows of the index column with the embedding table and the result with `we`, adds the bias row and rectifies.
  Every entry of a block depends only on its own row of the inputs, so block `t` of the result is rows
  `2000 t … 2000 t + 1999` of one whole-array function (`Cert.Spec.polAt`), and the ten blocks tile the array.

  First the body's stored block at an entry (three products read as sums over their inner positions, the one-hot row
  as the weight `Cert.Spec.hot`, the bias row spread over the rows), then each loaded block as rows of its array, then
  the blocks' cover of the array.
-/
import proofs.«422622_j33603824124606_3_alg».proof.Proof.Gen.KernelIdeal.Frame
import proofs.«422622_j33603824124606_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Val0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ### The one-hot rows [2000,50] times the table [50,8], read at an entry -/

private theorem hotTable_lhs_0 (i : S2000x8.Idx) (q : dot_S2000x50_S50x8_S2000x8_1_0_0_1_n_n.contr.Idx) :
    (dot_S2000x50_S50x8_S2000x8_1_0_0_1_n_n.lhsIdx i q 0).val = (i 0).val := by
  unfold DotDims.lhsIdx
  rw [dif_neg (show ¬(0 : Fin S2000x50.rank) ∈ dot_S2000x50_S50x8_S2000x8_1_0_0_1_n_n.lhsBatch by decide), dif_pos (show (0 : Fin S2000x50.rank) ∈ dot_S2000x50_S50x8_S2000x8_1_0_0_1_n_n.lhsNonContracting by decide)]
  rfl
private theorem hotTable_lhs_1 (i : S2000x8.Idx) (q : dot_S2000x50_S50x8_S2000x8_1_0_0_1_n_n.contr.Idx) :
    (dot_S2000x50_S50x8_S2000x8_1_0_0_1_n_n.lhsIdx i q 1).val = (q ⟨0, by decide⟩).val :=
  dot_S2000x50_S50x8_S2000x8_1_0_0_1_n_n.lhsIdx_val_of_single rfl i q
private theorem hotTable_rhs_0 (i : S2000x8.Idx) (q : dot_S2000x50_S50x8_S2000x8_1_0_0_1_n_n.contr.Idx) :
    (dot_S2000x50_S50x8_S2000x8_1_0_0_1_n_n.rhsIdx i q 0).val = (q ⟨0, by decide⟩).val :=
  dot_S2000x50_S50x8_S2000x8_1_0_0_1_n_n.rhsIdx_val_of_single rfl i q
private theorem hotTable_rhs_1 (i : S2000x8.Idx) (q : dot_S2000x50_S50x8_S2000x8_1_0_0_1_n_n.contr.Idx) :
    (dot_S2000x50_S50x8_S2000x8_1_0_0_1_n_n.rhsIdx i q 1).val = (i 1).val := by
  unfold DotDims.rhsIdx
  rw [dif_neg (show ¬(1 : Fin S50x8.rank) ∈ dot_S2000x50_S50x8_S2000x8_1_0_0_1_n_n.rhsBatch by decide), dif_pos (show (1 : Fin S50x8.rank) ∈ dot_S2000x50_S50x8_S2000x8_1_0_0_1_n_n.rhsNonContracting by decide)]
  rfl

/-- Entry (p, q) of the product accumulated from zero is the sum over the 50 inner positions. -/
private theorem hotTable_apply {φ₁ φ₂ : FTy} (a : FVec Ideal S2000x50 φ₁) (b : FVec Ideal S50x8 φ₂) (p : Fin 2000) (q : Fin 8) :
    matmul dot_S2000x50_S50x8_S2000x8_1_0_0_1_n_n none a b (constant (F := Ideal) S2000x8 .f32 0x00000000#32) (ix2 p q)
      = ∑ k : Fin 50, a (ix2 p k) * b (ix2 k q) := by
  simp only [matmul]
  rw [Ideal.matmul_constant_zero_apply, ← Equiv.sum_comp (contrEquiv1 dot_S2000x50_S50x8_S2000x8_1_0_0_1_n_n 50 rfl rfl).symm]
  refine Finset.sum_congr rfl fun k _ => ?_
  have hk := contrEquiv1_symm_val dot_S2000x50_S50x8_S2000x8_1_0_0_1_n_n 50 rfl rfl k
  have el : dot_S2000x50_S50x8_S2000x8_1_0_0_1_n_n.lhsIdx (ix2 p q) ((contrEquiv1 dot_S2000x50_S50x8_S2000x8_1_0_0_1_n_n 50 rfl rfl).symm k) = ix2 p k := funext fun a => Fin.ext (by
    match a with
    | ⟨0, _⟩ => exact hotTable_lhs_0 _ _
    | ⟨1, _⟩ => exact (hotTable_lhs_1 _ _).trans hk)
  have er : dot_S2000x50_S50x8_S2000x8_1_0_0_1_n_n.rhsIdx (ix2 p q) ((contrEquiv1 dot_S2000x50_S50x8_S2000x8_1_0_0_1_n_n 50 rfl rfl).symm k) = ix2 k q := funext fun a => Fin.ext (by
    match a with
    | ⟨0, _⟩ => exact (hotTable_rhs_0 _ _).trans hk
    | ⟨1, _⟩ => exact hotTable_rhs_1 _ _)
  rw [el, er]

/-! ### The dense rows [2000,64] times their weights [64,128], read at an entry -/

private theorem dense_lhs_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
private theorem dense_lhs_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
private theorem dense_rhs_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
private theorem dense_rhs_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- Entry (p, q) of the product accumulated from zero is the sum over the 64 inner positions. -/
private theorem dense_apply {φ₁ φ₂ : FTy} (a : FVec Ideal S2000x64 φ₁) (b : FVec Ideal S64x128 φ₂) (p : Fin 2000) (q : Fin 128) :
    matmul dot_S2000x64_S64x128_S2000x128_1_0_0_1_n_n none a b (constant (F := Ideal) S2000x128 .f32 0x00000000#32) (ix2 p q)
      = ∑ k : Fin 64, a (ix2 p k) * b (ix2 k q) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact dense_lhs_0 _ _
    | ⟨1, _⟩ => exact (dense_lhs_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (dense_rhs_0 _ _).trans hk
    | ⟨1, _⟩ => exact dense_rhs_1 _ _)
  rw [el, er]

/-! ### The embedded rows [2000,8] times their weights [8,128], read at an entry -/

private theorem embW_lhs_0 (i : S2000x128.Idx) (q : dot_S2000x8_S8x128_S2000x128_1_0_0_1_n_n.contr.Idx) :
    (dot_S2000x8_S8x128_S2000x128_1_0_0_1_n_n.lhsIdx i q 0).val = (i 0).val := by
  unfold DotDims.lhsIdx
  rw [dif_neg (show ¬(0 : Fin S2000x8.rank) ∈ dot_S2000x8_S8x128_S2000x128_1_0_0_1_n_n.lhsBatch by decide), dif_pos (show (0 : Fin S2000x8.rank) ∈ dot_S2000x8_S8x128_S2000x128_1_0_0_1_n_n.lhsNonContracting by decide)]
  rfl
private theorem embW_lhs_1 (i : S2000x128.Idx) (q : dot_S2000x8_S8x128_S2000x128_1_0_0_1_n_n.contr.Idx) :
    (dot_S2000x8_S8x128_S2000x128_1_0_0_1_n_n.lhsIdx i q 1).val = (q ⟨0, by decide⟩).val :=
  dot_S2000x8_S8x128_S2000x128_1_0_0_1_n_n.lhsIdx_val_of_single rfl i q
private theorem embW_rhs_0 (i : S2000x128.Idx) (q : dot_S2000x8_S8x128_S2000x128_1_0_0_1_n_n.contr.Idx) :
    (dot_S2000x8_S8x128_S2000x128_1_0_0_1_n_n.rhsIdx i q 0).val = (q ⟨0, by decide⟩).val :=
  dot_S2000x8_S8x128_S2000x128_1_0_0_1_n_n.rhsIdx_val_of_single rfl i q
private theorem embW_rhs_1 (i : S2000x128.Idx) (q : dot_S2000x8_S8x128_S2000x128_1_0_0_1_n_n.contr.Idx) :
    (dot_S2000x8_S8x128_S2000x128_1_0_0_1_n_n.rhsIdx i q 1).val = (i 1).val := by
  unfold DotDims.rhsIdx
  rw [dif_neg (show ¬(1 : Fin S8x128.rank) ∈ dot_S2000x8_S8x128_S2000x128_1_0_0_1_n_n.rhsBatch by decide), dif_pos (show (1 : Fin S8x128.rank) ∈ dot_S2000x8_S8x128_S2000x128_1_0_0_1_n_n.rhsNonContracting by decide)]
  rfl

/-- Entry (p, q) of the product accumulated from zero is the sum over the 8 inner positions. -/
private theorem embW_apply {φ₁ φ₂ : FTy} (a : FVec Ideal S2000x8 φ₁) (b : FVec Ideal S8x128 φ₂) (p : Fin 2000) (q : Fin 128) :
    matmul dot_S2000x8_S8x128_S2000x128_1_0_0_1_n_n none a b (constant (F := Ideal) S2000x128 .f32 0x00000000#32) (ix2 p q)
      = ∑ k : Fin 8, a (ix2 p k) * b (ix2 k q) := by
  simp only [matmul]
  rw [Ideal.matmul_constant_zero_apply, ← Equiv.sum_comp (contrEquiv1 dot_S2000x8_S8x128_S2000x128_1_0_0_1_n_n 8 rfl rfl).symm]
  refine Finset.sum_congr rfl fun k _ => ?_
  have hk := contrEquiv1_symm_val dot_S2000x8_S8x128_S2000x128_1_0_0_1_n_n 8 rfl rfl k
  have el : dot_S2000x8_S8x128_S2000x128_1_0_0_1_n_n.lhsIdx (ix2 p q) ((contrEquiv1 dot_S2000x8_S8x128_S2000x128_1_0_0_1_n_n 8 rfl rfl).symm k) = ix2 p k := funext fun a => Fin.ext (by
    match a with
    | ⟨0, _⟩ => exact embW_lhs_0 _ _
    | ⟨1, _⟩ => exact (embW_lhs_1 _ _).trans hk)
  have er : dot_S2000x8_S8x128_S2000x128_1_0_0_1_n_n.rhsIdx (ix2 p q) ((contrEquiv1 dot_S2000x8_S8x128_S2000x128_1_0_0_1_n_n 8 rfl rfl).symm k) = ix2 k q := funext fun a => Fin.ext (by
    match a with
    | ⟨0, _⟩ => exact (embW_rhs_0 _ _).trans hk
    | ⟨1, _⟩ => exact embW_rhs_1 _ _)
  rw [el, er]

/-! ### The one-hot row -/

/-- A select on "the two words are equal" is the `if` on their equality. -/
private theorem select_cmpi_eq {α : Type} (a b : BitVec 32) (x y : α) :
    Scalar.select (IntOp.cmpi .eq a b) x y = if a = b then x else y := by
  show (if BitVec.ofBool (a == b) = 1#1 then x else y) = if a = b then x else y
  by_cases h : a = b
  · subst h
    rw [if_pos rfl, beq_self_eq_true]
    exact if_pos rfl
  · rw [if_neg h, show (a == b) = false from beq_eq_false_iff_ne.mpr h]
    exact if_neg (by decide)

/-- The index column spread over the 50 table rows reads its row's word. -/
private theorem spread_apply (x1 : IVec S2000x1 32) (p : Fin 2000) (t : Fin 50) :
    broadcastTo S2000x50 x1 broadcasts_S2000x1_S2000x50 (ix2 p t) = x1 (ix2 p 0) := by
  refine broadcastTo_apply x1 broadcasts_S2000x1_S2000x50 (ix2 p t) (ix2 p 0) fun a => ?_
  match a with
  | ⟨0, _⟩ => show p.val = if (2000 : Nat) = 1 then 0 else p.val; rw [if_neg (by decide)]
  | ⟨1, _⟩ => show (0 : Nat) = if (1 : Nat) = 1 then 0 else t.val; rw [if_pos rfl]

/-- The row counter along the table rows reads the row's number. -/
private theorem counter_apply (p : Fin 2000) (t : Fin 50) :
    iota .tc S2000x50 32 [1] iota_S2000x50_d1_w32 (ix2 p t) = BitVec.ofNat 32 t.val :=
  iota_single_apply .tc S2000x50 32 1 iota_S2000x50_d1_w32 (ix2 p t)

/-- Entry (p, t) of the one-hot matrix: the first value where the index word of row p is the number t, else the second. -/
private theorem hot_apply (x1 : IVec S2000x1 32) (o z : Ideal .f32) (p : Fin 2000) (t : Fin 50) :
    (select (cmpi .eq (broadcastTo S2000x50 x1 broadcasts_S2000x1_S2000x50) (iota .tc S2000x50 32 [1] iota_S2000x50_d1_w32))
        (broadcast S2000x50 o) (broadcast S2000x50 z)) (ix2 p t)
      = if x1 (ix2 p 0) = BitVec.ofNat 32 t.val then o else z := by
  rw [select_apply, broadcast_apply, broadcast_apply]
  show Scalar.select (IntOp.cmpi .eq (broadcastTo S2000x50 x1 broadcasts_S2000x1_S2000x50 (ix2 p t))
      (iota .tc S2000x50 32 [1] iota_S2000x50_d1_w32 (ix2 p t))) _ _ = _
  rw [spread_apply, counter_apply, select_cmpi_eq]

/-! ### The body's value at an entry -/

/-- The bias row spread over the 2000 rows reads its column's entry. -/
private theorem bias_apply (x5 : FVec Ideal S1x128 .f32) (p : Fin 2000) (q : Fin 128) :
    broadcastTo S2000x128 x5 broadcasts_S1x128_S2000x128 (ix2 p q) = x5 (ix2 0 q) := by
  refine broadcastTo_apply x5 broadcasts_S1x128_S2000x128 (ix2 p q) (ix2 0 q) fun a => ?_
  match a with
  | ⟨0, _⟩ => show (0 : Nat) = if (1 : Nat) = 1 then 0 else p.val; rw [if_pos rfl]
  | ⟨1, _⟩ => show q.val = if (128 : Nat) = 1 then 0 else q.val; rw [if_neg (by decide)]

/-- Entry (p, q) of the block the body stores, from the six blocks it loads: the dense row times its weights, plus
    the table row the index word names times its weights, plus the bias, rectified. -/
private theorem pay_apply (x0 : Vec Ideal S2000x64 .f32) (x1 : Vec Ideal S2000x1 .i32) (x2 : Vec Ideal S50x8 .f32)
    (x3 : Vec Ideal S64x128 .f32) (x4 : Vec Ideal S8x128 .f32) (x5 : Vec Ideal S1x128 .f32) (p : Fin 2000) (q : Fin 128) :
    k0_pay1 x0 x1 x2 x3 x4 x5 (ix2 p q)
      = max (((∑ k : Fin 64, x0 (ix2 p k) * x3 (ix2 k q))
            + (∑ k : Fin 8, Cert.Spec.lookup x2 (x1 (ix2 p 0)) k * x4 (ix2 k q)))
          + x5 (ix2 0 q)) 0 := by
  unfold k0_pay1
  dsimp only
  rw [maximumf_apply, addf_apply, addf_apply, broadcast_apply, dense_apply, embW_apply, bias_apply]
  simp only [shapeCast_self, truncf_apply]
  have h0 : FloatOps.ofBits (F := Ideal) .f32 0x00000000#32 = (0 : EReal) := Ideal.ofBits_zero_f32
  have h1 : FloatOps.ofBits (F := Ideal) .f32 0x3F800000#32 = (1 : EReal) := IdealRules.sign_bit.ideal_onePat .f32
  rw [h0, h1]
  congr 2
  congr 1
  refine Finset.sum_congr rfl fun k _ => ?_
  congr 1
  rw [hotTable_apply]
  unfold Cert.Spec.lookup
  refine Finset.sum_congr rfl fun t _ => ?_
  rw [truncf_apply, truncf_apply, hot_apply]
  rfl

variable (V : (c : Dev nD) → (b : Ref sig .tc) → Buf (Elt Ideal) ((c : Thread nD τ).loc b))

/-! ### From the ten blocks to the array -/

private theorem hz : (![0, 0] : Fin 2 → Nat) = fun _ => 0 := funext fun a => by fin_cases a <;> rfl

/-- The printed index maps, decided once over the ten points: the two row-blocked inputs and the output sit at block
    `t` of their rows, the four whole inputs at block zero. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the dense block at point `t` is row `2000 t + p` of the dense array. -/
private theorem x_blk (c : Dev nD) (t : Fin cfg0.N) (p : Fin 2000) (k : Fin 64) (r : Fin 20000) (hr : r.val = t.val * 2000 + p.val) :
    (iblk0 V c 0 t : Vec Ideal S2000x64 .f32) (ix2 p k) = (V c main_arg0 : S20000x64.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- Row `p` of the index block at point `t` is row `2000 t + p` of the index column. -/
private theorem idx_blk (c : Dev nD) (t : Fin cfg0.N) (p : Fin 2000) (r : Fin 20000) (hr : r.val = t.val * 2000 + p.val) :
    (iblk0 V c 1 t : Vec Ideal S2000x1 .i32) (ix2 p 0) = (V c main_v5 : S20000x1.Idx → BitVec 32) (ix2 r 0) := by
  obtain ⟨-, -, e0, e1, -⟩ := idx_facts t
  unfold iblk0
  rw [View.read_apply]
  show V c main_v5 _ = V c main_v5 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- The table's block at every point is the whole table. -/
private theorem tbl_blk (c : Dev nD) (t : Fin cfg0.N) :
    (iblk0 V c 2 t : Vec Ideal S50x8 .f32) = (V c main_arg6 : S50x8.Idx → EReal) := by
  obtain ⟨-, -, -, -, e0, e1, -⟩ := idx_facts t
  funext j
  unfold iblk0
  rw [View.read_apply]
  show V c main_arg6 _ = V c main_arg6 _
  congr 1
  funext a
  apply Fin.ext
  match a with
  | ⟨0, _⟩ => show win0_2.index t (0 : Fin 2) * 50 + 1 * (j 0).val = (j 0).val; rw [e0]; omega
  | ⟨1, _⟩ => show win0_2.index t (1 : Fin 2) * 8 + 1 * (j 1).val = (j 1).val; rw [e1]; omega

/-- The dense weights' block at every point is the whole matrix. -/
private theorem wx_blk (c : Dev nD) (t : Fin cfg0.N) :
    (iblk0 V c 3 t : Vec Ideal S64x128 .f32) = (V c main_v3 : S64x128.Idx → EReal) := by
  obtain ⟨-, -, -, -, -, -, e0, e1, -⟩ := idx_facts t
  funext j
  unfold iblk0
  rw [View.read_apply]
  show V c main_v3 _ = V c main_v3 _
  congr 1
  funext a
  apply Fin.ext
  match a with
  | ⟨0, _⟩ => show win0_3.index t (0 : Fin 2) * 64 + 1 * (j 0).val = (j 0).val; rw [e0]; omega
  | ⟨1, _⟩ => show win0_3.index t (1 : Fin 2) * 128 + 1 * (j 1).val = (j 1).val; rw [e1]; omega

/-- The embedding weights' block at every point is the whole matrix. -/
private theorem we_blk (c : Dev nD) (t : Fin cfg0.N) :
    (iblk0 V c 4 t : Vec Ideal S8x128 .f32) = (V c main_v4 : S8x128.Idx → EReal) := by
  obtain ⟨-, -, -, -, -, -, -, -, e0, e1, -⟩ := idx_facts t
  funext j
  unfold iblk0
  rw [View.read_apply]
  show V c main_v4 _ = V c main_v4 _
  congr 1
  funext a
  apply Fin.ext
  match a with
  | ⟨0, _⟩ => show win0_4.index t (0 : Fin 2) * 8 + 1 * (j 0).val = (j 0).val; rw [e0]; omega
  | ⟨1, _⟩ => show win0_4.index t (1 : Fin 2) * 128 + 1 * (j 1).val = (j 1).val; rw [e1]; omega

/-- The bias row's block at every point is the whole row. -/
private theorem b_blk (c : Dev nD) (t : Fin cfg0.N) :
    (iblk0 V c 5 t : Vec Ideal S1x128 .f32) = (V c main_v6 : S1x128.Idx → EReal) := by
  obtain ⟨-, -, -, -, -, -, -, -, -, -, e0, e1, -⟩ := idx_facts t
  funext j
  unfold iblk0
  rw [View.read_apply]
  show V c main_v6 _ = V c main_v6 _
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

/-- The whole-array function the blocks are restrictions of. -/
private abbrev G (c : Dev nD) : S20000x128.Idx → EReal := fun i =>
  Cert.Spec.polAt (V c main_arg0) (V c main_v5) (V c main_arg6) (V c main_v3) (V c main_v4) (V c main_v6) (i 0) (i 1)

/-- Entry (p, q) of the output block at point `t` sits at row `2000 t + p`, column `q` of the array. -/
private theorem out_emb (t : Fin cfg0.N) (p : Fin 2000) (q : Fin 128) (r : Fin 20000) (hr : r.val = t.val * 2000 + p.val) :
    ((cfg0.win 6).blk t).view.emb (ix2 p q) = (ix2 r q : S20000x128.Idx) := by
  obtain ⟨-, -, -, -, -, -, -, -, -, -, -, -, e0, e1⟩ := idx_facts t
  funext a
  apply Fin.ext
  match a with
  | ⟨0, _⟩ => show win0_6.index t (0 : Fin 2) * 2000 + 1 * p.val = r.val; rw [e0, hr]; omega
  | ⟨1, _⟩ => show win0_6.index t (1 : Fin 2) * 128 + 1 * q.val = q.val; rw [e1]; omega

/-- What point `t` writes back is block `t` of the whole-array function. -/
private theorem flushed_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz]
  simp only [View.ld_unit_zero (S := S2000x64) hz, View.ld_unit_zero (S := S2000x1) hz, View.ld_unit_zero (S := S50x8) hz,
    View.ld_unit_zero (S := S64x128) hz, View.ld_unit_zero (S := S8x128) hz, View.ld_unit_zero (S := S1x128) hz]
  funext j
  obtain ⟨p, q, rfl⟩ : ∃ (p : Fin 2000) (q : Fin 128), j = ix2 p q := ⟨j 0, j 1, eq_ix2 j⟩
  have hN : cfg0.N = 10 := N_0
  have ht : t.val < 10 := hN ▸ t.isLt
  have hr : t.val * 2000 + p.val < 20000 := by have := p.isLt; omega
  show k0_pay1 (iblk0 V c 0 t) (iblk0 V c 1 t) (iblk0 V c 2 t) (iblk0 V c 3 t) (iblk0 V c 4 t) (iblk0 V c 5 t) (ix2 p q)
    = G V c (((cfg0.win 6).blk t).view.emb (ix2 p q))
  rw [out_emb t p q ⟨t.val * 2000 + p.val, hr⟩ rfl]
  refine (pay_apply (iblk0 V c 0 t) (iblk0 V c 1 t) (iblk0 V c 2 t) (iblk0 V c 3 t) (iblk0 V c 4 t) (iblk0 V c 5 t) p q).trans ?_
  show _ = Cert.Spec.polAt (V c main_arg0) (V c main_v5) (V c main_arg6) (V c main_v3) (V c main_v4) (V c main_v6)
    ⟨t.val * 2000 + p.val, hr⟩ q
  unfold Cert.Spec.polAt
  rw [tbl_blk V c t, wx_blk V c t, we_blk V c t, b_blk V c t, idx_blk V c t p ⟨t.val * 2000 + p.val, hr⟩ rfl]
  congr 3
  refine Finset.sum_congr rfl fun k _ => ?_
  rw [x_blk V c t p k ⟨t.val * 2000 + p.val, hr⟩ rfl]

/-- An index of the array is in point `t`'s block iff each coordinate is in the block's range on its axis. -/
private theorem mem_blk (t : Fin cfg0.N) (i : S20000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v7).slice (win0_6.rect t)).set ↔ _
  rw [View.set_slice_whole, Rect.mem_set_unit]
  exact Iff.rfl

/-- Every row of the array is in the block of the point its number divided by 2000 names. -/
private theorem cover (i : S20000x128.Idx) : ∃ t : Fin cfg0.N, (cfg0.win 6).flush t = true ∧ i ∈ ((cfg0.win 6).blk t).view.set := by
  have hN : cfg0.N = 10 := N_0
  have hi0 : (i 0).val < 20000 := (i 0).isLt
  have hi1 : (i 1).val < 128 := (i 1).isLt
  let t : Fin cfg0.N := ⟨(i 0).val / 2000, by rw [hN]; omega⟩
  obtain ⟨-, -, -, -, -, -, -, -, -, -, -, -, e0, e1⟩ := idx_facts t
  have et : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e0, et]; omega
  | ⟨1, _⟩ => show win0_6.index t (1 : Fin 2) * 128 ≤ (i 1).val ∧ (i 1).val < win0_6.index t (1 : Fin 2) * 128 + 128; rw [e1]; omega

/-- After the region, its output array is the input layer of the arrays the region found, entry by entry. -/
theorem value (c : Dev nD) :
    (dat0 (F := Ideal) V c).arrAt 6 cfg0.N
      = fun i => Cert.Spec.polAt (V c main_arg0) (V c main_v5) (V c main_arg6) (V c main_v3) (V c main_v4) (V c main_v6) (i 0) (i 1) :=
  (dat0 (F := Ideal) V c).arrAt_eq_of_cover 6 (G V c) (fun t _ => flushed_eq V c t) cover

end Cert.KernelIdeal.Val0

end
-- ==== Proof.Region1.lean ====
/-
  The twenty row blocks the second input-layer kernel writes are the rows of one whole-array function.

  The kernel walks the 80000 rows in twenty blocks of 4000; at a block it unpacks the two table indices from the packed
  index column (an arithmetic shift right by 8; a mask with 255), multiplies the rows' dense features with `wx`, each
  one-hot matrix with its table and then with `ws` / `wi`, adds the three products and the bias row and rectifies. Every
  entry depends only on its own row, so block `t` is rows `4000 t … 4000 t + 3999` of `Cert.Spec.compAt`, and the blocks tile
  the array.
-/
import proofs.«422622_j33603824124606_3_alg».proof.Proof.Gen.KernelIdeal.Frame
import proofs.«422622_j33603824124606_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ### The product of a [4000,12] block with a [12,8] block, entry by entry -/

private theorem hotS_lhs_row (i : S4000x8.Idx) (q : dot_S4000x12_S12x8_S4000x8_1_0_0_1_n_n.contr.Idx) :
    (dot_S4000x12_S12x8_S4000x8_1_0_0_1_n_n.lhsIdx i q 0).val = (i 0).val := by
  unfold DotDims.lhsIdx
  rw [dif_neg (show ¬(0 : Fin S4000x12.rank) ∈ dot_S4000x12_S12x8_S4000x8_1_0_0_1_n_n.lhsBatch by decide),
    dif_pos (show (0 : Fin S4000x12.rank) ∈ dot_S4000x12_S12x8_S4000x8_1_0_0_1_n_n.lhsNonContracting by decide)]
  rfl
private theorem hotS_lhs_col (i : S4000x8.Idx) (q : dot_S4000x12_S12x8_S4000x8_1_0_0_1_n_n.contr.Idx) :
    (dot_S4000x12_S12x8_S4000x8_1_0_0_1_n_n.lhsIdx i q 1).val = (q ⟨0, by decide⟩).val :=
  dot_S4000x12_S12x8_S4000x8_1_0_0_1_n_n.lhsIdx_val_of_single rfl i q
private theorem hotS_rhs_row (i : S4000x8.Idx) (q : dot_S4000x12_S12x8_S4000x8_1_0_0_1_n_n.contr.Idx) :
    (dot_S4000x12_S12x8_S4000x8_1_0_0_1_n_n.rhsIdx i q 0).val = (q ⟨0, by decide⟩).val :=
  dot_S4000x12_S12x8_S4000x8_1_0_0_1_n_n.rhsIdx_val_of_single rfl i q
private theorem hotS_rhs_col (i : S4000x8.Idx) (q : dot_S4000x12_S12x8_S4000x8_1_0_0_1_n_n.contr.Idx) :
    (dot_S4000x12_S12x8_S4000x8_1_0_0_1_n_n.rhsIdx i q 1).val = (i 1).val := by
  unfold DotDims.rhsIdx
  rw [dif_neg (show ¬(1 : Fin S12x8.rank) ∈ dot_S4000x12_S12x8_S4000x8_1_0_0_1_n_n.rhsBatch by decide),
    dif_pos (show (1 : Fin S12x8.rank) ∈ dot_S4000x12_S12x8_S4000x8_1_0_0_1_n_n.rhsNonContracting by decide)]
  rfl

/-- Into the zero block, the product at row `p`, column `q` is `∑ k, a[p,k] · b[k,q]`. -/
private theorem hotS_apply (a : FVec Ideal S4000x12 .bf16) (b : FVec Ideal S12x8 .bf16) (p : Fin 4000) (q : Fin 8) :
    matmul dot_S4000x12_S12x8_S4000x8_1_0_0_1_n_n none a b (constant (F := Ideal) S4000x8 .f32 0x00000000#32) (ix2 p q)
      = ∑ k : Fin 12, a (ix2 p k) * b (ix2 k q) := by
  show FloatOps.matmul dot_S4000x12_S12x8_S4000x8_1_0_0_1_n_n none a b (constant (F := Ideal) S4000x8 .f32 0x00000000#32) (ix2 p q) = _
  rw [Ideal.matmul_constant_zero_apply, ← Equiv.sum_comp (contrEquiv1 dot_S4000x12_S12x8_S4000x8_1_0_0_1_n_n 12 rfl rfl).symm]
  refine Finset.sum_congr rfl fun k _ => ?_
  have hk := contrEquiv1_symm_val dot_S4000x12_S12x8_S4000x8_1_0_0_1_n_n 12 rfl rfl k
  have el : dot_S4000x12_S12x8_S4000x8_1_0_0_1_n_n.lhsIdx (ix2 p q) ((contrEquiv1 dot_S4000x12_S12x8_S4000x8_1_0_0_1_n_n 12 rfl rfl).symm k) = ix2 p k :=
    funext fun d => Fin.ext (by
      match d with
      | ⟨0, _⟩ => exact hotS_lhs_row _ _
      | ⟨1, _⟩ => exact (hotS_lhs_col _ _).trans hk)
  have er : dot_S4000x12_S12x8_S4000x8_1_0_0_1_n_n.rhsIdx (ix2 p q) ((contrEquiv1 dot_S4000x12_S12x8_S4000x8_1_0_0_1_n_n 12 rfl rfl).symm k) = ix2 k q :=
    funext fun d => Fin.ext (by
      match d with
      | ⟨0, _⟩ => exact (hotS_rhs_row _ _).trans hk
      | ⟨1, _⟩ => exact hotS_rhs_col _ _)
  rw [el, er]

/-! ### The product of a [4000,150] block with a [150,8] block, entry by entry -/

private theorem hotI_lhs_row (i : S4000x8.Idx) (q : dot_S4000x150_S150x8_S4000x8_1_0_0_1_n_n.contr.Idx) :
    (dot_S4000x150_S150x8_S4000x8_1_0_0_1_n_n.lhsIdx i q 0).val = (i 0).val := by
  unfold DotDims.lhsIdx
  rw [dif_neg (show ¬(0 : Fin S4000x150.rank) ∈ dot_S4000x150_S150x8_S4000x8_1_0_0_1_n_n.lhsBatch by decide),
    dif_pos (show (0 : Fin S4000x150.rank) ∈ dot_S4000x150_S150x8_S4000x8_1_0_0_1_n_n.lhsNonContracting by decide)]
  rfl
private theorem hotI_lhs_col (i : S4000x8.Idx) (q : dot_S4000x150_S150x8_S4000x8_1_0_0_1_n_n.contr.Idx) :
    (dot_S4000x150_S150x8_S4000x8_1_0_0_1_n_n.lhsIdx i q 1).val = (q ⟨0, by decide⟩).val :=
  dot_S4000x150_S150x8_S4000x8_1_0_0_1_n_n.lhsIdx_val_of_single rfl i q
private theorem hotI_rhs_row (i : S4000x8.Idx) (q : dot_S4000x150_S150x8_S4000x8_1_0_0_1_n_n.contr.Idx) :
    (dot_S4000x150_S150x8_S4000x8_1_0_0_1_n_n.rhsIdx i q 0).val = (q ⟨0, by decide⟩).val :=
  dot_S4000x150_S150x8_S4000x8_1_0_0_1_n_n.rhsIdx_val_of_single rfl i q
private theorem hotI_rhs_col (i : S4000x8.Idx) (q : dot_S4000x150_S150x8_S4000x8_1_0_0_1_n_n.contr.Idx) :
    (dot_S4000x150_S150x8_S4000x8_1_0_0_1_n_n.rhsIdx i q 1).val = (i 1).val := by
  unfold DotDims.rhsIdx
  rw [dif_neg (show ¬(1 : Fin S150x8.rank) ∈ dot_S4000x150_S150x8_S4000x8_1_0_0_1_n_n.rhsBatch by decide),
    dif_pos (show (1 : Fin S150x8.rank) ∈ dot_S4000x150_S150x8_S4000x8_1_0_0_1_n_n.rhsNonContracting by decide)]
  rfl

/-- Into the zero block, the product at row `p`, column `q` is `∑ k, a[p,k] · b[k,q]`. -/
private theorem hotI_apply (a : FVec Ideal S4000x150 .bf16) (b : FVec Ideal S150x8 .bf16) (p : Fin 4000) (q : Fin 8) :
    matmul dot_S4000x150_S150x8_S4000x8_1_0_0_1_n_n none a b (constant (F := Ideal) S4000x8 .f32 0x00000000#32) (ix2 p q)
      = ∑ k : Fin 150, a (ix2 p k) * b (ix2 k q) := by
  show FloatOps.matmul dot_S4000x150_S150x8_S4000x8_1_0_0_1_n_n none a b (constant (F := Ideal) S4000x8 .f32 0x00000000#32) (ix2 p q) = _
  rw [Ideal.matmul_constant_zero_apply, ← Equiv.sum_comp (contrEquiv1 dot_S4000x150_S150x8_S4000x8_1_0_0_1_n_n 150 rfl rfl).symm]
  refine Finset.sum_congr rfl fun k _ => ?_
  have hk := contrEquiv1_symm_val dot_S4000x150_S150x8_S4000x8_1_0_0_1_n_n 150 rfl rfl k
  have el : dot_S4000x150_S150x8_S4000x8_1_0_0_1_n_n.lhsIdx (ix2 p q) ((contrEquiv1 dot_S4000x150_S150x8_S4000x8_1_0_0_1_n_n 150 rfl rfl).symm k) = ix2 p k :=
    funext fun d => Fin.ext (by
      match d with
      | ⟨0, _⟩ => exact hotI_lhs_row _ _
      | ⟨1, _⟩ => exact (hotI_lhs_col _ _).trans hk)
  have er : dot_S4000x150_S150x8_S4000x8_1_0_0_1_n_n.rhsIdx (ix2 p q) ((contrEquiv1 dot_S4000x150_S150x8_S4000x8_1_0_0_1_n_n 150 rfl rfl).symm k) = ix2 k q :=
    funext fun d => Fin.ext (by
      match d with
      | ⟨0, _⟩ => exact (hotI_rhs_row _ _).trans hk
      | ⟨1, _⟩ => exact hotI_rhs_col _ _)
  rw [el, er]

/-! ### The product of a [4000,96] block with a [96,128] block, entry by entry -/

private theorem dense_lhs_row (i : S4000x128.Idx) (q : dot_S4000x96_S96x128_S4000x128_1_0_0_1_n_n.contr.Idx) :
    (dot_S4000x96_S96x128_S4000x128_1_0_0_1_n_n.lhsIdx i q 0).val = (i 0).val := by
  unfold DotDims.lhsIdx
  rw [dif_neg (show ¬(0 : Fin S4000x96.rank) ∈ dot_S4000x96_S96x128_S4000x128_1_0_0_1_n_n.lhsBatch by decide),
    dif_pos (show (0 : Fin S4000x96.rank) ∈ dot_S4000x96_S96x128_S4000x128_1_0_0_1_n_n.lhsNonContracting by decide)]
  rfl
private theorem dense_lhs_col (i : S4000x128.Idx) (q : dot_S4000x96_S96x128_S4000x128_1_0_0_1_n_n.contr.Idx) :
    (dot_S4000x96_S96x128_S4000x128_1_0_0_1_n_n.lhsIdx i q 1).val = (q ⟨0, by decide⟩).val :=
  dot_S4000x96_S96x128_S4000x128_1_0_0_1_n_n.lhsIdx_val_of_single rfl i q
private theorem dense_rhs_row (i : S4000x128.Idx) (q : dot_S4000x96_S96x128_S4000x128_1_0_0_1_n_n.contr.Idx) :
    (dot_S4000x96_S96x128_S4000x128_1_0_0_1_n_n.rhsIdx i q 0).val = (q ⟨0, by decide⟩).val :=
  dot_S4000x96_S96x128_S4000x128_1_0_0_1_n_n.rhsIdx_val_of_single rfl i q
private theorem dense_rhs_col (i : S4000x128.Idx) (q : dot_S4000x96_S96x128_S4000x128_1_0_0_1_n_n.contr.Idx) :
    (dot_S4000x96_S96x128_S4000x128_1_0_0_1_n_n.rhsIdx i q 1).val = (i 1).val := by
  unfold DotDims.rhsIdx
  rw [dif_neg (show ¬(1 : Fin S96x128.rank) ∈ dot_S4000x96_S96x128_S4000x128_1_0_0_1_n_n.rhsBatch by decide),
    dif_pos (show (1 : Fin S96x128.rank) ∈ dot_S4000x96_S96x128_S4000x128_1_0_0_1_n_n.rhsNonContracting by decide)]
  rfl

/-- Into the zero block, the product at row `p`, column `q` is `∑ k, a[p,k] · b[k,q]`. -/
private theorem dense_apply (a : FVec Ideal S4000x96 .bf16) (b : FVec Ideal S96x128 .bf16) (p : Fin 4000) (q : Fin 128) :
    matmul dot_S4000x96_S96x128_S4000x128_1_0_0_1_n_n none a b (constant (F := Ideal) S4000x128 .f32 0x00000000#32) (ix2 p q)
      = ∑ k : Fin 96, a (ix2 p k) * b (ix2 k q) := by
  show FloatOps.matmul dot_S4000x96_S96x128_S4000x128_1_0_0_1_n_n none a b (constant (F := Ideal) S4000x128 .f32 0x00000000#32) (ix2 p q) = _
  rw [Ideal.matmul_constant_zero_apply, ← Equiv.sum_comp (contrEquiv1 dot_S4000x96_S96x128_S4000x128_1_0_0_1_n_n 96 rfl rfl).symm]
  refine Finset.sum_congr rfl fun k _ => ?_
  have hk := contrEquiv1_symm_val dot_S4000x96_S96x128_S4000x128_1_0_0_1_n_n 96 rfl rfl k
  have el : dot_S4000x96_S96x128_S4000x128_1_0_0_1_n_n.lhsIdx (ix2 p q) ((contrEquiv1 dot_S4000x96_S96x128_S4000x128_1_0_0_1_n_n 96 rfl rfl).symm k) = ix2 p k :=
    funext fun d => Fin.ext (by
      match d with
      | ⟨0, _⟩ => exact dense_lhs_row _ _
      | ⟨1, _⟩ => exact (dense_lhs_col _ _).trans hk)
  have er : dot_S4000x96_S96x128_S4000x128_1_0_0_1_n_n.rhsIdx (ix2 p q) ((contrEquiv1 dot_S4000x96_S96x128_S4000x128_1_0_0_1_n_n 96 rfl rfl).symm k) = ix2 k q :=
    funext fun d => Fin.ext (by
      match d with
      | ⟨0, _⟩ => exact (dense_rhs_row _ _).trans hk
      | ⟨1, _⟩ => exact dense_rhs_col _ _)
  rw [el, er]

/-! ### The product of a [4000,8] block with a [8,128] block, entry by entry -/

private theorem emb_lhs_row (i : S4000x128.Idx) (q : dot_S4000x8_S8x128_S4000x128_1_0_0_1_n_n.contr.Idx) :
    (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide),
    dif_pos (show (0 : Fin S4000x8.rank) ∈ dot_S4000x8_S8x128_S4000x128_1_0_0_1_n_n.lhsNonContracting by decide)]
  rfl
private theorem emb_lhs_col (i : S4000x128.Idx) (q : dot_S4000x8_S8x128_S4000x128_1_0_0_1_n_n.contr.Idx) :
    (dot_S4000x8_S8x128_S4000x128_1_0_0_1_n_n.lhsIdx i q 1).val = (q ⟨0, by decide⟩).val :=
  dot_S4000x8_S8x128_S4000x128_1_0_0_1_n_n.lhsIdx_val_of_single rfl i q
private theorem emb_rhs_row (i : S4000x128.Idx) (q : dot_S4000x8_S8x128_S4000x128_1_0_0_1_n_n.contr.Idx) :
    (dot_S4000x8_S8x128_S4000x128_1_0_0_1_n_n.rhsIdx i q 0).val = (q ⟨0, by decide⟩).val :=
  dot_S4000x8_S8x128_S4000x128_1_0_0_1_n_n.rhsIdx_val_of_single rfl i q
private theorem emb_rhs_col (i : S4000x128.Idx) (q : dot_S4000x8_S8x128_S4000x128_1_0_0_1_n_n.contr.Idx) :
    (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide),
    dif_pos (show (1 : Fin S8x128.rank) ∈ dot_S4000x8_S8x128_S4000x128_1_0_0_1_n_n.rhsNonContracting by decide)]
  rfl

/-- Into the zero block, the product at row `p`, column `q` is `∑ k, a[p,k] · b[k,q]`. -/
private theorem emb_apply (a : FVec Ideal S4000x8 .bf16) (b : FVec Ideal S8x128 .bf16) (p : Fin 4000) (q : Fin 128) :
    matmul dot_S4000x8_S8x128_S4000x128_1_0_0_1_n_n none a b (constant (F := Ideal) S4000x128 .f32 0x00000000#32) (ix2 p q)
      = ∑ k : Fin 8, a (ix2 p k) * b (ix2 k q) := by
  show FloatOps.matmul dot_S4000x8_S8x128_S4000x128_1_0_0_1_n_n none a b (constant (F := Ideal) S4000x128 .f32 0x00000000#32) (ix2 p q) = _
  rw [Ideal.matmul_constant_zero_apply, ← Equiv.sum_comp (contrEquiv1 dot_S4000x8_S8x128_S4000x128_1_0_0_1_n_n 8 rfl rfl).symm]
  refine Finset.sum_congr rfl fun k _ => ?_
  have hk := contrEquiv1_symm_val dot_S4000x8_S8x128_S4000x128_1_0_0_1_n_n 8 rfl rfl k
  have el : dot_S4000x8_S8x128_S4000x128_1_0_0_1_n_n.lhsIdx (ix2 p q) ((contrEquiv1 dot_S4000x8_S8x128_S4000x128_1_0_0_1_n_n 8 rfl rfl).symm k) = ix2 p k :=
    funext fun d => Fin.ext (by
      match d with
      | ⟨0, _⟩ => exact emb_lhs_row _ _
      | ⟨1, _⟩ => exact (emb_lhs_col _ _).trans hk)
  have er : dot_S4000x8_S8x128_S4000x128_1_0_0_1_n_n.rhsIdx (ix2 p q) ((contrEquiv1 dot_S4000x8_S8x128_S4000x128_1_0_0_1_n_n 8 rfl rfl).symm k) = ix2 k q :=
    funext fun d => Fin.ext (by
      match d with
      | ⟨0, _⟩ => exact (emb_rhs_row _ _).trans hk
      | ⟨1, _⟩ => exact emb_rhs_col _ _)
  rw [el, er]

/-! ### The rows of a one-hot matrix -/

/-- The word `0x3F800000` is the number one. -/
private theorem one_word : (Scalar.ofBits .f32 0x3F800000#32 : Ideal .f32) = 1 := by
  show Ideal.ofBits .f32 0x3F800000#32 = 1
  simp [Ideal.ofBits, Ideal.ieee, -EReal.coe_mul]
  norm_num

/-- The word `0` is the number zero. -/
private theorem zero_word : (Scalar.ofBits .f32 0x00000000#32 : Ideal .f32) = 0 :=
  Ideal.ofBits_zero_f32

/-- Choosing one where two words are equal and zero elsewhere is the one-hot weight. -/
private theorem select_hot (v : BitVec 32) (t : Nat) :
    Scalar.select (IntOp.cmpi .eq v (BitVec.ofNat 32 t)) (Scalar.ofBits .f32 0x3F800000#32 : Ideal .f32)
        (Scalar.ofBits .f32 0x00000000#32) = Cert.Spec.hot v t := by
  rw [one_word, zero_word]
  unfold Cert.Spec.hot Scalar.select IntOp.cmpi
  by_cases h : v = BitVec.ofNat 32 t
  · rw [if_pos h]; subst h; simp
  · rw [if_neg h]
    have hb : (v == BitVec.ofNat 32 t) = false := by simpa using h
    rw [hb]; rfl

/-- The packed index column is read as it is. -/
private theorem col_eq (v1 : Vec Ideal S4000x1 .i32) : k1_pay2 (F := Ideal) v1 = v1 := by
  unfold k1_pay2
  exact shapeCast_self _ _

/-- Row `p` of the one-hot matrix with 12 columns, at column `t`, is the one-hot weight of the row's index word. -/
private theorem hotS_row (v : IVec S4000x1 32) (hb : S4000x1.Broadcasts S4000x12) (hi : S4000x12.Iotas .tc 32 [1])
    (p : Fin 4000) (t : Fin 12) :
    (select (cmpi .eq (broadcastTo S4000x12 v hb) (iota .tc S4000x12 32 [1] hi))
        (broadcast S4000x12 (Scalar.ofBits .f32 0x3F800000#32 : Ideal .f32))
        (broadcast S4000x12 (Scalar.ofBits .f32 0x00000000#32 : Ideal .f32))) (ix2 p t)
      = Cert.Spec.hot (v (ix2 p 0)) t.val := by
  show Scalar.select (IntOp.cmpi .eq (broadcastTo S4000x12 v hb (ix2 p t)) (iota .tc S4000x12 32 [1] hi (ix2 p t))) _ _ = _
  rw [broadcastTo_apply v hb (ix2 p t) (ix2 p 0) (fun a => by
        match a with
        | ⟨0, _⟩ => show p.val = if (4000 : Nat) = 1 then 0 else p.val; rw [if_neg (by decide)]
        | ⟨1, _⟩ => show (0 : Nat) = if (1 : Nat) = 1 then 0 else _; rw [if_pos rfl]),
    iota_single_apply]
  exact select_hot _ _

/-- Row `p` of the one-hot matrix with 150 columns, at column `t`, is the one-hot weight of the row's index word. -/
private theorem hotI_row (v : IVec S4000x1 32) (hb : S4000x1.Broadcasts S4000x150) (hi : S4000x150.Iotas .tc 32 [1])
    (p : Fin 4000) (t : Fin 150) :
    (select (cmpi .eq (broadcastTo S4000x150 v hb) (iota .tc S4000x150 32 [1] hi))
        (broadcast S4000x150 (Scalar.ofBits .f32 0x3F800000#32 : Ideal .f32))
        (broadcast S4000x150 (Scalar.ofBits .f32 0x00000000#32 : Ideal .f32))) (ix2 p t)
      = Cert.Spec.hot (v (ix2 p 0)) t.val := by
  show Scalar.select (IntOp.cmpi .eq (broadcastTo S4000x150 v hb (ix2 p t)) (iota .tc S4000x150 32 [1] hi (ix2 p t))) _ _ = _
  rw [broadcastTo_apply v hb (ix2 p t) (ix2 p 0) (fun a => by
        match a with
        | ⟨0, _⟩ => show p.val = if (4000 : Nat) = 1 then 0 else p.val; rw [if_neg (by decide)]
        | ⟨1, _⟩ => show (0 : Nat) = if (1 : Nat) = 1 then 0 else _; rw [if_pos rfl]),
    iota_single_apply]
  exact select_hot _ _

/-! ### The body's values, entry by entry -/

/-- The first table's rows times `ws`: row `p` reads the table at the bits of its index word from 8 up. -/
private theorem tableS_apply (v1 : Vec Ideal S4000x1 .i32) (tbl : Vec Ideal S12x8 .f32) (ws : Vec Ideal S8x128 .f32)
    (p : Fin 4000) (q : Fin 128) :
    k1_pay5 (F := Ideal) v1 tbl ws (ix2 p q)
      = ∑ k : Fin 8, Cert.Spec.lookup tbl (IntOp.shrsi .vector (v1 (ix2 p 0)) 8#32) k * ws (ix2 k q) := by
  unfold k1_pay5
  rw [col_eq]
  refine (emb_apply _ _ p q).trans ?_
  refine Finset.sum_congr rfl fun k _ => ?_
  rw [truncf_apply, truncf_apply, shapeCast_self]
  refine congrArg (fun z => z * ws (ix2 k q)) ?_
  refine (hotS_apply _ _ p k).trans ?_
  unfold Cert.Spec.lookup
  refine Finset.sum_congr rfl fun t _ => ?_
  rw [truncf_apply, truncf_apply, hotS_row]
  rfl

/-- The second table's rows: row `p` reads the table at the low 8 bits of its index word. -/
private theorem tableI_apply (v1 : Vec Ideal S4000x1 .i32) (tbl : Vec Ideal S150x8 .f32) (p : Fin 4000) (k : Fin 8) :
    k1_pay3 (F := Ideal) v1 tbl (ix2 p k) = Cert.Spec.lookup tbl (IntOp.andi (v1 (ix2 p 0)) 255#32) k := by
  unfold k1_pay3
  rw [col_eq]
  refine (hotI_apply _ _ p k).trans ?_
  unfold Cert.Spec.lookup
  refine Finset.sum_congr rfl fun t _ => ?_
  rw [truncf_apply, truncf_apply, hotI_row]
  rfl

/-- The dense features times `wx`. -/
private theorem features_apply (x : Vec Ideal S4000x96 .f32) (wx : Vec Ideal S96x128 .f32) (p : Fin 4000) (q : Fin 128) :
    k1_pay4 (F := Ideal) x wx (ix2 p q) = ∑ k : Fin 96, x (ix2 p k) * wx (ix2 k q) := by
  unfold k1_pay4
  refine (dense_apply _ _ p q).trans ?_
  refine Finset.sum_congr rfl fun k _ => ?_
  rw [truncf_apply, truncf_apply, shapeCast_self]

/-- The bias row, repeated down the block, reads its column. -/
private theorem bias_apply (b : Vec Ideal S1x128 .f32) (hc : S1x128.ShapeCasts S1x128) (hb : S1x128.Broadcasts S4000x128)
    (p : Fin 4000) (q : Fin 128) :
    broadcastTo S4000x128 (shapeCast S1x128 b hc) hb (ix2 p q) = b (ix2 0 q) := by
  rw [shapeCast_self]
  exact broadcastTo_apply b hb (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The three products added in the body's order, then the bias, then the rectifier. -/
private theorem total_apply (a : FVec Ideal S4000x8 .f32) (b c : FVec Ideal S4000x128 .f32) (wi : Vec Ideal S8x128 .f32)
    (bias : Vec Ideal S1x128 .f32) (p : Fin 4000) (q : Fin 128) :
    k1_pay1 (F := Ideal) a b c wi bias (ix2 p q)
      = max (((b (ix2 p q) + c (ix2 p q)) + ∑ k : Fin 8, a (ix2 p k) * wi (ix2 k q)) + bias (ix2 0 q)) 0 := by
  unfold k1_pay1
  refine (maximumf_apply _ _ _).trans ?_
  rw [addf_apply, addf_apply, addf_apply, broadcast_apply, zero_word, bias_apply, emb_apply]
  refine congrArg (fun z => max (((b (ix2 p q) + c (ix2 p q)) + z) + bias (ix2 0 q)) 0) ?_
  refine Finset.sum_congr rfl fun k _ => ?_
  rw [truncf_apply, truncf_apply, shapeCast_self]

/-! ### One block of the output from one block of rows -/

/-- The body's value at row `p`, column `q` of a block, from the block's rows and the whole small arrays. -/
private theorem block_apply (x : Vec Ideal S4000x96 .f32) (idx : Vec Ideal S4000x1 .i32) (semb : Vec Ideal S12x8 .f32)
    (iemb : Vec Ideal S150x8 .f32) (wx : Vec Ideal S96x128 .f32) (ws wi : Vec Ideal S8x128 .f32) (b : Vec Ideal S1x128 .f32)
    (p : Fin 4000) (q : Fin 128) :
    k1_pay1 (F := Ideal) (k1_pay3 idx iemb) (k1_pay4 x wx) (k1_pay5 idx semb ws) wi b (ix2 p q)
      = max ((((∑ k : Fin 96, x (ix2 p k) * wx (ix2 k q))
              + (∑ k : Fin 8, Cert.Spec.lookup semb (IntOp.shrsi .vector (idx (ix2 p 0)) 8#32) k * ws (ix2 k q)))
            + (∑ k : Fin 8, Cert.Spec.lookup iemb (IntOp.andi (idx (ix2 p 0)) 255#32) k * wi (ix2 k q)))
          + b (ix2 0 q)) 0 := by
  rw [total_apply, features_apply, tableS_apply]
  simp only [tableI_apply]

/-! ### The windows' blocks, read off the arrays -/

private theorem zeros : (![0, 0] : Fin 2 → Nat) = fun _ => 0 := funext fun a => by fin_cases a <;> rfl

/-- Where each window's block sits at point `t`: the three row-blocked windows at block `t`, the others whole. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row `p` of the feature block at point `t` is row `4000 t + p` of the feature array. -/
private theorem x_block (c : Dev nD) (t : Fin cfg1.N) (p : Fin 4000) (r : Fin 80000) (hr : r.val = 4000 * t.val + p.val)
    (k : Fin 96) : (iblk1 V c 0 t : Vec Ideal S4000x96 .f32) (ix2 p k) = V c main_arg2 (ix2 r k) := by
  obtain ⟨a0, a1, b0, b1, c0, c1, d0, d1, e0, e1, f0, f1, g0, g1, h0, h1, o0, o1⟩ := idx_facts t
  show V c main_arg2 (((cfg1.win 0).blk t).view.emb (ix2 p k)) = V c main_arg2 (ix2 r k)
  refine congrArg (V c main_arg2) (funext fun a => Fin.ext ?_)
  match a with
  | ⟨0, _⟩ => show win1_0.index t (0 : Fin 2) * 4000 + 1 * p.val = r.val; omega
  | ⟨1, _⟩ => show win1_0.index t (1 : Fin 2) * 96 + 1 * k.val = k.val; omega

/-- Row `p` of the index block at point `t` is row `4000 t + p` of the packed index column. -/
private theorem idx_block (c : Dev nD) (t : Fin cfg1.N) (p : Fin 4000) (r : Fin 80000) (hr : r.val = 4000 * t.val + p.val) :
    (iblk1 V c 1 t : Vec Ideal S4000x1 .i32) (ix2 p 0) = V c main_v14 (ix2 r 0) := by
  obtain ⟨a0, a1, b0, b1, c0, c1, d0, d1, e0, e1, f0, f1, g0, g1, h0, h1, o0, o1⟩ := idx_facts t
  show V c main_v14 (((cfg1.win 1).blk t).view.emb (ix2 p 0)) = V c main_v14 (ix2 r 0)
  refine congrArg (V c main_v14) (funext fun a => Fin.ext ?_)
  match a with
  | ⟨0, _⟩ => show win1_1.index t (0 : Fin 2) * 4000 + 1 * p.val = r.val; omega
  | ⟨1, _⟩ => show win1_1.index t (1 : Fin 2) * 1 + 1 * 0 = 0; omega

/-- The first table's window holds the whole table. -/
private theorem semb_block (c : Dev nD) (t : Fin cfg1.N) : (iblk1 V c 2 t : Vec Ideal S12x8 .f32) = V c main_arg7 := by
  obtain ⟨a0, a1, b0, b1, c0, c1, d0, d1, e0, e1, f0, f1, g0, g1, h0, h1, o0, o1⟩ := idx_facts t
  funext y
  show V c main_arg7 (((cfg1.win 2).blk t).view.emb y) = V c main_arg7 y
  refine congrArg (V c main_arg7) (funext fun a => Fin.ext ?_)
  match a with
  | ⟨0, _⟩ => show win1_2.index t (0 : Fin 2) * 12 + 1 * (y 0).val = (y 0).val; omega
  | ⟨1, _⟩ => show win1_2.index t (1 : Fin 2) * 8 + 1 * (y 1).val = (y 1).val; omega

/-- The second table's window holds the whole table. -/
private theorem iemb_block (c : Dev nD) (t : Fin cfg1.N) : (iblk1 V c 3 t : Vec Ideal S150x8 .f32) = V c main_arg8 := by
  obtain ⟨a0, a1, b0, b1, c0, c1, d0, d1, e0, e1, f0, f1, g0, g1, h0, h1, o0, o1⟩ := idx_facts t
  funext y
  show V c main_arg8 (((cfg1.win 3).blk t).view.emb y) = V c main_arg8 y
  refine congrArg (V c main_arg8) (funext fun a => Fin.ext ?_)
  match a with
  | ⟨0, _⟩ => show win1_3.index t (0 : Fin 2) * 150 + 1 * (y 0).val = (y 0).val; omega
  | ⟨1, _⟩ => show win1_3.index t (1 : Fin 2) * 8 + 1 * (y 1).val = (y 1).val; omega

/-- The feature weights' window holds the whole matrix. -/
private theorem wx_block (c : Dev nD) (t : Fin cfg1.N) : (iblk1 V c 4 t : Vec Ideal S96x128 .f32) = V c main_v8 := by
  obtain ⟨a0, a1, b0, b1, c0, c1, d0, d1, e0, e1, f0, f1, g0, g1, h0, h1, o0, o1⟩ := idx_facts t
  funext y
  show V c main_v8 (((cfg1.win 4).blk t).view.emb y) = V c main_v8 y
  refine congrArg (V c main_v8) (funext fun a => Fin.ext ?_)
  match a with
  | ⟨0, _⟩ => show win1_4.index t (0 : Fin 2) * 96 + 1 * (y 0).val = (y 0).val; omega
  | ⟨1, _⟩ => show win1_4.index t (1 : Fin 2) * 128 + 1 * (y 1).val = (y 1).val; omega

/-- The first embedding weights' window holds the whole matrix. -/
private theorem ws_block (c : Dev nD) (t : Fin cfg1.N) : (iblk1 V c 5 t : Vec Ideal S8x128 .f32) = V c main_v9 := by
  obtain ⟨a0, a1, b0, b1, c0, c1, d0, d1, e0, e1, f0, f1, g0, g1, h0, h1, o0, o1⟩ := idx_facts t
  funext y
  show V c main_v9 (((cfg1.win 5).blk t).view.emb y) = V c main_v9 y
  refine congrArg (V c main_v9) (funext fun a => Fin.ext ?_)
  match a with
  | ⟨0, _⟩ => show win1_5.index t (0 : Fin 2) * 8 + 1 * (y 0).val = (y 0).val; omega
  | ⟨1, _⟩ => show win1_5.index t (1 : Fin 2) * 128 + 1 * (y 1).val = (y 1).val; omega

/-- The second embedding weights' window holds the whole matrix. -/
private theorem wi_block (c : Dev nD) (t : Fin cfg1.N) : (iblk1 V c 6 t : Vec Ideal S8x128 .f32) = V c main_v10 := by
  obtain ⟨a0, a1, b0, b1, c0, c1, d0, d1, e0, e1, f0, f1, g0, g1, h0, h1, o0, o1⟩ := idx_facts t
  funext y
  show V c main_v10 (((cfg1.win 6).blk t).view.emb y) = V c main_v10 y
  refine congrArg (V c main_v10) (funext fun a => Fin.ext ?_)
  match a with
  | ⟨0, _⟩ => show win1_6.index t (0 : Fin 2) * 8 + 1 * (y 0).val = (y 0).val; omega
  | ⟨1, _⟩ => show win1_6.index t (1 : Fin 2) * 128 + 1 * (y 1).val = (y 1).val; omega

/-- The bias window holds the whole row. -/
private theorem bias_block (c : Dev nD) (t : Fin cfg1.N) : (iblk1 V c 7 t : Vec Ideal S1x128 .f32) = V c main_v15 := by
  obtain ⟨a0, a1, b0, b1, c0, c1, d0, d1, e0, e1, f0, f1, g0, g1, h0, h1, o0, o1⟩ := idx_facts t
  funext y
  show V c main_v15 (((cfg1.win 7).blk t).view.emb y) = V c main_v15 y
  refine congrArg (V c main_v15) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-! ### The blocks tile the array -/

/-- The whole output array, entry by entry. -/
private abbrev whole (c : Dev nD) : S80000x128.Idx → EReal := fun i =>
  Cert.Spec.compAt (fun v => IntOp.shrsi .vector v 8#32) (fun v => IntOp.andi v 255#32)
    (V c main_arg2) (V c main_v14) (V c main_arg7) (V c main_arg8) (V c main_v8) (V c main_v9) (V c main_v10) (V c main_v15)
    (i 0) (i 1)

/-- What point `t` writes back is block `t` of the whole array. -/
private theorem flushed_eq (c : Dev nD) (t : Fin cfg1.N) :
    (dat1 (F := Ideal) V c).flushed 8 t = ((cfg1.win 8).blk t).view.read (Elt Ideal) (whole V c) := by
  show (cfg1.win 8).cut (grid1.coords t) ((dat1 V c).after 8 t) = _
  rw [after1_8]
  unfold out1_8
  rw [View.canon_unit_zero zeros]
  simp only [View.ld_unit_zero (S := S4000x96) zeros, View.ld_unit_zero (S := S4000x1) zeros,
    View.ld_unit_zero (S := S12x8) zeros, View.ld_unit_zero (S := S150x8) zeros, View.ld_unit_zero (S := S96x128) zeros,
    View.ld_unit_zero (S := S8x128) zeros, View.ld_unit_zero (S := S1x128) zeros]
  rw [semb_block, iemb_block, wx_block, ws_block, wi_block, bias_block]
  funext j
  obtain ⟨p, q, rfl⟩ : ∃ (p : Fin 4000) (q : Fin 128), j = ix2 p q := ⟨j 0, j 1, eq_ix2 j⟩
  have ht : t.val < 20 := lt_of_lt_of_eq t.isLt N_1
  have hp : p.val < 4000 := p.isLt
  have hrow : 4000 * t.val + p.val < 80000 := by omega
  refine (block_apply (iblk1 V c 0 t) (iblk1 V c 1 t) (V c main_arg7) (V c main_arg8) (V c main_v8) (V c main_v9)
    (V c main_v10) (V c main_v15) p q).trans ?_
  have hemb : ((cfg1.win 8).blk t).view.emb (ix2 p q) = ix2 (⟨4000 * t.val + p.val, hrow⟩ : Fin 80000) q :=
    funext fun a => Fin.ext (by
      obtain ⟨a0, a1, b0, b1, c0, c1, d0, d1, e0, e1, f0, f1, g0, g1, h0, h1, o0, o1⟩ := idx_facts t
      match a with
      | ⟨0, _⟩ => show win1_8.index t (0 : Fin 2) * 4000 + 1 * p.val = 4000 * t.val + p.val; omega
      | ⟨1, _⟩ => show win1_8.index t (1 : Fin 2) * 128 + 1 * q.val = q.val; omega)
  show _ = whole V c (((cfg1.win 8).blk t).view.emb (ix2 p q))
  rw [hemb, idx_block V c t p ⟨4000 * t.val + p.val, hrow⟩ rfl]
  simp only [x_block V c t p ⟨4000 * t.val + p.val, hrow⟩ rfl]
  rfl

/-- An index of the array is in point `t`'s block iff each coordinate is in the block's range on its axis. -/
private theorem mem_blk (t : Fin cfg1.N) (i : S80000x128.Idx) :
    i ∈ ((cfg1.win 8).blk t).view.set
      ↔ ∀ a : Fin 2, win1_8.index t a * S4000x128.size a ≤ (i a).val
          ∧ (i a).val < win1_8.index t a * S4000x128.size a + S4000x128.size a := by
  show i ∈ ((View.whole main_v16).slice (win1_8.rect t)).set ↔ _
  rw [View.set_slice_whole, Rect.mem_set_unit]
  exact Iff.rfl

/-- Row `r` of the array is in the block of point `r / 4000`. -/
private theorem cover (i : S80000x128.Idx) :
    ∃ t : Fin cfg1.N, (cfg1.win 8).flush t = true ∧ i ∈ ((cfg1.win 8).blk t).view.set := by
  have hi0 : (i 0).val < 80000 := (i 0).isLt
  have hi1 : (i 1).val < 128 := (i 1).isLt
  have hN : cfg1.N = 20 := N_1
  obtain ⟨t, ht⟩ : ∃ t : Fin cfg1.N, t.val = (i 0).val / 4000 := ⟨⟨(i 0).val / 4000, by rw [hN]; omega⟩, rfl⟩
  obtain ⟨a0, a1, b0, b1, c0, c1, d0, d1, e0, e1, f0, f1, g0, g1, h0, h1, o0, o1⟩ := idx_facts t
  refine ⟨t, flush1_8 t, ?_⟩
  rw [mem_blk]
  intro a
  match a with
  | ⟨0, _⟩ =>
    show win1_8.index t (0 : Fin 2) * 4000 ≤ (i 0).val ∧ (i 0).val < win1_8.index t (0 : Fin 2) * 4000 + 4000
    omega
  | ⟨1, _⟩ =>
    show win1_8.index t (1 : Fin 2) * 128 ≤ (i 1).val ∧ (i 1).val < win1_8.index t (1 : Fin 2) * 128 + 128
    omega

/-- After the region, its output array is the input layer of the arrays the region found, entry by entry. -/
theorem value (c : Dev nD) :
    (dat1 (F := Ideal) V c).arrAt 8 cfg1.N
      = fun i => Cert.Spec.compAt (fun v => IntOp.shrsi .vector v 8#32) (fun v => IntOp.andi v 255#32)
          (V c main_arg2) (V c main_v14) (V c main_arg7) (V c main_arg8) (V c main_v8) (V c main_v9) (V c main_v10) (V c main_v15)
          (i 0) (i 1) := by
  exact (dat1 (F := Ideal) V c).arrAt_eq_of_cover 8 (whole V c) (fun t _ => flushed_eq V c t) cover

end Cert.KernelIdeal.Val1

end
-- ==== Proof.Region2.lean ====
/-
  The dense half of the first convolution layer, block by block.

  The kernel walks the 100000 rows in twenty-five blocks of 4000; at a block it multiplies the aggregated messages with
  `wl`, the rows of `h` with `wr`, adds the two products and the bias row and rectifies. Every entry depends only on its
  own row of `h` and of the messages, so block `t` is rows `4000 t … 4000 t + 3999` of `max (Cert.Spec.denseAt …) 0`, and the
  blocks tile the array.
-/
import proofs.«422622_j33603824124606_3_alg».proof.Proof.Gen.KernelIdeal.Frame
import proofs.«422622_j33603824124606_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an entry -/

/-- Left operand of the block product, row axis: the output's row. -/
private theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- Left operand, column axis: the summation index. -/
private theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- Right operand, row axis: the summation index. -/
private theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- Right operand, column axis: the output's column. -/
private theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A [4000,128] block times a [128,128] matrix, accumulated into zero, at row `p` and column `q`: `∑ k, A[p,k] · B[k,q]`. -/
private theorem blockProd_apply {φ₁ φ₂ : FTy} (A : FVec Ideal S4000x128 φ₁) (B : FVec Ideal S128x128 φ₂) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row spread over the block's rows, at row `p` and column `q`: the row's entry `q`. -/
private theorem biasRow_apply (b : FVec Ideal S1x128 .f32) (p : Fin 4000) (q : Fin 128) :
    broadcastTo S4000x128 b broadcasts_S1x128_S4000x128 (ix2 p q) = b (ix2 0 q) := by
  refine broadcastTo_apply b broadcasts_S1x128_S4000x128 (ix2 p q) (ix2 0 q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The block program's arithmetic at row `p`, column `q` of the block. -/
private theorem pay_apply (x0 x1 : Vec Ideal S4000x128 .f32) (x2 x4 : Vec Ideal S128x128 .f32) (x3 : Vec Ideal S1x128 .f32) (p : Fin 4000) (q : Fin 128) :
    k2_pay1 (F := Ideal) x0 x1 x2 x4 x3 (ix2 p q)
      = max (((∑ k : Fin 128, x1 (ix2 p k) * x2 (ix2 k q)) + (∑ k : Fin 128, x0 (ix2 p k) * x4 (ix2 k q))) + x3 (ix2 0 q)) 0 := by
  unfold k2_pay1
  simp only [shapeCast_self]
  rw [maximumf_apply, addf_apply, addf_apply, blockProd_apply, blockProd_apply, biasRow_apply, broadcast_apply]
  simp only [truncf_apply]
  exact congrArg (max _) Ideal.ofBits_zero_f32

/-! ## The windows' blocks as rows of their arrays -/

/-- The whole-block accesses sit at zero offsets. -/
private theorem zeroOff : (![0, 0] : Fin 2 → Nat) = fun _ => 0 :=
  funext fun a => match a with | ⟨0, _⟩ => rfl | ⟨1, _⟩ => rfl

/-- The block indices over the twenty-five grid points: the two row-blocked inputs and the output sit at block
    row `t`, column block zero; the two weight matrices and the bias row are taken whole. -/
private theorem idx_h : ∀ t : Fin cfg2.N, win2_0.index t (0 : Fin 2) = t.val ∧ win2_0.index t (1 : Fin 2) = 0 :=
  (by decide +kernel : ∀ t : Fin grid2.N, _)
private theorem idx_m : ∀ t : Fin cfg2.N, win2_1.index t (0 : Fin 2) = t.val ∧ win2_1.index t (1 : Fin 2) = 0 :=
  (by decide +kernel : ∀ t : Fin grid2.N, _)
private theorem idx_wl : ∀ t : Fin cfg2.N, win2_2.index t (0 : Fin 2) = 0 ∧ win2_2.index t (1 : Fin 2) = 0 :=
  (by decide +kernel : ∀ t : Fin grid2.N, _)
private theorem idx_b : ∀ t : Fin cfg2.N, win2_3.index t (0 : Fin 2) = 0 ∧ win2_3.index t (1 : Fin 2) = 0 :=
  (by decide +kernel : ∀ t : Fin grid2.N, _)
private theorem idx_wr : ∀ t : Fin cfg2.N, win2_4.index t (0 : Fin 2) = 0 ∧ win2_4.index t (1 : Fin 2) = 0 :=
  (by decide +kernel : ∀ t : Fin grid2.N, _)
private theorem idx_out : ∀ t : Fin cfg2.N, win2_5.index t (0 : Fin 2) = t.val ∧ win2_5.index t (1 : Fin 2) = 0 :=
  (by decide +kernel : ∀ t : Fin grid2.N, _)

/-- Block `t` of `h`, at its row `p` and column `k`, is `h[4000 t + p, k]`. -/
private theorem h_blk (c : Dev nD) (t : Fin cfg2.N) (p : Fin 4000) (k : Fin 128) (r : Fin 100000) (hr : r.val = 4000 * t.val + p.val) :
    (iblk2 V c 0 t : Vec Ideal S4000x128 .f32) (ix2 p k) = (V c main_v17 : S100000x128.Idx → EReal) (ix2 r k) := by
  obtain ⟨e0, e1⟩ := idx_h t
  unfold iblk2
  rw [View.read_apply]
  show V c main_v17 _ = V c main_v17 _
  congr 1
  funext a; apply Fin.ext
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- Block `t` of the aggregated messages, at its row `p` and column `k`, is `m[4000 t + p, k]`. -/
private theorem m_blk (c : Dev nD) (t : Fin cfg2.N) (p : Fin 4000) (k : Fin 128) (r : Fin 100000) (hr : r.val = 4000 * t.val + p.val) :
    (iblk2 V c 1 t : Vec Ideal S4000x128 .f32) (ix2 p k) = (V c main_v49 : S100000x128.Idx → EReal) (ix2 r k) := by
  obtain ⟨e0, e1⟩ := idx_m t
  unfold iblk2
  rw [View.read_apply]
  show V c main_v49 _ = V c main_v49 _
  congr 1
  funext a; apply Fin.ext
  match a with
  | ⟨0, _⟩ => show win2_1.index t (0 : Fin 2) * 4000 + 1 * p.val = r.val; rw [e0, hr]; omega
  | ⟨1, _⟩ => show win2_1.index t (1 : Fin 2) * 128 + 1 * k.val = k.val; rw [e1]; omega

/-- The window on `wl` is the whole matrix at every point. -/
private theorem wl_blk (c : Dev nD) (t : Fin cfg2.N) (k q : Fin 128) :
    (iblk2 V c 2 t : Vec Ideal S128x128 .f32) (ix2 k q) = (V c main_arg13 : S128x128.Idx → EReal) (ix2 k q) := by
  obtain ⟨e0, e1⟩ := idx_wl t
  unfold iblk2
  rw [View.read_apply]
  show V c main_arg13 _ = V c main_arg13 _
  congr 1
  funext a; apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- The window on the bias row is the whole row at every point. -/
private theorem b_blk (c : Dev nD) (t : Fin cfg2.N) (q : Fin 128) :
    (iblk2 V c 3 t : Vec Ideal S1x128 .f32) (ix2 0 q) = (V c main_v50 : S1x128.Idx → EReal) (ix2 0 q) := by
  obtain ⟨e0, e1⟩ := idx_b t
  unfold iblk2
  rw [View.read_apply]
  show V c main_v50 _ = V c main_v50 _
  congr 1
  funext a; apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- The window on `wr` is the whole matrix at every point. -/
private theorem wr_blk (c : Dev nD) (t : Fin cfg2.N) (k q : Fin 128) :
    (iblk2 V c 4 t : Vec Ideal S128x128 .f32) (ix2 k q) = (V c main_arg15 : S128x128.Idx → EReal) (ix2 k q) := by
  obtain ⟨e0, e1⟩ := idx_wr t
  unfold iblk2
  rw [View.read_apply]
  show V c main_arg15 _ = V c main_arg15 _
  congr 1
  funext a; apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- If blocks agree with rows of the arrays — the two row-blocked ones at array row `r`, the matrices and the bias row
    whole — the dense layer of the blocks at the block's row `p` is the dense layer of the arrays at row `r`. -/
private theorem dense_of_rows (h m : S100000x128.Idx → EReal) (wl wr : S128x128.Idx → EReal) (b : S1x128.Idx → EReal)
    (x0 x1 : Vec Ideal S4000x128 .f32) (x2 x4 : Vec Ideal S128x128 .f32) (x3 : Vec Ideal S1x128 .f32)
    (p : Fin 4000) (q : Fin 128) (n : Nat) (r : Fin 100000) (q' : Fin 128) (hr : r.val = n) (hq : q'.val = q.val)
    (h0 : ∀ r' : Fin 100000, r'.val = n → ∀ k : Fin 128, x0 (ix2 p k) = h (ix2 r' k))
    (h1 : ∀ r' : Fin 100000, r'.val = n → ∀ k : Fin 128, x1 (ix2 p k) = m (ix2 r' k))
    (h2 : ∀ k : Fin 128, x2 (ix2 k q) = wl (ix2 k q)) (h4 : ∀ k : Fin 128, x4 (ix2 k q) = wr (ix2 k q))
    (h3 : x3 (ix2 0 q) = b (ix2 0 q)) :
    ((∑ k : Fin 128, x1 (ix2 p k) * x2 (ix2 k q)) + (∑ k : Fin 128, x0 (ix2 p k) * x4 (ix2 k q))) + x3 (ix2 0 q)
      = Cert.Spec.denseAt h m wl b wr r q' := by
  obtain rfl : q' = q := Fin.ext hq
  unfold Cert.Spec.denseAt
  rw [h3]
  congr 1
  congr 1
  · exact Finset.sum_congr rfl fun k _ => by rw [h1 r hr k, h2 k]
  · exact Finset.sum_congr rfl fun k _ => by rw [h0 r hr k, h4 k]

/-! ## From the blocks to the array -/

/-- A function on a [4000,128] block is known by its values at rows and columns. -/
private theorem ext_blk {α : Type} {f g : S4000x128.Idx → α} (h : ∀ (p : Fin 4000) (q : Fin 128), f (ix2 p q) = g (ix2 p q)) : f = g :=
  funext fun j => by rw [eq_ix2 j]; exact h _ _

/-- The array every block is cut from: the rectified dense layer of the arrays the region finds. -/
private abbrev layer (c : Dev nD) : S100000x128.Idx → EReal := fun i =>
  max (Cert.Spec.denseAt (V c main_v17) (V c main_v49) (V c main_arg13) (V c main_v50) (V c main_arg15) (i 0) (i 1)) 0

/-- What point `t` writes back is block `t` of that array. -/
private theorem flushed_eq (c : Dev nD) (t : Fin cfg2.N) :
    (dat2 (F := Ideal) V c).flushed 5 t = ((cfg2.win 5).blk t).view.read (Elt Ideal) (layer V c) := by
  show (cfg2.win 5).cut (grid2.coords t) ((dat2 V c).after 5 t) = _
  rw [after2_5]
  unfold out2_5
  rw [View.canon_unit_zero zeroOff]
  simp only [View.ld_unit_zero (S := S4000x128) zeroOff, View.ld_unit_zero (S := S128x128) zeroOff, View.ld_unit_zero (S := S1x128) zeroOff]
  obtain ⟨e0, e1⟩ := idx_out t
  refine ext_blk fun p q => ?_
  show k2_pay1 (F := Ideal) (iblk2 V c 0 t) (iblk2 V c 1 t) (iblk2 V c 2 t) (iblk2 V c 4 t) (iblk2 V c 3 t) (ix2 p q)
    = layer V c (((cfg2.win 5).blk t).view.emb (ix2 p q))
  refine (pay_apply _ _ _ _ _ p q).trans ?_
  refine congrArg (max · 0) (dense_of_rows _ _ _ _ _ _ _ _ _ _ p q (4000 * t.val + p.val) _ _ ?_ ?_
    (fun r' hr' k => h_blk V c t p k r' hr') (fun r' hr' k => m_blk V c t p k r' hr')
    (fun k => wl_blk V c t k q) (fun k => wr_blk V c t k q) (b_blk V c t q))
  · show win2_5.index t (0 : Fin 2) * 4000 + 1 * p.val = 4000 * t.val + p.val; rw [e0]; omega
  · show win2_5.index t (1 : Fin 2) * 128 + 1 * q.val = q.val; rw [e1]; omega

/-- An index of the array is in point `t`'s block iff each coordinate is in the block's range on its axis. -/
private theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v51).slice (win2_5.rect t)).set ↔ _
  rw [View.set_slice_whole, Rect.mem_set_unit]
  exact Iff.rfl

/-- The blocks tile the array: row `r` is in the block of point `r / 4000`. -/
private theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 25 := N_2
  have ht : (i 0).val / 4000 < cfg2.N := by show (i 0).val / 4000 < grid2.N; rw [hN]; omega
  obtain ⟨e0, e1⟩ := idx_out ⟨(i 0).val / 4000, ht⟩
  refine ⟨⟨(i 0).val / 4000, ht⟩, flush2_5 _, ?_⟩
  rw [mem_blk]
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_5.index ⟨(i 0).val / 4000, ht⟩ (1 : Fin 2) * 128 ≤ (i 1).val ∧ (i 1).val < win2_5.index ⟨(i 0).val / 4000, ht⟩ (1 : Fin 2) * 128 + 128
    rw [e1]; omega

/-- After the region, its output array is the rectified dense layer of the arrays the region found, entry by entry. -/
theorem value (c : Dev nD) :
    (dat2 (F := Ideal) V c).arrAt 5 cfg2.N
      = fun i => max (Cert.Spec.denseAt (V c main_v17) (V c main_v49) (V c main_arg13) (V c main_v50) (V c main_arg15) (i 0) (i 1)) 0 :=
  (dat2 (F := Ideal) V c).arrAt_eq_of_cover 5 (layer V c) (fun t _ => flushed_eq V c t) covered

end Cert.KernelIdeal.Val2

end
-- ==== Proof.Region3.lean ====
/-
  The dense half of the second convolution layer on the first 20000 rows, block by block.

  Five blocks of 4000 rows; block `t` of the result reads rows `4000 t … 4000 t + 3999` of `h` and of the messages (the two
  input windows move with the output window), multiplies them with `wl` and `wr`, adds the products and the bias row. No
  rectifier. The five blocks tile the 20000-row result.
-/
import proofs.«422622_j33603824124606_3_alg».proof.Proof.Gen.KernelIdeal.Frame
import proofs.«422622_j33603824124606_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an entry -/

/-- Left operand of the block product, row axis: the output's row. -/
private theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- Left operand, column axis: the summation index. -/
private theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- Right operand, row axis: the summation index. -/
private theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- Right operand, column axis: the output's column. -/
private theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A [4000,128] block times a [128,128] matrix, accumulated into zero, at row `p` and column `q`: `∑ k, A[p,k] · B[k,q]`. -/
private theorem blockProd_apply {φ₁ φ₂ : FTy} (A : FVec Ideal S4000x128 φ₁) (B : FVec Ideal S128x128 φ₂) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row spread over the block's rows, at row `p` and column `q`: the row's entry `q`. -/
private theorem biasRow_apply (b : FVec Ideal S1x128 .f32) (p : Fin 4000) (q : Fin 128) :
    broadcastTo S4000x128 b broadcasts_S1x128_S4000x128 (ix2 p q) = b (ix2 0 q) := by
  refine broadcastTo_apply b broadcasts_S1x128_S4000x128 (ix2 p q) (ix2 0 q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The block program's arithmetic at row `p`, column `q` of the block: the two products and the bias, no rectifier. -/
private theorem pay_apply (x0 x1 : Vec Ideal S4000x128 .f32) (x2 x4 : Vec Ideal S128x128 .f32) (x3 : Vec Ideal S1x128 .f32) (p : Fin 4000) (q : Fin 128) :
    k3_pay1 (F := Ideal) x0 x1 x2 x4 x3 (ix2 p q)
      = ((∑ k : Fin 128, x1 (ix2 p k) * x2 (ix2 k q)) + (∑ k : Fin 128, x0 (ix2 p k) * x4 (ix2 k q))) + x3 (ix2 0 q) := by
  unfold k3_pay1
  simp only [shapeCast_self]
  rw [addf_apply, addf_apply, blockProd_apply, blockProd_apply, biasRow_apply]
  simp only [truncf_apply]

/-! ## The windows' blocks as rows of their arrays -/

/-- The whole-block accesses sit at zero offsets. -/
private theorem zeroOff : (![0, 0] : Fin 2 → Nat) = fun _ => 0 :=
  funext fun a => match a with | ⟨0, _⟩ => rfl | ⟨1, _⟩ => rfl

/-- The block indices over the five grid points: the two row-blocked inputs and the output sit at block row `t`,
    column block zero; the two weight matrices and the bias row are taken whole. -/
private theorem idx_h : ∀ t : Fin cfg3.N, win3_0.index t (0 : Fin 2) = t.val ∧ win3_0.index t (1 : Fin 2) = 0 :=
  (by decide +kernel : ∀ t : Fin grid3.N, _)
private theorem idx_m : ∀ t : Fin cfg3.N, win3_1.index t (0 : Fin 2) = t.val ∧ win3_1.index t (1 : Fin 2) = 0 :=
  (by decide +kernel : ∀ t : Fin grid3.N, _)
private theorem idx_wl : ∀ t : Fin cfg3.N, win3_2.index t (0 : Fin 2) = 0 ∧ win3_2.index t (1 : Fin 2) = 0 :=
  (by decide +kernel : ∀ t : Fin grid3.N, _)
private theorem idx_b : ∀ t : Fin cfg3.N, win3_3.index t (0 : Fin 2) = 0 ∧ win3_3.index t (1 : Fin 2) = 0 :=
  (by decide +kernel : ∀ t : Fin grid3.N, _)
private theorem idx_wr : ∀ t : Fin cfg3.N, win3_4.index t (0 : Fin 2) = 0 ∧ win3_4.index t (1 : Fin 2) = 0 :=
  (by decide +kernel : ∀ t : Fin grid3.N, _)
private theorem idx_out : ∀ t : Fin cfg3.N, win3_5.index t (0 : Fin 2) = t.val ∧ win3_5.index t (1 : Fin 2) = 0 :=
  (by decide +kernel : ∀ t : Fin grid3.N, _)

/-- Block `t` of `h`, at its row `p` and column `k`, is `h[4000 t + p, k]`. -/
private theorem h_blk (c : Dev nD) (t : Fin cfg3.N) (p : Fin 4000) (k : Fin 128) (r : Fin 100000) (hr : r.val = 4000 * t.val + p.val) :
    (iblk3 V c 0 t : Vec Ideal S4000x128 .f32) (ix2 p k) = (V c main_v51 : S100000x128.Idx → EReal) (ix2 r k) := by
  obtain ⟨e0, e1⟩ := idx_h t
  unfold iblk3
  rw [View.read_apply]
  show V c main_v51 _ = V c main_v51 _
  congr 1
  funext a; apply Fin.ext
  match a with
  | ⟨0, _⟩ => show win3_0.index t (0 : Fin 2) * 4000 + 1 * p.val = r.val; rw [e0, hr]; omega
  | ⟨1, _⟩ => show win3_0.index t (1 : Fin 2) * 128 + 1 * k.val = k.val; rw [e1]; omega

/-- Block `t` of the aggregated messages, at its row `p` and column `k`, is `m[4000 t + p, k]`. -/
private theorem m_blk (c : Dev nD) (t : Fin cfg3.N) (p : Fin 4000) (k : Fin 128) (r : Fin 100000) (hr : r.val = 4000 * t.val + p.val) :
    (iblk3 V c 1 t : Vec Ideal S4000x128 .f32) (ix2 p k) = (V c main_v71 : S100000x128.Idx → EReal) (ix2 r k) := by
  obtain ⟨e0, e1⟩ := idx_m t
  unfold iblk3
  rw [View.read_apply]
  show V c main_v71 _ = V c main_v71 _
  congr 1
  funext a; apply Fin.ext
  match a with
  | ⟨0, _⟩ => show win3_1.index t (0 : Fin 2) * 4000 + 1 * p.val = r.val; rw [e0, hr]; omega
  | ⟨1, _⟩ => show win3_1.index t (1 : Fin 2) * 128 + 1 * k.val = k.val; rw [e1]; omega

/-- The window on `wl` is the whole matrix at every point. -/
private theorem wl_blk (c : Dev nD) (t : Fin cfg3.N) (k q : Fin 128) :
    (iblk3 V c 2 t : Vec Ideal S128x128 .f32) (ix2 k q) = (V c main_arg16 : S128x128.Idx → EReal) (ix2 k q) := by
  obtain ⟨e0, e1⟩ := idx_wl t
  unfold iblk3
  rw [View.read_apply]
  show V c main_arg16 _ = V c main_arg16 _
  congr 1
  funext a; apply Fin.ext
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- The window on the bias row is the whole row at every point. -/
private theorem b_blk (c : Dev nD) (t : Fin cfg3.N) (q : Fin 128) :
    (iblk3 V c 3 t : Vec Ideal S1x128 .f32) (ix2 0 q) = (V c main_v72 : S1x128.Idx → EReal) (ix2 0 q) := by
  obtain ⟨e0, e1⟩ := idx_b t
  unfold iblk3
  rw [View.read_apply]
  show V c main_v72 _ = V c main_v72 _
  congr 1
  funext a; apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- The window on `wr` is the whole matrix at every point. -/
private theorem wr_blk (c : Dev nD) (t : Fin cfg3.N) (k q : Fin 128) :
    (iblk3 V c 4 t : Vec Ideal S128x128 .f32) (ix2 k q) = (V c main_arg18 : S128x128.Idx → EReal) (ix2 k q) := by
  obtain ⟨e0, e1⟩ := idx_wr t
  unfold iblk3
  rw [View.read_apply]
  show V c main_arg18 _ = V c main_arg18 _
  congr 1
  funext a; apply Fin.ext
  match a with
  | ⟨0, _⟩ => show win3_4.index t (0 : Fin 2) * 128 + 1 * k.val = k.val; rw [e0]; omega
  | ⟨1, _⟩ => show win3_4.index t (1 : Fin 2) * 128 + 1 * q.val = q.val; rw [e1]; omega

/-- If blocks agree with rows of the arrays — the two row-blocked ones at array row `r`, the matrices and the bias row
    whole — the dense layer of the blocks at the block's row `p` is the dense layer of the arrays at row `r`. -/
private theorem dense_of_rows (h m : S100000x128.Idx → EReal) (wl wr : S128x128.Idx → EReal) (b : S1x128.Idx → EReal)
    (x0 x1 : Vec Ideal S4000x128 .f32) (x2 x4 : Vec Ideal S128x128 .f32) (x3 : Vec Ideal S1x128 .f32)
    (p : Fin 4000) (q : Fin 128) (n : Nat) (r : Fin 100000) (q' : Fin 128) (hr : r.val = n) (hq : q'.val = q.val)
    (h0 : ∀ r' : Fin 100000, r'.val = n → ∀ k : Fin 128, x0 (ix2 p k) = h (ix2 r' k))
    (h1 : ∀ r' : Fin 100000, r'.val = n → ∀ k : Fin 128, x1 (ix2 p k) = m (ix2 r' k))
    (h2 : ∀ k : Fin 128, x2 (ix2 k q) = wl (ix2 k q)) (h4 : ∀ k : Fin 128, x4 (ix2 k q) = wr (ix2 k q))
    (h3 : x3 (ix2 0 q) = b (ix2 0 q)) :
    ((∑ k : Fin 128, x1 (ix2 p k) * x2 (ix2 k q)) + (∑ k : Fin 128, x0 (ix2 p k) * x4 (ix2 k q))) + x3 (ix2 0 q)
      = Cert.Spec.denseAt h m wl b wr r q' := by
  obtain rfl : q' = q := Fin.ext hq
  unfold Cert.Spec.denseAt
  rw [h3]
  congr 1
  congr 1
  · exact Finset.sum_congr rfl fun k _ => by rw [h1 r hr k, h2 k]
  · exact Finset.sum_congr rfl fun k _ => by rw [h0 r hr k, h4 k]

/-! ## From the blocks to the array -/

/-- A function on a [4000,128] block is known by its values at rows and columns. -/
private theorem ext_blk {α : Type} {f g : S4000x128.Idx → α} (h : ∀ (p : Fin 4000) (q : Fin 128), f (ix2 p q) = g (ix2 p q)) : f = g :=
  funext fun j => by rw [eq_ix2 j]; exact h _ _

/-- The array every block is cut from: the dense layer of the arrays the region finds, on the first 20000 rows. -/
private abbrev layer (c : Dev nD) : S20000x128.Idx → EReal := fun i =>
  Cert.Spec.denseAt (V c main_v51) (V c main_v71) (V c main_arg16) (V c main_v72) (V c main_arg18)
    ⟨(i 0).val, by have := idx2_lt0 i; omega⟩ (i 1)

/-- What point `t` writes back is block `t` of that array. -/
private theorem flushed_eq (c : Dev nD) (t : Fin cfg3.N) :
    (dat3 (F := Ideal) V c).flushed 5 t = ((cfg3.win 5).blk t).view.read (Elt Ideal) (layer V c) := by
  show (cfg3.win 5).cut (grid3.coords t) ((dat3 V c).after 5 t) = _
  rw [after3_5]
  unfold out3_5
  rw [View.canon_unit_zero zeroOff]
  simp only [View.ld_unit_zero (S := S4000x128) zeroOff, View.ld_unit_zero (S := S128x128) zeroOff, View.ld_unit_zero (S := S1x128) zeroOff]
  obtain ⟨e0, e1⟩ := idx_out t
  refine ext_blk fun p q => ?_
  show k3_pay1 (F := Ideal) (iblk3 V c 0 t) (iblk3 V c 1 t) (iblk3 V c 2 t) (iblk3 V c 4 t) (iblk3 V c 3 t) (ix2 p q)
    = layer V c (((cfg3.win 5).blk t).view.emb (ix2 p q))
  refine (pay_apply _ _ _ _ _ p q).trans ?_
  refine dense_of_rows _ _ _ _ _ _ _ _ _ _ p q (4000 * t.val + p.val) _ _ ?_ ?_
    (fun r' hr' k => h_blk V c t p k r' hr') (fun r' hr' k => m_blk V c t p k r' hr')
    (fun k => wl_blk V c t k q) (fun k => wr_blk V c t k q) (b_blk V c t q)
  · show win3_5.index t (0 : Fin 2) * 4000 + 1 * p.val = 4000 * t.val + p.val; rw [e0]; omega
  · show win3_5.index t (1 : Fin 2) * 128 + 1 * q.val = q.val; rw [e1]; omega

/-- An index of the array is in point `t`'s block iff each coordinate is in the block's range on its axis. -/
private theorem mem_blk (t : Fin cfg3.N) (i : S20000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v73).slice (win3_5.rect t)).set ↔ _
  rw [View.set_slice_whole, Rect.mem_set_unit]
  exact Iff.rfl

/-- The blocks tile the array: row `r` is in the block of point `r / 4000`. -/
private theorem covered (i : S20000x128.Idx) :
    ∃ t : Fin cfg3.N, (cfg3.win 5).flush t = true ∧ i ∈ ((cfg3.win 5).blk t).view.set := by
  have hi0 : (i 0).val < 20000 := (i 0).isLt
  have hi1 : (i 1).val < 128 := (i 1).isLt
  have hN : grid3.N = 5 := N_3
  have ht : (i 0).val / 4000 < cfg3.N := by show (i 0).val / 4000 < grid3.N; rw [hN]; omega
  obtain ⟨e0, e1⟩ := idx_out ⟨(i 0).val / 4000, ht⟩
  refine ⟨⟨(i 0).val / 4000, ht⟩, flush3_5 _, ?_⟩
  rw [mem_blk]
  intro a
  match a with
  | ⟨0, _⟩ =>
    show win3_5.index ⟨(i 0).val / 4000, ht⟩ (0 : Fin 2) * 4000 ≤ (i 0).val ∧ (i 0).val < win3_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win3_5.index ⟨(i 0).val / 4000, ht⟩ (1 : Fin 2) * 128 ≤ (i 1).val ∧ (i 1).val < win3_5.index ⟨(i 0).val / 4000, ht⟩ (1 : Fin 2) * 128 + 128
    rw [e1]; omega

/-- After the region, row `r` of its output array is the dense layer at row `r` of the arrays the region found. -/
theorem value (c : Dev nD) :
    (dat3 (F := Ideal) V c).arrAt 5 cfg3.N
      = fun i => Cert.Spec.denseAt (V c main_v51) (V c main_v71) (V c main_arg16) (V c main_v72) (V c main_arg18)
          ⟨(i 0).val, by have := idx2_lt0 i; omega⟩ (i 1) :=
  (dat3 (F := Ideal) V c).arrAt_eq_of_cover 5 (layer V c) (fun t _ => flushed_eq V c t) covered

end Cert.KernelIdeal.Val3

end
-- ==== Proof.Region4.lean ====
/-
  The dense half of the second convolution layer on the last 80000 rows, block by block.

  Twenty blocks of 4000 rows; block `t` of the result reads block `t + 5` of `h` and of the messages, that is rows
  `20000 + 4000 t … 20000 + 4000 t + 3999`, multiplies them with `wl` and `wr`, adds the products and the bias row. No
  rectifier. The twenty blocks tile the 80000-row result.
-/
import proofs.«422622_j33603824124606_3_alg».proof.Proof.Gen.KernelIdeal.Frame
import proofs.«422622_j33603824124606_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an entry -/

/-- Left operand of the block product, row axis: the output's row. -/
private theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- Left operand, column axis: the summation index. -/
private theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- Right operand, row axis: the summation index. -/
private theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- Right operand, column axis: the output's column. -/
private theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A [4000,128] block times a [128,128] matrix, accumulated into zero, at row `p` and column `q`: `∑ k, A[p,k] · B[k,q]`. -/
private theorem blockProd_apply {φ₁ φ₂ : FTy} (A : FVec Ideal S4000x128 φ₁) (B : FVec Ideal S128x128 φ₂) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row spread over the block's rows, at row `p` and column `q`: the row's entry `q`. -/
private theorem biasRow_apply (b : FVec Ideal S1x128 .f32) (p : Fin 4000) (q : Fin 128) :
    broadcastTo S4000x128 b broadcasts_S1x128_S4000x128 (ix2 p q) = b (ix2 0 q) := by
  refine broadcastTo_apply b broadcasts_S1x128_S4000x128 (ix2 p q) (ix2 0 q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The block program's arithmetic at row `p`, column `q` of the block: the two products and the bias, no rectifier. -/
private theorem pay_apply (x0 x1 : Vec Ideal S4000x128 .f32) (x2 x4 : Vec Ideal S128x128 .f32) (x3 : Vec Ideal S1x128 .f32) (p : Fin 4000) (q : Fin 128) :
    k4_pay1 (F := Ideal) x0 x1 x2 x4 x3 (ix2 p q)
      = ((∑ k : Fin 128, x1 (ix2 p k) * x2 (ix2 k q)) + (∑ k : Fin 128, x0 (ix2 p k) * x4 (ix2 k q))) + x3 (ix2 0 q) := by
  unfold k4_pay1
  simp only [shapeCast_self]
  rw [addf_apply, addf_apply, blockProd_apply, blockProd_apply, biasRow_apply]
  simp only [truncf_apply]

/-! ## The windows' blocks as rows of their arrays -/

/-- The whole-block accesses sit at zero offsets. -/
private theorem zeroOff : (![0, 0] : Fin 2 → Nat) = fun _ => 0 :=
  funext fun a => match a with | ⟨0, _⟩ => rfl | ⟨1, _⟩ => rfl

/-- The block indices over the twenty grid points: the two row-blocked inputs sit five block rows past the output's,
    at block row `t + 5`; the output at block row `t`; column block zero throughout; the two weight matrices and the bias
    row are taken whole. -/
private theorem idx_h : ∀ t : Fin cfg4.N, win4_0.index t (0 : Fin 2) = t.val + 5 ∧ win4_0.index t (1 : Fin 2) = 0 :=
  (by decide +kernel : ∀ t : Fin grid4.N, _)
private theorem idx_m : ∀ t : Fin cfg4.N, win4_1.index t (0 : Fin 2) = t.val + 5 ∧ win4_1.index t (1 : Fin 2) = 0 :=
  (by decide +kernel : ∀ t : Fin grid4.N, _)
private theorem idx_wl : ∀ t : Fin cfg4.N, win4_2.index t (0 : Fin 2) = 0 ∧ win4_2.index t (1 : Fin 2) = 0 :=
  (by decide +kernel : ∀ t : Fin grid4.N, _)
private theorem idx_b : ∀ t : Fin cfg4.N, win4_3.index t (0 : Fin 2) = 0 ∧ win4_3.index t (1 : Fin 2) = 0 :=
  (by decide +kernel : ∀ t : Fin grid4.N, _)
private theorem idx_wr : ∀ t : Fin cfg4.N, win4_4.index t (0 : Fin 2) = 0 ∧ win4_4.index t (1 : Fin 2) = 0 :=
  (by decide +kernel : ∀ t : Fin grid4.N, _)
private theorem idx_out : ∀ t : Fin cfg4.N, win4_5.index t (0 : Fin 2) = t.val ∧ win4_5.index t (1 : Fin 2) = 0 :=
  (by decide +kernel : ∀ t : Fin grid4.N, _)

/-- The block of `h` at point `t`, at its row `p` and column `k`, is `h[20000 + 4000 t + p, k]`. -/
private theorem h_blk (c : Dev nD) (t : Fin cfg4.N) (p : Fin 4000) (k : Fin 128) (r : Fin 100000) (hr : r.val = 4000 * t.val + p.val + 20000) :
    (iblk4 V c 0 t : Vec Ideal S4000x128 .f32) (ix2 p k) = (V c main_v51 : S100000x128.Idx → EReal) (ix2 r k) := by
  obtain ⟨e0, e1⟩ := idx_h t
  unfold iblk4
  rw [View.read_apply]
  show V c main_v51 _ = V c main_v51 _
  congr 1
  funext a; apply Fin.ext
  match a with
  | ⟨0, _⟩ => show win4_0.index t (0 : Fin 2) * 4000 + 1 * p.val = r.val; rw [e0, hr]; omega
  | ⟨1, _⟩ => show win4_0.index t (1 : Fin 2) * 128 + 1 * k.val = k.val; rw [e1]; omega

/-- The block of the aggregated messages at point `t`, at its row `p` and column `k`, is `m[20000 + 4000 t + p, k]`. -/
private theorem m_blk (c : Dev nD) (t : Fin cfg4.N) (p : Fin 4000) (k : Fin 128) (r : Fin 100000) (hr : r.val = 4000 * t.val + p.val + 20000) :
    (iblk4 V c 1 t : Vec Ideal S4000x128 .f32) (ix2 p k) = (V c main_v71 : S100000x128.Idx → EReal) (ix2 r k) := by
  obtain ⟨e0, e1⟩ := idx_m t
  unfold iblk4
  rw [View.read_apply]
  show V c main_v71 _ = V c main_v71 _
  congr 1
  funext a; apply Fin.ext
  match a with
  | ⟨0, _⟩ => show win4_1.index t (0 : Fin 2) * 4000 + 1 * p.val = r.val; rw [e0, hr]; omega
  | ⟨1, _⟩ => show win4_1.index t (1 : Fin 2) * 128 + 1 * k.val = k.val; rw [e1]; omega

/-- The window on `wl` is the whole matrix at every point. -/
private theorem wl_blk (c : Dev nD) (t : Fin cfg4.N) (k q : Fin 128) :
    (iblk4 V c 2 t : Vec Ideal S128x128 .f32) (ix2 k q) = (V c main_arg16 : S128x128.Idx → EReal) (ix2 k q) := by
  obtain ⟨e0, e1⟩ := idx_wl t
  unfold iblk4
  rw [View.read_apply]
  show V c main_arg16 _ = V c main_arg16 _
  congr 1
  funext a; apply Fin.ext
  match a with
  | ⟨0, _⟩ => show win4_2.index t (0 : Fin 2) * 128 + 1 * k.val = k.val; rw [e0]; omega
  | ⟨1, _⟩ => show win4_2.index t (1 : Fin 2) * 128 + 1 * q.val = q.val; rw [e1]; omega

/-- The window on the bias row is the whole row at every point. -/
private theorem b_blk (c : Dev nD) (t : Fin cfg4.N) (q : Fin 128) :
    (iblk4 V c 3 t : Vec Ideal S1x128 .f32) (ix2 0 q) = (V c main_v74 : S1x128.Idx → EReal) (ix2 0 q) := by
  obtain ⟨e0, e1⟩ := idx_b t
  unfold iblk4
  rw [View.read_apply]
  show V c main_v74 _ = V c main_v74 _
  congr 1
  funext a; apply Fin.ext
  match a with
  | ⟨0, _⟩ => show win4_3.index t (0 : Fin 2) * 1 + 1 * 0 = 0; rw [e0]
  | ⟨1, _⟩ => show win4_3.index t (1 : Fin 2) * 128 + 1 * q.val = q.val; rw [e1]; omega

/-- The window on `wr` is the whole matrix at every point. -/
private theorem wr_blk (c : Dev nD) (t : Fin cfg4.N) (k q : Fin 128) :
    (iblk4 V c 4 t : Vec Ideal S128x128 .f32) (ix2 k q) = (V c main_arg18 : S128x128.Idx → EReal) (ix2 k q) := by
  obtain ⟨e0, e1⟩ := idx_wr t
  unfold iblk4
  rw [View.read_apply]
  show V c main_arg18 _ = V c main_arg18 _
  congr 1
  funext a; apply Fin.ext
  match a with
  | ⟨0, _⟩ => show win4_4.index t (0 : Fin 2) * 128 + 1 * k.val = k.val; rw [e0]; omega
  | ⟨1, _⟩ => show win4_4.index t (1 : Fin 2) * 128 + 1 * q.val = q.val; rw [e1]; omega

/-- If blocks agree with rows of the arrays — the two row-blocked ones at array row `r`, the matrices and the bias row
    whole — the dense layer of the blocks at the block's row `p` is the dense layer of the arrays at row `r`. -/
private theorem dense_of_rows (h m : S100000x128.Idx → EReal) (wl wr : S128x128.Idx → EReal) (b : S1x128.Idx → EReal)
    (x0 x1 : Vec Ideal S4000x128 .f32) (x2 x4 : Vec Ideal S128x128 .f32) (x3 : Vec Ideal S1x128 .f32)
    (p : Fin 4000) (q : Fin 128) (n : Nat) (r : Fin 100000) (q' : Fin 128) (hr : r.val = n) (hq : q'.val = q.val)
    (h0 : ∀ r' : Fin 100000, r'.val = n → ∀ k : Fin 128, x0 (ix2 p k) = h (ix2 r' k))
    (h1 : ∀ r' : Fin 100000, r'.val = n → ∀ k : Fin 128, x1 (ix2 p k) = m (ix2 r' k))
    (h2 : ∀ k : Fin 128, x2 (ix2 k q) = wl (ix2 k q)) (h4 : ∀ k : Fin 128, x4 (ix2 k q) = wr (ix2 k q))
    (h3 : x3 (ix2 0 q) = b (ix2 0 q)) :
    ((∑ k : Fin 128, x1 (ix2 p k) * x2 (ix2 k q)) + (∑ k : Fin 128, x0 (ix2 p k) * x4 (ix2 k q))) + x3 (ix2 0 q)
      = Cert.Spec.denseAt h m wl b wr r q' := by
  obtain rfl : q' = q := Fin.ext hq
  unfold Cert.Spec.denseAt
  rw [h3]
  congr 1
  congr 1
  · exact Finset.sum_congr rfl fun k _ => by rw [h1 r hr k, h2 k]
  · exact Finset.sum_congr rfl fun k _ => by rw [h0 r hr k, h4 k]

/-! ## From the blocks to the array -/

/-- A function on a [4000,128] block is known by its values at rows and columns. -/
private theorem ext_blk {α : Type} {f g : S4000x128.Idx → α} (h : ∀ (p : Fin 4000) (q : Fin 128), f (ix2 p q) = g (ix2 p q)) : f = g :=
  funext fun j => by rw [eq_ix2 j]; exact h _ _

/-- The array every block is cut from: row `r` holds the dense layer of the arrays the region finds at row `20000 + r`. -/
private abbrev layer (c : Dev nD) : S80000x128.Idx → EReal := fun i =>
  Cert.Spec.denseAt (V c main_v51) (V c main_v71) (V c main_arg16) (V c main_v74) (V c main_arg18)
    ⟨(i 0).val + 20000, by have := idx2_lt0 i; omega⟩ (i 1)

/-- What point `t` writes back is block `t` of that array. -/
private theorem flushed_eq (c : Dev nD) (t : Fin cfg4.N) :
    (dat4 (F := Ideal) V c).flushed 5 t = ((cfg4.win 5).blk t).view.read (Elt Ideal) (layer V c) := by
  show (cfg4.win 5).cut (grid4.coords t) ((dat4 V c).after 5 t) = _
  rw [after4_5]
  unfold out4_5
  rw [View.canon_unit_zero zeroOff]
  simp only [View.ld_unit_zero (S := S4000x128) zeroOff, View.ld_unit_zero (S := S128x128) zeroOff, View.ld_unit_zero (S := S1x128) zeroOff]
  obtain ⟨e0, e1⟩ := idx_out t
  refine ext_blk fun p q => ?_
  show k4_pay1 (F := Ideal) (iblk4 V c 0 t) (iblk4 V c 1 t) (iblk4 V c 2 t) (iblk4 V c 4 t) (iblk4 V c 3 t) (ix2 p q)
    = layer V c (((cfg4.win 5).blk t).view.emb (ix2 p q))
  refine (pay_apply _ _ _ _ _ p q).trans ?_
  refine dense_of_rows _ _ _ _ _ _ _ _ _ _ p q (4000 * t.val + p.val + 20000) _ _ ?_ ?_
    (fun r' hr' k => h_blk V c t p k r' hr') (fun r' hr' k => m_blk V c t p k r' hr')
    (fun k => wl_blk V c t k q) (fun k => wr_blk V c t k q) (b_blk V c t q)
  · show win4_5.index t (0 : Fin 2) * 4000 + 1 * p.val + 20000 = 4000 * t.val + p.val + 20000; rw [e0]; omega
  · show win4_5.index t (1 : Fin 2) * 128 + 1 * q.val = q.val; rw [e1]; omega

/-- An index of the array is in point `t`'s block iff each coordinate is in the block's range on its axis. -/
private theorem mem_blk (t : Fin cfg4.N) (i : S80000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v75).slice (win4_5.rect t)).set ↔ _
  rw [View.set_slice_whole, Rect.mem_set_unit]
  exact Iff.rfl

/-- The blocks tile the array: row `r` is in the block of point `r / 4000`. -/
private theorem covered (i : S80000x128.Idx) :
    ∃ t : Fin cfg4.N, (cfg4.win 5).flush t = true ∧ i ∈ ((cfg4.win 5).blk t).view.set := by
  have hi0 : (i 0).val < 80000 := (i 0).isLt
  have hi1 : (i 1).val < 128 := (i 1).isLt
  have hN : grid4.N = 20 := N_4
  have ht : (i 0).val / 4000 < cfg4.N := by show (i 0).val / 4000 < grid4.N; rw [hN]; omega
  obtain ⟨e0, e1⟩ := idx_out ⟨(i 0).val / 4000, ht⟩
  refine ⟨⟨(i 0).val / 4000, ht⟩, flush4_5 _, ?_⟩
  rw [mem_blk]
  intro a
  match a with
  | ⟨0, _⟩ =>
    show win4_5.index ⟨(i 0).val / 4000, ht⟩ (0 : Fin 2) * 4000 ≤ (i 0).val ∧ (i 0).val < win4_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win4_5.index ⟨(i 0).val / 4000, ht⟩ (1 : Fin 2) * 128 ≤ (i 1).val ∧ (i 1).val < win4_5.index ⟨(i 0).val / 4000, ht⟩ (1 : Fin 2) * 128 + 128
    rw [e1]; omega

/-- After the region, row `r` of its output array is the dense layer at row `20000 + r` of the arrays the region found. -/
theorem value (c : Dev nD) :
    (dat4 (F := Ideal) V c).arrAt 5 cfg4.N
      = fun i => Cert.Spec.denseAt (V c main_v51) (V c main_v71) (V c main_arg16) (V c main_v74) (V c main_arg18)
          ⟨(i 0).val + 20000, by have := idx2_lt0 i; omega⟩ (i 1) :=
  (dat4 (F := Ideal) V c).arrAt_eq_of_cover 5 (layer V c) (fun t _ => flushed_eq V c t) covered

end Cert.KernelIdeal.Val4

end
-- ==== Proof.KHost.lean ====
/-
  The blocked program's result arrays as functions of its argument arrays.

  @main is sixteen segments: stretches of host operations and the five kernels. The buffer contents at each segment
  boundary are a fold from the launch memory; read at one buffer, a host stretch gives the operations' term over the
  contents before it, a kernel gives its output array (the region's value) and leaves every other buffer alone. Walking
  back from the last boundary: the two results are the second convolution layer of the first hidden layer `h1`, which
  is the rectified first convolution layer of the joined input layers, each a function of the arguments as launched.
-/
import proofs.«422622_j33603824124606_3_alg».proof.Proof.Gen.KernelIdeal.Frame
import proofs.«422622_j33603824124606_3_alg».proof.Proof.KSpec
import proofs.«422622_j33603824124606_3_alg».proof.Proof.Region0
import proofs.«422622_j33603824124606_3_alg».proof.Proof.Region1
import proofs.«422622_j33603824124606_3_alg».proof.Proof.Region2
import proofs.«422622_j33603824124606_3_alg».proof.Proof.Region3
import proofs.«422622_j33603824124606_3_alg».proof.Proof.Region4
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.KSpec

variable (m : (ℓ : Loc nD τ sig) → Buf (Elt Ideal) ℓ) (ρ : Dev nD → PrngReg) (c : Dev nD)

/-- Argument array `b` as launched. -/
abbrev arg (b : Ref sig .tc) : Buf (Elt Ideal) ((c : Thread nD τ).loc b) := m ((c : Thread nD τ).loc b)

/-- Walk the fold back from a boundary at ONE buffer: a host stretch by its operations' results, a kernel that does not
    stage the buffer by `W_of_ne`; stops at a kernel's own arrays. -/
macro "walk" : tactic => `(tactic| repeat (first
  | (dsimp only [W1, W2, W3, W4, W5, W6, W7, W9, W11, W13, W15, hostOps0, hostOps0_1, hostOps0_2, hostOps0_3, hostOps0_4,
      hostOps0_5, hostOps0_6, hostOps1, hostOps2, hostOps3, hostOps4]; after_results_simp)
  | (rw [W16_of_ne]; rotate_left; decide)
  | (rw [W14_of_ne]; rotate_left; decide)
  | (rw [W12_of_ne]; rotate_left; decide)
  | (rw [W10_of_ne]; rotate_left; decide)
  | (rw [W8_of_ne]; rotate_left; decide)))

/-- One host stretch read at one buffer: the operations' term over the contents before the stretch. -/
macro "stretch1" : tactic => `(tactic| (dsimp only [W9, hostOps1]; after_results_simp))
macro "stretch2" : tactic => `(tactic| (dsimp only [W11, hostOps2]; after_results_simp))
macro "stretch3" : tactic => `(tactic| (dsimp only [W13, hostOps3]; after_results_simp))
macro "stretch4" : tactic => `(tactic| (dsimp only [W15, hostOps4]; after_results_simp))

/-! ## The first input layer -/

theorem k_pol : W8 m ρ c (Proc.devRef .tc main_v7)
    = hPol (arg m c main_arg0) (arg m c main_arg1) (arg m c main_arg6) (arg m c main_arg9) (arg m c main_arg10) := by
  refine (W8_arr m ρ c 6).trans ((Cert.KernelIdeal.Val0.value (V7 m ρ) c).trans ?_)
  have e0 : V7 m ρ c main_arg0 = arg m c main_arg0 := by show W7 m ρ c (Proc.devRef .tc main_arg0) = _; walk; try rfl
  have e1 : V7 m ρ c main_v5 = polIdx (arg m c main_arg1) := by show W7 m ρ c (Proc.devRef .tc main_v5) = _; walk; rfl
  have e2 : V7 m ρ c main_arg6 = arg m c main_arg6 := by show W7 m ρ c (Proc.devRef .tc main_arg6) = _; walk; try rfl
  have e3 : V7 m ρ c main_v3 = polWx (arg m c main_arg9) := by show W7 m ρ c (Proc.devRef .tc main_v3) = _; walk; rfl
  have e4 : V7 m ρ c main_v4 = polWe (arg m c main_arg9) := by show W7 m ρ c (Proc.devRef .tc main_v4) = _; walk; rfl
  have e5 : V7 m ρ c main_v6 = row128 (arg m c main_arg10) := by show W7 m ρ c (Proc.devRef .tc main_v6) = _; walk; rfl
  rw [e0, e1, e2, e3, e4, e5]
  rfl

/-! ## The second input layer -/

theorem l8_v1 : W8 m ρ c (Proc.devRef .tc main_v1) = clip S80000 Facts₀.bcast_S_S80000 11#32 (arg m c main_arg3) := by walk; rfl
theorem l8_v2 : W8 m ρ c (Proc.devRef .tc main_v2) = clip S80000 Facts₀.bcast_S_S80000 149#32 (arg m c main_arg4) := by walk; rfl
theorem l8_arg11 : W8 m ρ c (Proc.devRef .tc main_arg11) = arg m c main_arg11 := by walk; try rfl
theorem l8_arg12 : W8 m ρ c (Proc.devRef .tc main_arg12) = arg m c main_arg12 := by walk; try rfl

theorem k_comp : W10 m ρ c (Proc.devRef .tc main_v16)
    = hComp (arg m c main_arg2) (arg m c main_arg3) (arg m c main_arg4) (arg m c main_arg7) (arg m c main_arg8)
        (arg m c main_arg11) (arg m c main_arg12) := by
  refine (W10_arr m ρ c 8).trans ((Cert.KernelIdeal.Val1.value (V9 m ρ) c).trans ?_)
  have e0 : V9 m ρ c main_arg2 = arg m c main_arg2 := by show W9 m ρ c (Proc.devRef .tc main_arg2) = _; walk; try rfl
  have e1 : V9 m ρ c main_v14 = compIdx (arg m c main_arg3) (arg m c main_arg4) := by
    show W9 m ρ c (Proc.devRef .tc main_v14) = _; stretch1; rw [l8_v1, l8_v2]; rfl
  have e2 : V9 m ρ c main_arg7 = arg m c main_arg7 := by show W9 m ρ c (Proc.devRef .tc main_arg7) = _; walk; try rfl
  have e3 : V9 m ρ c main_arg8 = arg m c main_arg8 := by show W9 m ρ c (Proc.devRef .tc main_arg8) = _; walk; try rfl
  have e4 : V9 m ρ c main_v8 = compWx (arg m c main_arg11) := by
    show W9 m ρ c (Proc.devRef .tc main_v8) = _; stretch1; rw [l8_arg11]; rfl
  have e5 : V9 m ρ c main_v9 = compWs (arg m c main_arg11) := by
    show W9 m ρ c (Proc.devRef .tc main_v9) = _; stretch1; rw [l8_arg11]; rfl
  have e6 : V9 m ρ c main_v10 = compWi (arg m c main_arg11) := by
    show W9 m ρ c (Proc.devRef .tc main_v10) = _; stretch1; rw [l8_arg11]; rfl
  have e7 : V9 m ρ c main_v15 = row128 (arg m c main_arg12) := by
    show W9 m ρ c (Proc.devRef .tc main_v15) = _; stretch1; rw [l8_arg12]; rfl
  rw [e0, e1, e2, e3, e4, e5, e6, e7]
  rfl

/-- The joined input layers. -/
abbrev H0 : FVec Ideal S100000x128 .f32 :=
  joined (hPol (arg m c main_arg0) (arg m c main_arg1) (arg m c main_arg6) (arg m c main_arg9) (arg m c main_arg10))
    (hComp (arg m c main_arg2) (arg m c main_arg3) (arg m c main_arg4) (arg m c main_arg7) (arg m c main_arg8)
      (arg m c main_arg11) (arg m c main_arg12))

/-! ## The first convolution layer -/

theorem l10_v7 : W10 m ρ c (Proc.devRef .tc main_v7)
    = hPol (arg m c main_arg0) (arg m c main_arg1) (arg m c main_arg6) (arg m c main_arg9) (arg m c main_arg10) := by
  walk
  exact k_pol m ρ c
theorem l10_arg5 : W10 m ρ c (Proc.devRef .tc main_arg5) = arg m c main_arg5 := by walk; try rfl
theorem l10_arg14 : W10 m ρ c (Proc.devRef .tc main_arg14) = arg m c main_arg14 := by walk; try rfl

theorem k_h0 : W11 m ρ c (Proc.devRef .tc main_v17) = H0 m c := by
  stretch2
  rw [l10_v7, k_comp]
  rfl

theorem k_m1 : W11 m ρ c (Proc.devRef .tc main_v49) = agg (H0 m c) (arg m c main_arg5) := by
  stretch2
  rw [l10_v7, k_comp, l10_arg5]
  rfl

theorem k_b1 : W11 m ρ c (Proc.devRef .tc main_v50) = row128 (arg m c main_arg14) := by
  stretch2; rw [l10_arg14]; rfl
theorem k_wl1 : W11 m ρ c (Proc.devRef .tc main_arg13) = arg m c main_arg13 := by walk; try rfl
theorem k_wr1 : W11 m ρ c (Proc.devRef .tc main_arg15) = arg m c main_arg15 := by walk; try rfl

/-- The first hidden layer. -/
abbrev H1 : FVec Ideal S100000x128 .f32 :=
  h1 (H0 m c) (arg m c main_arg5) (arg m c main_arg13) (arg m c main_arg14) (arg m c main_arg15)

theorem k_h1 : W12 m ρ c (Proc.devRef .tc main_v51) = H1 m c := by
  refine (W12_arr m ρ c 5).trans ((Cert.KernelIdeal.Val2.value (V11 m ρ) c).trans ?_)
  have e0 : V11 m ρ c main_v17 = H0 m c := k_h0 m ρ c
  have e1 : V11 m ρ c main_v49 = agg (H0 m c) (arg m c main_arg5) := k_m1 m ρ c
  have e2 : V11 m ρ c main_arg13 = arg m c main_arg13 := k_wl1 m ρ c
  have e3 : V11 m ρ c main_v50 = row128 (arg m c main_arg14) := k_b1 m ρ c
  have e4 : V11 m ρ c main_arg15 = arg m c main_arg15 := k_wr1 m ρ c
  rw [e0, e1, e2, e3, e4]
  rfl

/-! ## The second convolution layer -/

theorem l12_v19 : W12 m ρ c (Proc.devRef .tc main_v19) = srcOf (arg m c main_arg5) := by
  rw [W12_of_ne m ρ c main_v19 (by decide)]; stretch2; rw [l10_arg5]; rfl
theorem l12_v21 : W12 m ρ c (Proc.devRef .tc main_v21) = dstOf (arg m c main_arg5) := by
  rw [W12_of_ne m ρ c main_v21 (by decide)]; stretch2; rw [l10_arg5]; rfl
theorem l12_v29 : W12 m ρ c (Proc.devRef .tc main_v29) = Cert.Agg.invDeg (dstOf (arg m c main_arg5)) := by
  rw [W12_of_ne m ρ c main_v29 (by decide)]; stretch2; rw [l10_arg5]; rfl
theorem l12_arg17 : W12 m ρ c (Proc.devRef .tc main_arg17) = arg m c main_arg17 := by walk; try rfl

theorem k_m2 : W13 m ρ c (Proc.devRef .tc main_v71) = agg (H1 m c) (arg m c main_arg5) := by
  stretch3
  rw [k_h1, l12_v19, l12_v21, l12_v29]
  rfl
theorem k_h1' : W13 m ρ c (Proc.devRef .tc main_v51) = H1 m c := by
  stretch3; exact k_h1 m ρ c
theorem k_b2 : W13 m ρ c (Proc.devRef .tc main_v72) = row128 (arg m c main_arg17) := by
  stretch3; rw [l12_arg17]; rfl
theorem k_wl2 : W13 m ρ c (Proc.devRef .tc main_arg16) = arg m c main_arg16 := by walk; try rfl
theorem k_wr2 : W13 m ρ c (Proc.devRef .tc main_arg18) = arg m c main_arg18 := by walk; try rfl

theorem k_out_pol : W14 m ρ c (Proc.devRef .tc main_v73)
    = outPol (H1 m c) (arg m c main_arg5) (arg m c main_arg16) (arg m c main_arg17) (arg m c main_arg18) := by
  refine (W14_arr m ρ c 5).trans ((Cert.KernelIdeal.Val3.value (V13 m ρ) c).trans ?_)
  have e0 : V13 m ρ c main_v51 = H1 m c := k_h1' m ρ c
  have e1 : V13 m ρ c main_v71 = agg (H1 m c) (arg m c main_arg5) := k_m2 m ρ c
  have e2 : V13 m ρ c main_arg16 = arg m c main_arg16 := k_wl2 m ρ c
  have e3 : V13 m ρ c main_v72 = row128 (arg m c main_arg17) := k_b2 m ρ c
  have e4 : V13 m ρ c main_arg18 = arg m c main_arg18 := k_wr2 m ρ c
  rw [e0, e1, e2, e3, e4]
  rfl

/-- The second layer's first kernel stages `h1`, the messages and the two weight matrices as inputs, and leaves them
    as it found them. -/
theorem W14_in0 : W14 m ρ c (Proc.devRef .tc main_v51) = W13 m ρ c (Proc.devRef .tc main_v51) :=
  (W14_arr m ρ c 0).trans (((dat3 (V13 m ρ) c).arrAt_in 0 rfl _).trans (A_eq3 (V13 m ρ) c 0))
theorem W14_in1 : W14 m ρ c (Proc.devRef .tc main_v71) = W13 m ρ c (Proc.devRef .tc main_v71) :=
  (W14_arr m ρ c 1).trans (((dat3 (V13 m ρ) c).arrAt_in 1 rfl _).trans (A_eq3 (V13 m ρ) c 1))
theorem W14_in2 : W14 m ρ c (Proc.devRef .tc main_arg16) = W13 m ρ c (Proc.devRef .tc main_arg16) :=
  (W14_arr m ρ c 2).trans (((dat3 (V13 m ρ) c).arrAt_in 2 rfl _).trans (A_eq3 (V13 m ρ) c 2))
theorem W14_in4 : W14 m ρ c (Proc.devRef .tc main_arg18) = W13 m ρ c (Proc.devRef .tc main_arg18) :=
  (W14_arr m ρ c 4).trans (((dat3 (V13 m ρ) c).arrAt_in 4 rfl _).trans (A_eq3 (V13 m ρ) c 4))
theorem l14_arg17 : W14 m ρ c (Proc.devRef .tc main_arg17) = arg m c main_arg17 := by walk; try rfl

theorem k_out_comp : W16 m ρ c (Proc.devRef .tc main_v75)
    = outComp (H1 m c) (arg m c main_arg5) (arg m c main_arg16) (arg m c main_arg17) (arg m c main_arg18) := by
  refine (W16_arr m ρ c 5).trans ((Cert.KernelIdeal.Val4.value (V15 m ρ) c).trans ?_)
  have e0 : V15 m ρ c main_v51 = H1 m c := by
    show W15 m ρ c (Proc.devRef .tc main_v51) = _; stretch4; rw [W14_in0]; exact k_h1' m ρ c
  have e1 : V15 m ρ c main_v71 = agg (H1 m c) (arg m c main_arg5) := by
    show W15 m ρ c (Proc.devRef .tc main_v71) = _; stretch4; rw [W14_in1]; exact k_m2 m ρ c
  have e2 : V15 m ρ c main_arg16 = arg m c main_arg16 := by
    show W15 m ρ c (Proc.devRef .tc main_arg16) = _; stretch4; rw [W14_in2]; exact k_wl2 m ρ c
  have e3 : V15 m ρ c main_v74 = row128 (arg m c main_arg17) := by
    show W15 m ρ c (Proc.devRef .tc main_v74) = _; stretch4; rw [l14_arg17]; rfl
  have e4 : V15 m ρ c main_arg18 = arg m c main_arg18 := by
    show W15 m ρ c (Proc.devRef .tc main_arg18) = _; stretch4; rw [W14_in4]; exact k_wr2 m ρ c
  rw [e0, e1, e2, e3, e4]
  rfl

/-! ## The results at the last boundary -/

theorem out_pol : W16 m ρ c (Proc.devRef .tc main_v73)
    = outPol (H1 m c) (arg m c main_arg5) (arg m c main_arg16) (arg m c main_arg17) (arg m c main_arg18) := by
  rw [W16_of_ne m ρ c main_v73 (by decide)]
  stretch4
  exact k_out_pol m ρ c

theorem out_comp : W16 m ρ c (Proc.devRef .tc main_v75)
    = outComp (H1 m c) (arg m c main_arg5) (arg m c main_arg16) (arg m c main_arg17) (arg m c main_arg18) :=
  k_out_comp m ρ c

end Cert.KernelIdeal.Host

end
-- ==== Proof.RSpec.lean ====
/-
  What the plain program computes, as terms of the library's operations over its argument arrays, cut at the three
  places where the two programs meet: the two input layers (`polRef`, `compRef`: a row gather from the embedding
  tables at the wrapped index, the rows joined to the dense features, one matrix product, the bias, the rectifier) and
  one convolution layer applied to an arbitrary hidden array (`layerRef`: gather the source rows, add them up by
  destination, divide by the in-degree, two matrix products and the bias).
-/
import proofs.«422622_j33603824124606_3_alg».proof.ReferenceIdeal
import proofs.«422622_j33603824124606_3_alg».proof.Proof.AggDefs

noncomputable section

namespace Cert.RSpec

open Idealize.ShloMosaic Cert.ReferenceIdeal Cert.ReferenceIdeal.Facts₀

variable [Cert.KernelIdeal.Facts₀] [Cert.ReferenceIdeal.Facts₀]

/-- jnp's reading of a possibly negative index: a word below zero is wrapped by the table's length `n`. -/
def wrap (s : Shape) (hb : S_.BroadcastsInDim s (![] : Fin 0 → Fin s.rank)) (n : BitVec 32) (x : IVec s 32) : IVec s 32 :=
  select (cmpi .slt x (broadcastInDim s ![] hb (constantI S_ 32 0#32))) (addi x (broadcastInDim s ![] hb (constantI S_ 32 n))) x

/-- The first kind's input layer. -/
def polRef (x0 : FVec Ideal S20000x64 .f32) (x1 : IVec S20000 32) (x6 : FVec Ideal S50x8 .f32) (x9 : FVec Ideal S72x128 .f32)
    (x10 : FVec Ideal S128 .f32) : FVec Ideal S20000x128 .f32 :=
  maximumf
    (addf
      (Host.dotGeneral dot_S20000x72_S72x128_S20000x128_1_0_0_1_n_n none
        (concatenate S20000x72 1
          [⟨S20000x64, x0⟩,
           ⟨S20000x8, Host.gather gather_S50x8_S20000x1_S20000x8_1_0_n_n_0_1_18 x6
              (broadcastInDim S20000x1 ![0] bcast_S20000_S20000x1_0 (wrap S20000 bcast_S_S20000 50#32 x1))⟩]
          concatenates_S20000x64_S20000x8_S20000x72_d1)
        x9)
      (broadcastInDim S20000x128 ![0, 1] bcast_S1x128_S20000x128_0_1 (broadcastInDim S1x128 ![1] bcast_S128_S1x128_1 x10)))
    (broadcastInDim S20000x128 ![] bcast_S_S20000x128 (constant (F := Ideal) S_ .f32 0x00000000#32))

/-- The second kind's input layer. -/
def compRef (x2 : FVec Ideal S80000x96 .f32) (x3 x4 : IVec S80000 32) (x7 : FVec Ideal S12x8 .f32) (x8 : FVec Ideal S150x8 .f32)
    (x11 : FVec Ideal S112x128 .f32) (x12 : FVec Ideal S128 .f32) : FVec Ideal S80000x128 .f32 :=
  maximumf
    (addf
      (Host.dotGeneral dot_S80000x112_S112x128_S80000x128_1_0_0_1_n_n none
        (concatenate S80000x112 1
          [⟨S80000x96, x2⟩,
           ⟨S80000x8, Host.gather gather_S12x8_S80000x1_S80000x8_1_0_n_n_0_1_18 x7
              (broadcastInDim S80000x1 ![0] bcast_S80000_S80000x1_0 (wrap S80000 bcast_S_S80000 12#32 x3))⟩,
           ⟨S80000x8, Host.gather gather_S150x8_S80000x1_S80000x8_1_0_n_n_0_1_18 x8
              (broadcastInDim S80000x1 ![0] bcast_S80000_S80000x1_0 (wrap S80000 bcast_S_S80000 150#32 x4))⟩]
          concatenates_S80000x96_S80000x8_S80000x8_S80000x112_d1)
        x11)
      (broadcastInDim S80000x128 ![0, 1] bcast_S1x128_S80000x128_0_1 (broadcastInDim S1x128 ![1] bcast_S128_S1x128_1 x12)))
    (broadcastInDim S80000x128 ![] bcast_S_S80000x128 (constant (F := Ideal) S_ .f32 0x00000000#32))

/-- The edges' source words (row 0 of the edge list) and destination words (row 1). -/
def srcOf (x5 : IVec S2x1600000 32) : IVec S1600000 32 :=
  shapeCast S1600000 (extractStridedSlice S1x1600000 ![0, 0] x5 slices_S2x1600000_S1x1600000_0_0) shapeCasts_S1x1600000_S1600000
def dstOf (x5 : IVec S2x1600000 32) : IVec S1600000 32 :=
  shapeCast S1600000 (extractStridedSlice S1x1600000 ![1, 0] x5 slices_S2x1600000_S1x1600000_1_0) shapeCasts_S1x1600000_S1600000

/-- The rows of `h` at the edges' (wrapped) sources. -/
def gatherRows (h : FVec Ideal S100000x128 .f32) (x5 : IVec S2x1600000 32) : FVec Ideal S1600000x128 .f32 :=
  Host.gather gather_S100000x128_S1600000x1_S1600000x128_1_0_n_n_0_1_1128 h
    (broadcastInDim S1600000x1 ![0] bcast_S1600000_S1600000x1_0 (wrap S1600000 bcast_S_S1600000 100000#32 (srcOf x5)))

/-- One convolution layer before any rectifier: `mean-aggregate(h) · wl + b + h · wr`. -/
def layerRef (h : FVec Ideal S100000x128 .f32) (x5 : IVec S2x1600000 32) (wl : FVec Ideal S128x128 .f32) (b : FVec Ideal S128 .f32)
    (wr : FVec Ideal S128x128 .f32) : FVec Ideal S100000x128 .f32 :=
  addf
    (addf
      (Host.dotGeneral dot_S100000x128_S128x128_S100000x128_1_0_0_1_n_n none
        (Cert.Agg.sumThenDivide (gatherRows h x5) (dstOf x5)) wl)
      (broadcastInDim S100000x128 ![0, 1] bcast_S1x128_S100000x128_0_1 (broadcastInDim S1x128 ![1] bcast_S128_S1x128_1 b)))
    (Host.dotGeneral dot_S100000x128_S128x128_S100000x128_1_0_0_1_n_n none h wr)

end Cert.RSpec

end
-- ==== Proof.Embed.lean ====
/-
  Reading a table row two ways, and the index words that name it.

  The plain program reads row `idx` of a small table by a gather whose start index is clamped into the table; the blocked
  program multiplies a one-hot row (`1` where the index word equals the column number, else `0`) with the table. For an
  index word that names a row the two agree: every other term of the one-hot sum is `0 · tbl[t, k] = 0` on the extended
  reals. The blocked program first clips the index into `[0, T - 1]` (a signed maximum with 0, then a signed minimum with
  T - 1), which on a non-negative word is the gather's clamp; and it carries two clipped indices `s ≤ 11`, `i ≤ 149` packed
  as `s · 256 + i`, from which an arithmetic shift right by 8 and a mask with 255 return `s` and `i`.
-/
import proofs.«422622_j33603824124606_3_alg».proof.Proof.Spec
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Embed

open Idealize.ShloMosaic Idealize.ShloMosaic.ValueIdx Cert.Spec

/-- The one-hot sum is the named row, when the index word names a row of the table. -/
theorem lookup_of_lt {T C : Nat} (hT : T ≤ 2 ^ 32) (tbl : (⟨2, ![T, C]⟩ : Shape).Idx → EReal) (v : BitVec 32) (k : Fin C)
    (h : v.toNat < T) : lookup tbl v k = tbl (ix2 ⟨v.toNat, h⟩ k) := by
  unfold lookup
  rw [Finset.sum_eq_single (⟨v.toNat, h⟩ : Fin T)]
  · -- the term of the named row: the weight is one
    have h1 : hot v v.toNat = 1 := by
      unfold hot
      rw [if_pos]
      apply BitVec.eq_of_toNat_eq
      rw [BitVec.toNat_ofNat, Nat.mod_eq_of_lt v.isLt]
    rw [h1, one_mul]
  · -- every other term: the weight is zero, and zero times any extended real is zero
    intro t _ ht
    have h0 : hot v t.val = 0 := by
      unfold hot
      rw [if_neg]
      intro hv
      apply ht
      apply Fin.ext
      show t.val = v.toNat
      rw [hv, BitVec.toNat_ofNat, Nat.mod_eq_of_lt (lt_of_lt_of_le t.isLt hT)]
    rw [h0, zero_mul]
  · intro hn
    exact absurd (Finset.mem_univ _) hn

/-- An entry of a list that is a singleton is its one element. -/
private theorem getElem_of_eq_singleton {β : Type} {l : List β} {x : β} (hl : l = [x]) (i : Nat) (h : i < l.length) :
    l[i]'h = x := by
  subst hl
  have hi : i = 0 := by simpa using h
  subst hi
  rfl

/-- On two axes, axis 1 is not axis 0. -/
private theorem one_ne_zero2 : (1 : Fin 2) ≠ 0 := by decide

/-- A row gather of a `[T, C]` table at an `[R, 1]` column of start indices (offset axis 1, collapsed axis 0, start index
    map `[0]`, index vector on axis 1, slices `[1, C]`): result `(r, k)` is the table at the start index of row `r`, read
    signed and clamped into `[0, T - 1]`, column `k`. -/
theorem gather_row {α : Type} {T R C w : Nat} (hT : 0 < T)
    (d : GatherDims (⟨2, ![T, C]⟩ : Shape) (⟨2, ![R, 1]⟩ : Shape) (⟨2, ![R, C]⟩ : Shape))
    (hoff : d.offsetDims = [1]) (hcoll : d.collapsedSliceDims = [0]) (hob : d.operandBatchingDims = [])
    (hsb : d.startIndicesBatchingDims = []) (hsim : d.startIndexMap = [0]) (hivd : d.indexVectorDim = 1)
    (hsl : d.sliceSizes = ![1, C])
    (tbl : (⟨2, ![T, C]⟩ : Shape).Idx → α) (idx : IVec (⟨2, ![R, 1]⟩ : Shape) w) (r : Fin R) (k : Fin C) :
    Host.gather d tbl idx (ix2 r k)
      = tbl (ix2 ⟨min (idx (ix2 r (0 : Fin 1))).toInt.toNat (T - 1), by omega⟩ k) := by
  unfold Host.gather
  congr 1
  funext a
  refine Fin.ext ?_
  have hb : ∀ a, a ∉ d.operandBatchingDims := fun a => by rw [hob]; exact List.not_mem_nil
  match a with
  | ⟨0, _⟩ =>
    -- operand axis 0: collapsed and start-indexed; no batching, no offset coordinate
    have hk : (0 : Fin 2) ∉ d.sKept := by
      rw [GatherDims.mem_sKept, hcoll]
      exact fun h => h.1 (List.mem_singleton.mpr rfl)
    have hm : (0 : Fin 2) ∈ d.startIndexMap := by rw [hsim]; exact List.mem_singleton.mpr rfl
    show d.start (ix2 r k) idx 0 + d.batchCoord (ix2 r k) 0 + d.offCoord (ix2 r k) 0 = min _ (T - 1)
    rw [GatherDims.batchCoord_eq_zero _ _ _ (hb 0), GatherDims.offCoord_eq_zero _ _ _ hk, Nat.add_zero]
    unfold GatherDims.start
    rw [dif_pos hm]
    have hsi : d.siIdx (ix2 r k) ⟨List.idxOf (0 : Fin 2) d.startIndexMap, List.idxOf_lt_length_iff.2 hm⟩
        = ix2 r (0 : Fin 1) := by
      funext b
      refine Fin.ext ?_
      match b with
      | ⟨0, _⟩ =>
        -- start-indices axis 0 is read off the result's one batch axis, axis 0
        have hbd : d.batchDims = [0] := by
          show Shape.kept _ d.offsetDims = [0]
          rw [hoff]; rfl
        unfold GatherDims.siIdx
        rw [dif_neg (by rw [hivd]; exact Nat.zero_ne_one)]
        unfold GatherDims.siCoord
        simp only [Fin.val_cast]
        rw [getElem_of_eq_singleton hbd]
        rfl
      | ⟨1, _⟩ =>
        -- start-indices axis 1 is the index vector's: component 0, the one start-indexed operand axis
        unfold GatherDims.siIdx
        rw [dif_pos (by rw [hivd])]
        show List.idxOf (0 : Fin 2) d.startIndexMap = 0
        rw [hsim]
        exact List.idxOf_cons_self
    rw [hsi, hsl]
    rfl
  | ⟨1, _⟩ =>
    -- operand axis 1: the offset axis, read off result axis 1; not start-indexed, no batching
    have hk : (1 : Fin 2) ∈ d.sKept := by
      rw [GatherDims.mem_sKept, hcoll]
      exact ⟨fun h => one_ne_zero2 (List.mem_singleton.mp h), hb 1⟩
    have hm : (1 : Fin 2) ∉ d.startIndexMap := by
      rw [hsim]
      exact fun h => one_ne_zero2 (List.mem_singleton.mp h)
    show d.start (ix2 r k) idx 1 + d.batchCoord (ix2 r k) 1 + d.offCoord (ix2 r k) 1 = k.val
    rw [GatherDims.batchCoord_eq_zero _ _ _ (hb 1), Nat.add_zero]
    unfold GatherDims.start GatherDims.offCoord
    rw [dif_neg hm, dif_pos hk, Nat.zero_add, getElem_of_eq_singleton hoff]
    rfl

/-- jnp's wrap of a negative index leaves a non-negative word alone. -/
theorem wrap_of_nonneg (x n : BitVec 32) (hx : 0 ≤ x.toInt) :
    Scalar.select (IntOp.cmpi .slt x 0#32) (IntOp.addi x n) x = x := by
  have h : x.slt 0#32 = false := by
    unfold BitVec.slt
    rw [BitVec.toInt_zero]
    exact decide_eq_false (not_lt.mpr hx)
  show Scalar.select (BitVec.ofBool (x.slt 0#32)) (IntOp.addi x n) x = x
  rw [h]
  exact select_zero _ _

/-- The clip of a non-negative word into `[0, hi]` is the smaller of the word and `hi`, as natural numbers. -/
theorem clip_toNat (x : BitVec 32) (hi : Nat) (hhi : hi < 2 ^ 31) (hx : 0 ≤ x.toInt) :
    (IntOp.minsi (BitVec.ofNat 32 hi) (IntOp.maxsi 0#32 x)).toNat = min x.toInt.toNat hi := by
  have h0 : x.slt 0#32 = false := by
    unfold BitVec.slt
    rw [BitVec.toInt_zero]
    exact decide_eq_false (not_lt.mpr hx)
  have hmax : IntOp.maxsi 0#32 x = x := by
    unfold IntOp.maxsi
    rw [h0]; rfl
  rw [hmax]
  have hxl := x.isLt
  have hxi : x.toInt = (x.toNat : Int) := by
    rw [BitVec.toInt_eq_toNat_cond] at hx ⊢
    split at hx
    · rw [if_pos (by assumption)]
    · omega
  have hhn : (BitVec.ofNat 32 hi).toNat = hi := by
    rw [BitVec.toNat_ofNat, Nat.mod_eq_of_lt (by omega)]
  have hhi' : (BitVec.ofNat 32 hi).toInt = (hi : Int) := by
    rw [BitVec.toInt_eq_toNat_cond, hhn, if_pos (by omega)]
  unfold IntOp.minsi BitVec.slt
  rw [hhi', hxi]
  by_cases hc : (hi : Int) < (x.toNat : Int)
  · rw [decide_eq_true hc, if_pos rfl, hhn]
    omega
  · rw [decide_eq_false hc, if_neg (by decide)]
    omega

/-- The packed word `s · 256 + i` does not wrap: as a natural number it is `s · 256 + i`. -/
private theorem unpack_word (s i : BitVec 32) (hs : s.toNat < 2 ^ 23) (hi : i.toNat < 256) :
    (IntOp.addi (IntOp.muli s 256#32) i).toNat = s.toNat * 256 + i.toNat := by
  show (s * 256#32 + i).toNat = _
  rw [BitVec.toNat_add, BitVec.toNat_mul]
  show (s.toNat * 256 % 2 ^ 32 + i.toNat) % 2 ^ 32 = _
  omega

/-- Unpacking `s · 256 + i` for `s < 2 ^ 23` and `i < 256`: the arithmetic shift right by 8 returns `s` … -/
theorem unpack_hi (s i : BitVec 32) (hs : s.toNat < 2 ^ 23) (hi : i.toNat < 256) :
    IntOp.shrsi .vector (IntOp.addi (IntOp.muli s 256#32) i) 8#32 = s := by
  have hw := unpack_word s i hs hi
  unfold IntOp.shrsi
  rw [if_pos (by decide)]
  show (IntOp.addi (IntOp.muli s 256#32) i).sshiftRight 8 = s
  rw [BitVec.sshiftRight_eq_of_msb_false (BitVec.msb_eq_false_iff_two_mul_lt.mpr (by rw [hw]; omega))]
  apply BitVec.eq_of_toNat_eq
  rw [BitVec.toNat_ushiftRight, hw, Nat.shiftRight_eq_div_pow]
  omega

/-- … and the mask with 255 returns `i`. -/
theorem unpack_lo (s i : BitVec 32) (hs : s.toNat < 2 ^ 23) (hi : i.toNat < 256) :
    IntOp.andi (IntOp.addi (IntOp.muli s 256#32) i) 255#32 = i := by
  have hw := unpack_word s i hs hi
  apply BitVec.eq_of_toNat_eq
  show ((IntOp.addi (IntOp.muli s 256#32) i) &&& 255#32).toNat = i.toNat
  rw [BitVec.toNat_and, hw]
  show (s.toNat * 256 + i.toNat) &&& (2 ^ 8 - 1) = i.toNat
  rw [Nat.and_two_pow_sub_one_eq_mod]
  omega

end Cert.Embed

end
-- ==== Proof.RefPol.lean ====
/-
  The two programs' first input layers are one function of the arguments, where the table indices are not negative.

  Plain: row `r` of the features is the 64 dense entries followed by the 8 entries of table row `idx r` (a gather whose
  start index, not negative, is not wrapped and is clamped to the last row 49); one product with the 72-row weight matrix
  sums over all 72 columns. Blocked: the same sum split at column 64, the table row read as a one-hot product at the
  index clipped into `[0, 49]`, the weight matrix cut into its first 64 and last 8 rows. On a non-negative index the clip
  is the clamp, the one-hot sum is the row, and the sum over 72 columns is the sum over the first 64 plus the sum over the
  last 8; bias and rectifier are the same.
-/
import proofs.«422622_j33603824124606_3_alg».proof.Proof.RSpec
import proofs.«422622_j33603824124606_3_alg».proof.Proof.KSpec
import proofs.«422622_j33603824124606_3_alg».proof.Proof.Embed
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.RefPol

open Idealize.ShloMosaic Idealize.ShloMosaic.ValueIdx

variable [Cert.KernelIdeal.Facts₀] [Cert.ReferenceIdeal.Facts₀]

/-! ## The 72-column product at an entry -/

-- The two operands' indices at an output entry and a contraction position, one axis at a time: the left operand's row
-- is the output's row and its column the contraction position; the right operand's row is the contraction position
-- and its column the output's column.
private theorem lhs_pol_0 (i : Cert.ReferenceIdeal.S20000x128.Idx) (q : Cert.ReferenceIdeal.dot_S20000x72_S72x128_S20000x128_1_0_0_1_n_n.contr.Idx) :
    (Cert.ReferenceIdeal.dot_S20000x72_S72x128_S20000x128_1_0_0_1_n_n.lhsIdx i q 0).val = (i 0).val := by
  unfold DotDims.lhsIdx
  rw [dif_neg (show ¬(0 : Fin Cert.ReferenceIdeal.S20000x72.rank) ∈ Cert.ReferenceIdeal.dot_S20000x72_S72x128_S20000x128_1_0_0_1_n_n.lhsBatch from List.not_mem_nil),
    dif_pos (show (0 : Fin Cert.ReferenceIdeal.S20000x72.rank) ∈ Cert.ReferenceIdeal.dot_S20000x72_S72x128_S20000x128_1_0_0_1_n_n.lhsNonContracting from List.mem_singleton.mpr rfl)]
  rfl
private theorem lhs_pol_1 (i : Cert.ReferenceIdeal.S20000x128.Idx) (q : Cert.ReferenceIdeal.dot_S20000x72_S72x128_S20000x128_1_0_0_1_n_n.contr.Idx) :
    (Cert.ReferenceIdeal.dot_S20000x72_S72x128_S20000x128_1_0_0_1_n_n.lhsIdx i q 1).val = (q ⟨0, Nat.one_pos⟩).val :=
  Cert.ReferenceIdeal.dot_S20000x72_S72x128_S20000x128_1_0_0_1_n_n.lhsIdx_val_of_single rfl i q
private theorem rhs_pol_0 (i : Cert.ReferenceIdeal.S20000x128.Idx) (q : Cert.ReferenceIdeal.dot_S20000x72_S72x128_S20000x128_1_0_0_1_n_n.contr.Idx) :
    (Cert.ReferenceIdeal.dot_S20000x72_S72x128_S20000x128_1_0_0_1_n_n.rhsIdx i q 0).val = (q ⟨0, Nat.one_pos⟩).val :=
  Cert.ReferenceIdeal.dot_S20000x72_S72x128_S20000x128_1_0_0_1_n_n.rhsIdx_val_of_single rfl i q
private theorem rhs_pol_1 (i : Cert.ReferenceIdeal.S20000x128.Idx) (q : Cert.ReferenceIdeal.dot_S20000x72_S72x128_S20000x128_1_0_0_1_n_n.contr.Idx) :
    (Cert.ReferenceIdeal.dot_S20000x72_S72x128_S20000x128_1_0_0_1_n_n.rhsIdx i q 1).val = (i 1).val := by
  unfold DotDims.rhsIdx
  rw [dif_neg (show ¬(1 : Fin Cert.ReferenceIdeal.S72x128.rank) ∈ Cert.ReferenceIdeal.dot_S20000x72_S72x128_S20000x128_1_0_0_1_n_n.rhsBatch from List.not_mem_nil),
    dif_pos (show (1 : Fin Cert.ReferenceIdeal.S72x128.rank) ∈ Cert.ReferenceIdeal.dot_S20000x72_S72x128_S20000x128_1_0_0_1_n_n.rhsNonContracting from List.mem_singleton.mpr rfl)]
  rfl

/-- The product of a `[20000, 72]` array with a `[72, 128]` one at `(r, q)`: the sum over the 72 columns. -/
private theorem dot_pol_apply (l : FVec Ideal Cert.ReferenceIdeal.S20000x72 .f32) (x9 : FVec Ideal Cert.ReferenceIdeal.S72x128 .f32)
    (r : Fin 20000) (q : Fin 128) :
    Host.dotGeneral (F := Ideal) Cert.ReferenceIdeal.dot_S20000x72_S72x128_S20000x128_1_0_0_1_n_n none l x9 (ix2 r q)
      = ∑ k : Fin 72, l (ix2 r k) * x9 (ix2 k q) := by
  simp only [Host.dotGeneral]
  rw [Ideal.dotGeneral_apply, ← Equiv.sum_comp (contrEquiv1 Cert.ReferenceIdeal.dot_S20000x72_S72x128_S20000x128_1_0_0_1_n_n 72 rfl rfl).symm]
  refine Finset.sum_congr rfl fun k _ => ?_
  have hk := contrEquiv1_symm_val Cert.ReferenceIdeal.dot_S20000x72_S72x128_S20000x128_1_0_0_1_n_n 72 rfl rfl k
  have el : Cert.ReferenceIdeal.dot_S20000x72_S72x128_S20000x128_1_0_0_1_n_n.lhsIdx (ix2 r q)
      ((contrEquiv1 Cert.ReferenceIdeal.dot_S20000x72_S72x128_S20000x128_1_0_0_1_n_n 72 rfl rfl).symm k) = ix2 r k :=
    funext fun a => Fin.ext (by
      match a with
      | ⟨0, _⟩ => exact lhs_pol_0 _ _
      | ⟨1, _⟩ => exact (lhs_pol_1 _ _).trans hk)
  have er : Cert.ReferenceIdeal.dot_S20000x72_S72x128_S20000x128_1_0_0_1_n_n.rhsIdx (ix2 r q)
      ((contrEquiv1 Cert.ReferenceIdeal.dot_S20000x72_S72x128_S20000x128_1_0_0_1_n_n 72 rfl rfl).symm k) = ix2 k q :=
    funext fun a => Fin.ext (by
      match a with
      | ⟨0, _⟩ => exact (rhs_pol_0 _ _).trans hk
      | ⟨1, _⟩ => exact rhs_pol_1 _ _)
  rw [el, er]

/-! ## The plain program's pieces at an entry -/

/-- The wrapped index column at row `r` is the index word itself, when it is not negative. -/
private theorem wrapCol_apply (x1 : IVec Cert.ReferenceIdeal.S20000 32) (r : Fin 20000) (h : 0 ≤ (x1 (ix1 r)).toInt) :
    broadcastInDim Cert.ReferenceIdeal.S20000x1 ![0] Cert.ReferenceIdeal.Facts₀.bcast_S20000_S20000x1_0
        (Cert.RSpec.wrap Cert.ReferenceIdeal.S20000 Cert.ReferenceIdeal.Facts₀.bcast_S_S20000 50#32 x1) (ix2 r (0 : Fin 1))
      = x1 (ix1 r) := by
  rw [broadcastInDim_apply _ _ _ _ (ix1 r) (fun a => by
    match a with
    | ⟨0, _⟩ => show r.val = if (20000 : Nat) = 1 then 0 else r.val; rw [if_neg (by decide)])]
  show Scalar.select (IntOp.cmpi .slt (x1 (ix1 r)) 0#32) (IntOp.addi (x1 (ix1 r)) 50#32) (x1 (ix1 r)) = x1 (ix1 r)
  exact Cert.Embed.wrap_of_nonneg _ _ h

/-- The gathered table row at `(r, k)`: row `min (idx r) 49` of the table, when the index word is not negative. -/
private theorem gatherCol_apply (x1 : IVec Cert.ReferenceIdeal.S20000 32) (x6 : FVec Ideal Cert.ReferenceIdeal.S50x8 .f32)
    (r : Fin 20000) (k : Fin 8) (h : 0 ≤ (x1 (ix1 r)).toInt) :
    Host.gather Cert.ReferenceIdeal.gather_S50x8_S20000x1_S20000x8_1_0_n_n_0_1_18 x6
        (broadcastInDim Cert.ReferenceIdeal.S20000x1 ![0] Cert.ReferenceIdeal.Facts₀.bcast_S20000_S20000x1_0
          (Cert.RSpec.wrap Cert.ReferenceIdeal.S20000 Cert.ReferenceIdeal.Facts₀.bcast_S_S20000 50#32 x1)) (ix2 r k)
      = x6 (ix2 ⟨min (x1 (ix1 r)).toInt.toNat (50 - 1), by omega⟩ k) := by
  rw [Cert.Embed.gather_row (by decide) Cert.ReferenceIdeal.gather_S50x8_S20000x1_S20000x8_1_0_n_n_0_1_18 rfl rfl rfl rfl rfl rfl rfl]
  simp only [wrapCol_apply x1 r h]

/-- The joined rows at a column among the first 64: the dense features. -/
private theorem joined_left (x0 : FVec Ideal Cert.ReferenceIdeal.S20000x64 .f32) (g : FVec Ideal Cert.ReferenceIdeal.S20000x8 .f32)
    (r : Fin 20000) (k : Fin 64) :
    concatenate Cert.ReferenceIdeal.S20000x72 1 [⟨Cert.ReferenceIdeal.S20000x64, x0⟩, ⟨Cert.ReferenceIdeal.S20000x8, g⟩]
        Cert.ReferenceIdeal.Facts₀.concatenates_S20000x64_S20000x8_S20000x72_d1 (ix2 r (⟨k.val, by omega⟩ : Fin 72))
      = x0 (ix2 r k) :=
  concatenate_pair_apply_left (t := Cert.ReferenceIdeal.S20000x72) 1 x0 g
    Cert.ReferenceIdeal.Facts₀.concatenates_S20000x64_S20000x8_S20000x72_d1 (ix2 r (⟨k.val, by omega⟩ : Fin 72)) rfl (ix2 r k) (fun b => by
    match b with
    | ⟨0, _⟩ => rfl
    | ⟨1, _⟩ => rfl)

/-- The joined rows at a column among the last 8: the gathered table row. -/
private theorem joined_right (x0 : FVec Ideal Cert.ReferenceIdeal.S20000x64 .f32) (g : FVec Ideal Cert.ReferenceIdeal.S20000x8 .f32)
    (r : Fin 20000) (k : Fin 8) :
    concatenate Cert.ReferenceIdeal.S20000x72 1 [⟨Cert.ReferenceIdeal.S20000x64, x0⟩, ⟨Cert.ReferenceIdeal.S20000x8, g⟩]
        Cert.ReferenceIdeal.Facts₀.concatenates_S20000x64_S20000x8_S20000x72_d1 (ix2 r (⟨64 + k.val, by omega⟩ : Fin 72))
      = g (ix2 r k) :=
  concatenate_pair_apply_right (t := Cert.ReferenceIdeal.S20000x72) 1 x0 g
    Cert.ReferenceIdeal.Facts₀.concatenates_S20000x64_S20000x8_S20000x72_d1 (ix2 r (⟨64 + k.val, by omega⟩ : Fin 72)) rfl rfl (ix2 r k) (fun b hb => by
    match b with
    | ⟨0, _⟩ => rfl
    | ⟨1, _⟩ => exact absurd rfl hb) (Nat.add_comm _ _)

/-- A sum over 72 columns is the sum over the first 64 plus the sum over the last 8. -/
private theorem sum_split (f : Fin 72 → EReal) :
    ∑ k : Fin 72, f k = (∑ k : Fin 64, f ⟨k.val, by omega⟩) + ∑ k : Fin 8, f ⟨64 + k.val, by omega⟩ :=
  Fin.sum_univ_add (M := EReal) (a := 64) (b := 8) f

/-- The bias broadcast down the rows, at `(r, q)`. -/
private theorem bias_apply (x10 : FVec Ideal Cert.ReferenceIdeal.S128 .f32) (r : Fin 20000) (q : Fin 128) :
    broadcastInDim Cert.ReferenceIdeal.S20000x128 ![0, 1] Cert.ReferenceIdeal.Facts₀.bcast_S1x128_S20000x128_0_1
        (broadcastInDim Cert.ReferenceIdeal.S1x128 ![1] Cert.ReferenceIdeal.Facts₀.bcast_S128_S1x128_1 x10) (ix2 r q)
      = x10 (ix1 q) := by
  rw [broadcastInDim_apply _ _ _ _ (ix2 (0 : Fin 1) q) (fun a => by
    match a with
    | ⟨0, _⟩ => show 0 = if (1 : Nat) = 1 then 0 else r.val; rw [if_pos rfl]
    | ⟨1, _⟩ => show q.val = if (128 : Nat) = 1 then 0 else q.val; rw [if_neg (by decide)])]
  exact broadcastInDim_apply _ _ _ _ (ix1 q) (fun a => by
    match a with
    | ⟨0, _⟩ => show q.val = if (128 : Nat) = 1 then 0 else q.val; rw [if_neg (by decide)])

/-- The rectifier's zero, broadcast to every entry. -/
private theorem zero_apply (i : Cert.ReferenceIdeal.S20000x128.Idx) :
    broadcastInDim Cert.ReferenceIdeal.S20000x128 ![] Cert.ReferenceIdeal.Facts₀.bcast_S_S20000x128
        (constant (F := Ideal) Cert.ReferenceIdeal.S_ .f32 0x00000000#32) i = (0 : EReal) := by
  rw [broadcastInDim_apply _ _ _ _ (fun a => a.elim0) (fun a => a.elim0)]
  exact Ideal.ofBits_zero_f32

/-! ## The blocked program's pieces at an entry -/

/-- The first 64 rows of the weight matrix. -/
private theorem polWx_apply (x9 : FVec Ideal Cert.KernelIdeal.S72x128 .f32) (k : Fin 64) (q : Fin 128) :
    Cert.KSpec.polWx x9 (ix2 k q) = x9 (ix2 (⟨k.val, by omega⟩ : Fin 72) q) :=
  slice2_axis0_apply 0 x9 _ k q _ (Nat.zero_add _).symm

/-- The last 8 rows of the weight matrix. -/
private theorem polWe_apply (x9 : FVec Ideal Cert.KernelIdeal.S72x128 .f32) (k : Fin 8) (q : Fin 128) :
    Cert.KSpec.polWe x9 (ix2 k q) = x9 (ix2 (⟨64 + k.val, by omega⟩ : Fin 72) q) :=
  slice2_axis0_apply 64 x9 _ k q _ rfl

/-- The bias as a one-row matrix. -/
private theorem row128_apply (x10 : FVec Ideal Cert.KernelIdeal.S128 .f32) (q : Fin 128) :
    Cert.KSpec.row128 x10 (ix2 (0 : Fin 1) q) = x10 (ix1 q) :=
  shapeCast_a_1a_apply x10 _ 0 q

/-- The clipped index column at row `r`: the index word clipped into `[0, 49]`. -/
private theorem polIdx_apply (x1 : IVec Cert.KernelIdeal.S20000 32) (r : Fin 20000) :
    Cert.KSpec.polIdx x1 (ix2 r (0 : Fin 1)) = IntOp.minsi 49#32 (IntOp.maxsi 0#32 (x1 (ix1 r))) := by
  unfold Cert.KSpec.polIdx
  rw [shapeCast_apply _ _ _ (ix1 r) (by
    rw [Shape.rowMajor_val_one, Shape.rowMajor_val_two]
    show r.val = r.val * 1 + 0
    omega)]
  rfl

/-- The one-hot reading of the table at the clipped index is row `min (idx r) 49`, when the index word is not negative. -/
private theorem lookup_pol (x1 : IVec Cert.KernelIdeal.S20000 32) (x6 : FVec Ideal Cert.KernelIdeal.S50x8 .f32) (r : Fin 20000) (k : Fin 8)
    (h : 0 ≤ (x1 (ix1 r)).toInt) :
    Cert.Spec.lookup x6 (Cert.KSpec.polIdx x1 (ix2 r (0 : Fin 1))) k
      = x6 (ix2 ⟨min (x1 (ix1 r)).toInt.toNat (50 - 1), by omega⟩ k) := by
  rw [polIdx_apply]
  have hc := Cert.Embed.clip_toNat (x1 (ix1 r)) 49 (by decide) h
  have hlt : (IntOp.minsi (BitVec.ofNat 32 49) (IntOp.maxsi 0#32 (x1 (ix1 r)))).toNat < 50 := by rw [hc]; omega
  rw [Cert.Embed.lookup_of_lt (by decide) x6 _ k hlt]
  congr 2
  exact Fin.ext hc

/-! ## The two input layers agree -/

theorem polRef_eq (x0 : FVec Ideal Cert.KernelIdeal.S20000x64 .f32) (x1 : IVec Cert.KernelIdeal.S20000 32)
    (x6 : FVec Ideal Cert.KernelIdeal.S50x8 .f32) (x9 : FVec Ideal Cert.KernelIdeal.S72x128 .f32) (x10 : FVec Ideal Cert.KernelIdeal.S128 .f32)
    (h1 : ∀ r : Fin 20000, 0 ≤ (x1 (ix1 r)).toInt) :
    Cert.RSpec.polRef x0 x1 x6 x9 x10 = Cert.KSpec.hPol x0 x1 x6 x9 x10 := by
  funext i
  obtain ⟨r, q, rfl⟩ : ∃ (r : Fin 20000) (q : Fin 128), i = ix2 r q := ⟨i 0, i 1, eq_ix2 i⟩
  have hr := h1 r
  -- the blocked side: the split sums over the weight matrix's two row ranges, the table row read one-hot
  show _ = Cert.Spec.polAt x0 (Cert.KSpec.polIdx x1) x6 (Cert.KSpec.polWx x9) (Cert.KSpec.polWe x9) (Cert.KSpec.row128 x10) r q
  unfold Cert.Spec.polAt
  simp only [polWx_apply, polWe_apply, row128_apply, lookup_pol x1 x6 r _ hr]
  -- the plain side: one sum over the 72 columns of the joined rows, split at column 64
  unfold Cert.RSpec.polRef
  rw [maximumf_apply, addf_apply, zero_apply, bias_apply, dot_pol_apply, sum_split]
  simp only [joined_left, joined_right, gatherCol_apply x1 x6 r _ hr]

end Cert.RefPol

end
-- ==== Proof.RefComp.lean ====
/-
  The two programs' second input layers are one function of the arguments, where the table indices are not negative.

  Plain: row `r` of the features is the 96 dense entries, the 8 entries of row `s r` of the 12-row table and the 8 entries
  of row `i r` of the 150-row table (two gathers, each start index not wrapped when not negative and clamped to the last
  row); one product with the 112-row weight matrix sums over all 112 columns. Blocked: the sum split at columns 96 and
  104, each table row read as a one-hot product, the two indices clipped into `[0, 11]` and `[0, 149]`, packed as
  `s · 256 + i` and unpacked by a shift and a mask. On non-negative indices the clips are the clamps, the packing round
  trip returns both clipped indices, each one-hot sum is its row, and the sum over 112 columns is the three sums; bias and
  rectifier are the same.
-/
import proofs.«422622_j33603824124606_3_alg».proof.Proof.RSpec
import proofs.«422622_j33603824124606_3_alg».proof.Proof.KSpec
import proofs.«422622_j33603824124606_3_alg».proof.Proof.Embed
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.RefComp

open Idealize.ShloMosaic Idealize.ShloMosaic.ValueIdx

variable [Cert.KernelIdeal.Facts₀] [Cert.ReferenceIdeal.Facts₀]

/-! ## The plain program's side -/

section Plain
open Cert.ReferenceIdeal Cert.ReferenceIdeal.Facts₀

/-! ### The product with the 112-row weight matrix, read at an entry -/

private theorem prod_lhs_0 (i : S80000x128.Idx) (q : dot_S80000x112_S112x128_S80000x128_1_0_0_1_n_n.contr.Idx) :
    (dot_S80000x112_S112x128_S80000x128_1_0_0_1_n_n.lhsIdx i q 0).val = (i 0).val := by
  unfold DotDims.lhsIdx
  rw [dif_neg (show ¬(0 : Fin S80000x112.rank) ∈ dot_S80000x112_S112x128_S80000x128_1_0_0_1_n_n.lhsBatch from List.not_mem_nil), dif_pos (show (0 : Fin S80000x112.rank) ∈ dot_S80000x112_S112x128_S80000x128_1_0_0_1_n_n.lhsNonContracting from List.mem_singleton.mpr rfl)]
  rfl
private theorem prod_lhs_1 (i : S80000x128.Idx) (q : dot_S80000x112_S112x128_S80000x128_1_0_0_1_n_n.contr.Idx) :
    (dot_S80000x112_S112x128_S80000x128_1_0_0_1_n_n.lhsIdx i q 1).val = (q ⟨0, Nat.one_pos⟩).val :=
  dot_S80000x112_S112x128_S80000x128_1_0_0_1_n_n.lhsIdx_val_of_single rfl i q
private theorem prod_rhs_0 (i : S80000x128.Idx) (q : dot_S80000x112_S112x128_S80000x128_1_0_0_1_n_n.contr.Idx) :
    (dot_S80000x112_S112x128_S80000x128_1_0_0_1_n_n.rhsIdx i q 0).val = (q ⟨0, Nat.one_pos⟩).val :=
  dot_S80000x112_S112x128_S80000x128_1_0_0_1_n_n.rhsIdx_val_of_single rfl i q
private theorem prod_rhs_1 (i : S80000x128.Idx) (q : dot_S80000x112_S112x128_S80000x128_1_0_0_1_n_n.contr.Idx) :
    (dot_S80000x112_S112x128_S80000x128_1_0_0_1_n_n.rhsIdx i q 1).val = (i 1).val := by
  unfold DotDims.rhsIdx
  rw [dif_neg (show ¬(1 : Fin S112x128.rank) ∈ dot_S80000x112_S112x128_S80000x128_1_0_0_1_n_n.rhsBatch from List.not_mem_nil), dif_pos (show (1 : Fin S112x128.rank) ∈ dot_S80000x112_S112x128_S80000x128_1_0_0_1_n_n.rhsNonContracting from List.mem_singleton.mpr rfl)]
  rfl

/-- Entry (r, q) of the product is the sum over the 112 joined columns. -/
private theorem prod_apply (l : FVec Ideal S80000x112 .f32) (w : FVec Ideal S112x128 .f32) (r : Fin 80000) (q : Fin 128) :
    Host.dotGeneral dot_S80000x112_S112x128_S80000x128_1_0_0_1_n_n none l w (ix2 r q)
      = ∑ k : Fin 112, l (ix2 r k) * w (ix2 k q) := by
  simp only [Host.dotGeneral]
  rw [Ideal.dotGeneral_apply, ← Equiv.sum_comp (contrEquiv1 dot_S80000x112_S112x128_S80000x128_1_0_0_1_n_n 112 rfl rfl).symm]
  refine Finset.sum_congr rfl fun k _ => ?_
  have hk := contrEquiv1_symm_val dot_S80000x112_S112x128_S80000x128_1_0_0_1_n_n 112 rfl rfl k
  have el : dot_S80000x112_S112x128_S80000x128_1_0_0_1_n_n.lhsIdx (ix2 r q) ((contrEquiv1 dot_S80000x112_S112x128_S80000x128_1_0_0_1_n_n 112 rfl rfl).symm k) = ix2 r k := funext fun a => Fin.ext (by
    match a with
    | ⟨0, _⟩ => exact prod_lhs_0 _ _
    | ⟨1, _⟩ => exact (prod_lhs_1 _ _).trans hk)
  have er : dot_S80000x112_S112x128_S80000x128_1_0_0_1_n_n.rhsIdx (ix2 r q) ((contrEquiv1 dot_S80000x112_S112x128_S80000x128_1_0_0_1_n_n 112 rfl rfl).symm k) = ix2 k q := funext fun a => Fin.ext (by
    match a with
    | ⟨0, _⟩ => exact (prod_rhs_0 _ _).trans hk
    | ⟨1, _⟩ => exact prod_rhs_1 _ _)
  rw [el, er]

/-! ### A sum over the 112 joined columns is the three sums over its ranges -/

private theorem sum_ranges (f : Fin 112 → EReal) :
    ∑ k : Fin 112, f k
      = ((∑ k : Fin 96, f ⟨k.val, by omega⟩) + ∑ k : Fin 8, f ⟨96 + k.val, by omega⟩) + ∑ k : Fin 8, f ⟨104 + k.val, by omega⟩ := by
  have e1 : (∑ k : Fin 112, f k) = (∑ k : Fin 96, f (Fin.castAdd 16 k)) + ∑ k : Fin 16, f (Fin.natAdd 96 k) :=
    Fin.sum_univ_add (a := 96) (b := 16) f
  have e2 : (∑ k : Fin 16, f (Fin.natAdd 96 k))
      = (∑ k : Fin 8, f (Fin.natAdd 96 (Fin.castAdd 8 k))) + ∑ k : Fin 8, f (Fin.natAdd 96 (Fin.natAdd 8 k)) :=
    Fin.sum_univ_add (a := 8) (b := 8) fun k => f (Fin.natAdd 96 k)
  rw [e1, e2, ← add_assoc]
  congr 1

/-! ### The three joined pieces, read at an entry -/

/-- Columns below 96 of the joined rows are the dense features. -/
private theorem joined_dense (a : S80000x96.Idx → EReal) (b c : S80000x8.Idx → EReal) (r : Fin 80000) (k : Fin 96) :
    concatenate S80000x112 1 [⟨S80000x96, a⟩, ⟨S80000x8, b⟩, ⟨S80000x8, c⟩]
        concatenates_S80000x96_S80000x8_S80000x8_S80000x112_d1 (ix2 r (⟨k.val, by omega⟩ : Fin 112))
      = a (ix2 r k) := by
  refine concatenate_apply_piece 1 ([⟨S80000x96, a⟩, ⟨S80000x8, b⟩, ⟨S80000x8, c⟩] : List ((s : Shape) × (s.Idx → EReal)))
    concatenates_S80000x96_S80000x8_S80000x8_S80000x112_d1 _ 0 (show 0 < 3 by omega) S80000x96 a rfl rfl 0 rfl
    (ix2 r k) (fun b hb => ?_) ?_
  · match b with
    | ⟨0, _⟩ => rfl
    | ⟨1, _⟩ => exact absurd rfl hb
  · show 0 + k.val = k.val
    omega

/-- Columns 96 to 103 are the first table's rows. -/
private theorem joined_first (a : S80000x96.Idx → EReal) (b c : S80000x8.Idx → EReal) (r : Fin 80000) (k : Fin 8) :
    concatenate S80000x112 1 [⟨S80000x96, a⟩, ⟨S80000x8, b⟩, ⟨S80000x8, c⟩]
        concatenates_S80000x96_S80000x8_S80000x8_S80000x112_d1 (ix2 r (⟨96 + k.val, by omega⟩ : Fin 112))
      = b (ix2 r k) := by
  refine concatenate_apply_piece 1 ([⟨S80000x96, a⟩, ⟨S80000x8, b⟩, ⟨S80000x8, c⟩] : List ((s : Shape) × (s.Idx → EReal)))
    concatenates_S80000x96_S80000x8_S80000x8_S80000x112_d1 _ 1 (show 1 < 3 by omega) S80000x8 b rfl rfl 96 rfl
    (ix2 r k) (fun b hb => ?_) ?_
  · match b with
    | ⟨0, _⟩ => rfl
    | ⟨1, _⟩ => exact absurd rfl hb
  · rfl

/-- Columns 104 to 111 are the second table's rows. -/
private theorem joined_second (a : S80000x96.Idx → EReal) (b c : S80000x8.Idx → EReal) (r : Fin 80000) (k : Fin 8) :
    concatenate S80000x112 1 [⟨S80000x96, a⟩, ⟨S80000x8, b⟩, ⟨S80000x8, c⟩]
        concatenates_S80000x96_S80000x8_S80000x8_S80000x112_d1 (ix2 r (⟨104 + k.val, by omega⟩ : Fin 112))
      = c (ix2 r k) := by
  refine concatenate_apply_piece 1 ([⟨S80000x96, a⟩, ⟨S80000x8, b⟩, ⟨S80000x8, c⟩] : List ((s : Shape) × (s.Idx → EReal)))
    concatenates_S80000x96_S80000x8_S80000x8_S80000x112_d1 _ 2 (show 2 < 3 by omega) S80000x8 c rfl rfl 104 rfl
    (ix2 r k) (fun b hb => ?_) ?_
  · match b with
    | ⟨0, _⟩ => rfl
    | ⟨1, _⟩ => exact absurd rfl hb
  · rfl

end Plain

section PlainIndex
open Cert.ReferenceIdeal Cert.ReferenceIdeal.Facts₀

/-! ### The start indices, the gathered rows, the bias and the zero -/

/-- A word spread from the scalar shape over the 80000 rows is that word at every row. -/
private theorem splat_apply (b : BitVec 32) (r : Fin 80000) :
    broadcastInDim S80000 ![] bcast_S_S80000 (constantI S_ 32 b) (ix1 r) = b :=
  broadcastInDim_apply ![] bcast_S_S80000 (constantI S_ 32 b) (ix1 r) ix0 (fun a => a.elim0)

/-- The wrapped index column at row `r` is the index word of row `r`, where that word is not negative. -/
private theorem wrapped_apply (n : BitVec 32) (x : IVec S80000 32) (r : Fin 80000) (hx : 0 ≤ (x (ix1 r)).toInt) :
    broadcastInDim S80000x1 ![0] bcast_S80000_S80000x1_0 (Cert.RSpec.wrap S80000 bcast_S_S80000 n x) (ix2 r (0 : Fin 1))
      = x (ix1 r) := by
  refine (broadcastInDim_apply ![0] bcast_S80000_S80000x1_0 _ (ix2 r (0 : Fin 1)) (ix1 r) (fun a => ?_)).trans ?_
  · match a with
    | ⟨0, _⟩ => show r.val = if (80000 : Nat) = 1 then 0 else r.val; rw [if_neg (by decide)]
  · unfold Cert.RSpec.wrap
    show Scalar.select (IntOp.cmpi .slt (x (ix1 r)) (broadcastInDim S80000 ![] bcast_S_S80000 (constantI S_ 32 0#32) (ix1 r)))
      (IntOp.addi (x (ix1 r)) (broadcastInDim S80000 ![] bcast_S_S80000 (constantI S_ 32 n) (ix1 r))) (x (ix1 r)) = x (ix1 r)
    rw [splat_apply, splat_apply]
    exact Cert.Embed.wrap_of_nonneg _ _ hx

/-- The first table's gathered rows: row `r` is the table's row at the index word, clamped to the last row. -/
private theorem gather_first (x7 : FVec Ideal S12x8 .f32) (x3 : IVec S80000 32) (r : Fin 80000) (k : Fin 8)
    (hx : 0 ≤ (x3 (ix1 r)).toInt) :
    Host.gather gather_S12x8_S80000x1_S80000x8_1_0_n_n_0_1_18 x7
        (broadcastInDim S80000x1 ![0] bcast_S80000_S80000x1_0 (Cert.RSpec.wrap S80000 bcast_S_S80000 12#32 x3)) (ix2 r k)
      = x7 (ix2 ⟨min (x3 (ix1 r)).toInt.toNat 11, by omega⟩ k) := by
  refine (Cert.Embed.gather_row (T := 12) (R := 80000) (C := 8) (by decide) gather_S12x8_S80000x1_S80000x8_1_0_n_n_0_1_18
    rfl rfl rfl rfl rfl rfl rfl x7 _ r k).trans (congrArg x7 (funext fun a => Fin.ext ?_))
  match a with
  | ⟨0, _⟩ =>
    show min (broadcastInDim S80000x1 ![0] bcast_S80000_S80000x1_0 (Cert.RSpec.wrap S80000 bcast_S_S80000 12#32 x3)
      (ix2 r (0 : Fin 1))).toInt.toNat (12 - 1) = min (x3 (ix1 r)).toInt.toNat 11
    rw [wrapped_apply 12#32 x3 r hx]
  | ⟨1, _⟩ => rfl

/-- The second table's gathered rows likewise. -/
private theorem gather_second (x8 : FVec Ideal S150x8 .f32) (x4 : IVec S80000 32) (r : Fin 80000) (k : Fin 8)
    (hx : 0 ≤ (x4 (ix1 r)).toInt) :
    Host.gather gather_S150x8_S80000x1_S80000x8_1_0_n_n_0_1_18 x8
        (broadcastInDim S80000x1 ![0] bcast_S80000_S80000x1_0 (Cert.RSpec.wrap S80000 bcast_S_S80000 150#32 x4)) (ix2 r k)
      = x8 (ix2 ⟨min (x4 (ix1 r)).toInt.toNat 149, by omega⟩ k) := by
  refine (Cert.Embed.gather_row (T := 150) (R := 80000) (C := 8) (by decide) gather_S150x8_S80000x1_S80000x8_1_0_n_n_0_1_18
    rfl rfl rfl rfl rfl rfl rfl x8 _ r k).trans (congrArg x8 (funext fun a => Fin.ext ?_))
  match a with
  | ⟨0, _⟩ =>
    show min (broadcastInDim S80000x1 ![0] bcast_S80000_S80000x1_0 (Cert.RSpec.wrap S80000 bcast_S_S80000 150#32 x4)
      (ix2 r (0 : Fin 1))).toInt.toNat (150 - 1) = min (x4 (ix1 r)).toInt.toNat 149
    rw [wrapped_apply 150#32 x4 r hx]
  | ⟨1, _⟩ => rfl

/-- The bias vector spread over the rows reads its column's entry. -/
private theorem bias_apply (x12 : FVec Ideal S128 .f32) (r : Fin 80000) (q : Fin 128) :
    broadcastInDim S80000x128 ![0, 1] bcast_S1x128_S80000x128_0_1 (broadcastInDim S1x128 ![1] bcast_S128_S1x128_1 x12) (ix2 r q)
      = x12 (ix1 q) := by
  refine (broadcastInDim_apply ![0, 1] bcast_S1x128_S80000x128_0_1 _ (ix2 r q) (ix2 (0 : Fin 1) q) (fun a => ?_)).trans ?_
  · match a with
    | ⟨0, _⟩ => show (0 : Nat) = if (1 : Nat) = 1 then 0 else r.val; rw [if_pos rfl]
    | ⟨1, _⟩ => show q.val = if (128 : Nat) = 1 then 0 else q.val; rw [if_neg (by decide)]
  · refine broadcastInDim_apply ![1] bcast_S128_S1x128_1 x12 (ix2 (0 : Fin 1) q) (ix1 q) (fun a => ?_)
    match a with
    | ⟨0, _⟩ => show q.val = if (128 : Nat) = 1 then 0 else q.val; rw [if_neg (by decide)]

/-- The zero spread over the array is the extended real zero at every entry. -/
private theorem zero_apply (r : Fin 80000) (q : Fin 128) :
    broadcastInDim S80000x128 ![] bcast_S_S80000x128 (constant (F := Ideal) S_ .f32 0x00000000#32) (ix2 r q) = (0 : EReal) := by
  refine (broadcastInDim_apply ![] bcast_S_S80000x128 (constant (F := Ideal) S_ .f32 0x00000000#32) (ix2 r q) ix0 (fun a => a.elim0)).trans ?_
  rw [constant_apply]
  exact Ideal.ofBits_zero_f32

end PlainIndex

/-! ## The blocked program's side -/

section Blocked
open Cert.KernelIdeal Cert.KernelIdeal.Facts₀

/-- A word spread from the scalar shape over the 80000 rows is that word at every row. -/
private theorem ksplat_apply (b : BitVec 32) (r : Fin 80000) :
    broadcastInDim S80000 ![] bcast_S_S80000 (constantI S_ 32 b) (ix1 r) = b :=
  broadcastInDim_apply ![] bcast_S_S80000 (constantI S_ 32 b) (ix1 r) ix0 (fun a => a.elim0)

/-- A clipped index vector at row `r` is the clipped index word of row `r`. -/
private theorem clip_apply (hi : BitVec 32) (x : IVec S80000 32) (r : Fin 80000) :
    Cert.KSpec.clip S80000 bcast_S_S80000 hi x (ix1 r) = IntOp.minsi hi (IntOp.maxsi 0#32 (x (ix1 r))) := by
  unfold Cert.KSpec.clip
  show IntOp.minsi (broadcastInDim S80000 ![] bcast_S_S80000 (constantI S_ 32 hi) (ix1 r))
    (IntOp.maxsi (broadcastInDim S80000 ![] bcast_S_S80000 (constantI S_ 32 0#32) (ix1 r)) (x (ix1 r))) = _
  rw [ksplat_apply, ksplat_apply]

/-- The packed index column at row `r`: the first clipped word times 256 plus the second. -/
private theorem packed_apply (x3 x4 : IVec S80000 32) (r : Fin 80000) :
    Cert.KSpec.compIdx x3 x4 (ix2 r (0 : Fin 1))
      = IntOp.addi (IntOp.muli (IntOp.minsi 11#32 (IntOp.maxsi 0#32 (x3 (ix1 r)))) 256#32)
          (IntOp.minsi 149#32 (IntOp.maxsi 0#32 (x4 (ix1 r)))) := by
  unfold Cert.KSpec.compIdx
  refine (shapeCast_apply _ shapeCasts_S80000_S80000x1 (ix2 r (0 : Fin 1)) (ix1 r) ?_).trans ?_
  · rw [Shape.rowMajor_val_one, Shape.rowMajor_val_two]
    show r.val = r.val * 1 + 0
    omega
  · show IntOp.addi (IntOp.muli (Cert.KSpec.clip S80000 bcast_S_S80000 11#32 x3 (ix1 r))
        (broadcastInDim S80000 ![] bcast_S_S80000 (constantI S_ 32 256#32) (ix1 r)))
      (Cert.KSpec.clip S80000 bcast_S_S80000 149#32 x4 (ix1 r)) = _
    rw [clip_apply, clip_apply, ksplat_apply]

/-- The dense rows of the weight matrix. -/
private theorem wx_apply (x11 : FVec Ideal S112x128 .f32) (k : Fin 96) (q : Fin 128) :
    Cert.KSpec.compWx x11 (ix2 k q) = x11 (ix2 (⟨k.val, by omega⟩ : Fin 112) q) := by
  unfold Cert.KSpec.compWx
  refine extractStridedSlice_apply ![0, 0] x11 slices_S112x128_S96x128_0_0 (ix2 k q) (ix2 (⟨k.val, by omega⟩ : Fin 112) q) fun a => ?_
  match a with
  | ⟨0, _⟩ => show k.val = 0 + k.val; omega
  | ⟨1, _⟩ => show q.val = 0 + q.val; omega

/-- The first table's rows of the weight matrix. -/
private theorem ws_apply (x11 : FVec Ideal S112x128 .f32) (k : Fin 8) (q : Fin 128) :
    Cert.KSpec.compWs x11 (ix2 k q) = x11 (ix2 (⟨96 + k.val, by omega⟩ : Fin 112) q) := by
  unfold Cert.KSpec.compWs
  refine extractStridedSlice_apply ![96, 0] x11 slices_S112x128_S8x128_96_0 (ix2 k q) (ix2 (⟨96 + k.val, by omega⟩ : Fin 112) q) fun a => ?_
  match a with
  | ⟨0, _⟩ => rfl
  | ⟨1, _⟩ => show q.val = 0 + q.val; omega

/-- The second table's rows of the weight matrix. -/
private theorem wi_apply (x11 : FVec Ideal S112x128 .f32) (k : Fin 8) (q : Fin 128) :
    Cert.KSpec.compWi x11 (ix2 k q) = x11 (ix2 (⟨104 + k.val, by omega⟩ : Fin 112) q) := by
  unfold Cert.KSpec.compWi
  refine extractStridedSlice_apply ![104, 0] x11 slices_S112x128_S8x128_104_0 (ix2 k q) (ix2 (⟨104 + k.val, by omega⟩ : Fin 112) q) fun a => ?_
  match a with
  | ⟨0, _⟩ => rfl
  | ⟨1, _⟩ => show q.val = 0 + q.val; omega

/-- The bias vector as a one-row matrix reads its column's entry. -/
private theorem row_apply (x12 : FVec Ideal S128 .f32) (q : Fin 128) :
    Cert.KSpec.row128 x12 (ix2 (0 : Fin 1) q) = x12 (ix1 q) := by
  unfold Cert.KSpec.row128
  refine shapeCast_apply x12 shapeCasts_S128_S1x128 (ix2 (0 : Fin 1) q) (ix1 q) ?_
  rw [Shape.rowMajor_val_one, Shape.rowMajor_val_two]
  show q.val = 0 * 128 + q.val
  omega

end Blocked

/-! ## Both sides at an entry -/

section Entry
open Cert.KernelIdeal

/-- Entry (r, q) of the layer, from row `a` of the first table and row `b` of the second: the three sums over the
    column ranges of the weight matrix, the bias, the rectifier. -/
private def entry (x2 : FVec Ideal S80000x96 .f32) (x7 : FVec Ideal S12x8 .f32) (x8 : FVec Ideal S150x8 .f32)
    (x11 : FVec Ideal S112x128 .f32) (x12 : FVec Ideal S128 .f32) (r : Fin 80000) (q : Fin 128) (a : Fin 12) (b : Fin 150) : EReal :=
  max ((((∑ k : Fin 96, x2 (ix2 r k) * x11 (ix2 (⟨k.val, by omega⟩ : Fin 112) q))
        + ∑ k : Fin 8, x7 (ix2 a k) * x11 (ix2 (⟨96 + k.val, by omega⟩ : Fin 112) q))
      + ∑ k : Fin 8, x8 (ix2 b k) * x11 (ix2 (⟨104 + k.val, by omega⟩ : Fin 112) q))
    + x12 (ix1 q)) 0

/-- The plain program's entry. -/
private theorem plain_apply (x2 : FVec Ideal S80000x96 .f32) (x3 x4 : IVec S80000 32)
    (x7 : FVec Ideal S12x8 .f32) (x8 : FVec Ideal S150x8 .f32) (x11 : FVec Ideal S112x128 .f32) (x12 : FVec Ideal S128 .f32)
    (r : Fin 80000) (q : Fin 128) (h3 : 0 ≤ (x3 (ix1 r)).toInt) (h4 : 0 ≤ (x4 (ix1 r)).toInt) :
    Cert.RSpec.compRef x2 x3 x4 x7 x8 x11 x12 (ix2 r q)
      = entry x2 x7 x8 x11 x12 r q ⟨min (x3 (ix1 r)).toInt.toNat 11, by omega⟩ ⟨min (x4 (ix1 r)).toInt.toNat 149, by omega⟩ := by
  unfold Cert.RSpec.compRef entry
  rw [maximumf_apply, addf_apply, prod_apply, bias_apply, zero_apply, sum_ranges]
  simp only [joined_dense, joined_first, joined_second, gather_first x7 x3 r _ h3, gather_second x8 x4 r _ h4]

/-- The blocked program's entry. -/
private theorem blocked_apply (x2 : FVec Ideal S80000x96 .f32) (x3 x4 : IVec S80000 32)
    (x7 : FVec Ideal S12x8 .f32) (x8 : FVec Ideal S150x8 .f32) (x11 : FVec Ideal S112x128 .f32) (x12 : FVec Ideal S128 .f32)
    (r : Fin 80000) (q : Fin 128) (h3 : 0 ≤ (x3 (ix1 r)).toInt) (h4 : 0 ≤ (x4 (ix1 r)).toInt) :
    Cert.KSpec.hComp x2 x3 x4 x7 x8 x11 x12 (ix2 r q)
      = entry x2 x7 x8 x11 x12 r q ⟨min (x3 (ix1 r)).toInt.toNat 11, by omega⟩ ⟨min (x4 (ix1 r)).toInt.toNat 149, by omega⟩ := by
  -- the two clipped words, as natural numbers
  have hs : (IntOp.minsi 11#32 (IntOp.maxsi 0#32 (x3 (ix1 r)))).toNat = min (x3 (ix1 r)).toInt.toNat 11 :=
    Cert.Embed.clip_toNat (x3 (ix1 r)) 11 (by norm_num) h3
  have hi : (IntOp.minsi 149#32 (IntOp.maxsi 0#32 (x4 (ix1 r)))).toNat = min (x4 (ix1 r)).toInt.toNat 149 :=
    Cert.Embed.clip_toNat (x4 (ix1 r)) 149 (by norm_num) h4
  have hs23 : (IntOp.minsi 11#32 (IntOp.maxsi 0#32 (x3 (ix1 r)))).toNat < 2 ^ 23 := by rw [hs]; omega
  have hi256 : (IntOp.minsi 149#32 (IntOp.maxsi 0#32 (x4 (ix1 r)))).toNat < 256 := by rw [hi]; omega
  -- the one-hot sums are the clipped rows
  have e7 : ∀ k : Fin 8, Cert.Spec.lookup x7 (IntOp.minsi 11#32 (IntOp.maxsi 0#32 (x3 (ix1 r)))) k
      = x7 (ix2 (⟨min (x3 (ix1 r)).toInt.toNat 11, by omega⟩ : Fin 12) k) := fun k =>
    (Cert.Embed.lookup_of_lt (T := 12) (C := 8) (by norm_num) x7 _ k (by rw [hs]; omega)).trans
      (congrArg x7 (funext fun a => Fin.ext (match a with | ⟨0, _⟩ => hs | ⟨1, _⟩ => rfl)))
  have e8 : ∀ k : Fin 8, Cert.Spec.lookup x8 (IntOp.minsi 149#32 (IntOp.maxsi 0#32 (x4 (ix1 r)))) k
      = x8 (ix2 (⟨min (x4 (ix1 r)).toInt.toNat 149, by omega⟩ : Fin 150) k) := fun k =>
    (Cert.Embed.lookup_of_lt (T := 150) (C := 8) (by norm_num) x8 _ k (by rw [hi]; omega)).trans
      (congrArg x8 (funext fun a => Fin.ext (match a with | ⟨0, _⟩ => hi | ⟨1, _⟩ => rfl)))
  show Cert.Spec.compAt (fun v => IntOp.shrsi .vector v 8#32) (fun v => IntOp.andi v 255#32)
    x2 (Cert.KSpec.compIdx x3 x4) x7 x8 (Cert.KSpec.compWx x11) (Cert.KSpec.compWs x11) (Cert.KSpec.compWi x11) (Cert.KSpec.row128 x12) r q = _
  unfold Cert.Spec.compAt entry
  dsimp only
  rw [packed_apply, Cert.Embed.unpack_hi _ _ hs23 hi256, Cert.Embed.unpack_lo _ _ hs23 hi256, row_apply]
  simp only [wx_apply, ws_apply, wi_apply, e7, e8]

end Entry

theorem compRef_eq (x2 : FVec Ideal Cert.KernelIdeal.S80000x96 .f32) (x3 x4 : IVec Cert.KernelIdeal.S80000 32)
    (x7 : FVec Ideal Cert.KernelIdeal.S12x8 .f32) (x8 : FVec Ideal Cert.KernelIdeal.S150x8 .f32)
    (x11 : FVec Ideal Cert.KernelIdeal.S112x128 .f32) (x12 : FVec Ideal Cert.KernelIdeal.S128 .f32)
    (h3 : ∀ r : Fin 80000, 0 ≤ (x3 (ix1 r)).toInt) (h4 : ∀ r : Fin 80000, 0 ≤ (x4 (ix1 r)).toInt) :
    Cert.RSpec.compRef x2 x3 x4 x7 x8 x11 x12 = Cert.KSpec.hComp x2 x3 x4 x7 x8 x11 x12 := by
  funext i
  obtain ⟨r, q, rfl⟩ : ∃ (r : Fin 80000) (q : Fin 128), i = ix2 r q := ⟨i 0, i 1, eq_ix2 i⟩
  rw [plain_apply x2 x3 x4 x7 x8 x11 x12 r q (h3 r) (h4 r), blocked_apply x2 x3 x4 x7 x8 x11 x12 r q (h3 r) (h4 r)]

end Cert.RefComp

end
-- ==== Proof.RefLayer.lean ====
/-
  The plain program's convolution layer, entry by entry.

  At row `r`, column `q` the plain layer is `(m[r,:]·wl[:,q] + b[q]) + h[r,:]·wr[:,q]` with `m` the per-destination sums of
  the gathered source rows divided by the in-degrees; the blocked program adds in the order
  `(m[r,:]·wl[:,q] + h[r,:]·wr[:,q]) + b[q]` and reads the bias from a one-row matrix. Addition of extended reals is
  commutative and associative, so the two orders agree; the edge list's rows and the gathered messages are the same
  terms in both programs.
-/
import proofs.«422622_j33603824124606_3_alg».proof.Proof.RSpec
import proofs.«422622_j33603824124606_3_alg».proof.Proof.KSpec
import proofs.«422622_j33603824124606_3_alg».proof.Proof.Embed
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.RefLayer

open Idealize.ShloMosaic Idealize.ShloMosaic.ValueIdx

variable [Cert.KernelIdeal.Facts₀] [Cert.ReferenceIdeal.Facts₀]

/-! ## A matrix product at one entry -/

/-- The left operand's row coordinate is the output's row. -/
private theorem lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  have hb : ¬(0 : Fin Cert.ReferenceIdeal.S100000x128.rank) ∈ Cert.ReferenceIdeal.dot_S100000x128_S128x128_S100000x128_1_0_0_1_n_n.lhsBatch := by
    show ¬(0 : Fin 2) ∈ ([] : List (Fin 2)); decide
  have hn : (0 : Fin Cert.ReferenceIdeal.S100000x128.rank) ∈ Cert.ReferenceIdeal.dot_S100000x128_S128x128_S100000x128_1_0_0_1_n_n.lhsNonContracting := by
    show (0 : Fin 2) ∈ ([0] : List (Fin 2)); decide
  rw [dif_neg hb, dif_pos hn]
  rfl

/-- The left operand's column coordinate is the summation index. -/
private theorem lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, Nat.one_pos⟩).val :=
  Cert.ReferenceIdeal.dot_S100000x128_S128x128_S100000x128_1_0_0_1_n_n.lhsIdx_val_of_single rfl i q

/-- The right operand's row coordinate is the summation index. -/
private theorem rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, Nat.one_pos⟩).val :=
  Cert.ReferenceIdeal.dot_S100000x128_S128x128_S100000x128_1_0_0_1_n_n.rhsIdx_val_of_single rfl i q

/-- The right operand's column coordinate is the output's column. -/
private theorem rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  have hb : ¬(1 : Fin Cert.ReferenceIdeal.S128x128.rank) ∈ Cert.ReferenceIdeal.dot_S100000x128_S128x128_S100000x128_1_0_0_1_n_n.rhsBatch := by
    show ¬(1 : Fin 2) ∈ ([] : List (Fin 2)); decide
  have hn : (1 : Fin Cert.ReferenceIdeal.S128x128.rank) ∈ Cert.ReferenceIdeal.dot_S100000x128_S128x128_S100000x128_1_0_0_1_n_n.rhsNonContracting := by
    show (1 : Fin 2) ∈ ([1] : List (Fin 2)); decide
  rw [dif_neg hb, dif_pos hn]
  rfl

/-- Entry `(r, q)` of `y · w` is `∑ k, y[r, k] * w[k, q]`. -/
private theorem dot_at (y : FVec Ideal Cert.ReferenceIdeal.S100000x128 .f32) (w : FVec Ideal Cert.ReferenceIdeal.S128x128 .f32)
    (r : Fin 100000) (q : Fin 128) :
    Host.dotGeneral (F := Ideal) Cert.ReferenceIdeal.dot_S100000x128_S128x128_S100000x128_1_0_0_1_n_n none y w (ix2 r q) = ∑ k : Fin 128, y (ix2 r k) * w (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k :=
    funext fun a => Fin.ext (by
      match a with
      | ⟨0, _⟩ => exact lhs_0 _ _
      | ⟨1, _⟩ => exact (lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-! ## The bias at one entry -/

/-- The bias vector spread over the rows reads `b[q]` at entry `(r, q)`. -/
private theorem bias_at (b : FVec Ideal Cert.ReferenceIdeal.S128 .f32) (r : Fin 100000) (q : Fin 128) :
    broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ix2 r q) = b (ix1 q) := by
  rw [broadcastInDim_apply _ Cert.ReferenceIdeal.Facts₀.bcast_S1x128_S100000x128_0_1 _ (ix2 r q) (ix2 (0 : Fin 1) q)
    (fun a => match a with
      | ⟨0, _⟩ => by show 0 = if (1 : Nat) = 1 then 0 else r.val; rw [if_pos rfl]
      | ⟨1, _⟩ => by show q.val = if (128 : Nat) = 1 then 0 else q.val; rw [if_neg (by decide)])]
  exact broadcastInDim_apply _ Cert.ReferenceIdeal.Facts₀.bcast_S128_S1x128_1 b (ix2 (0 : Fin 1) q) (ix1 q)
    (fun a => match a with
      | ⟨0, _⟩ => by show q.val = if (128 : Nat) = 1 then 0 else q.val; rw [if_neg (by decide)])

/-- The bias vector as a one-row matrix reads `b[q]` at entry `(0, q)`. -/
private theorem row128_at (b : FVec Ideal Cert.KernelIdeal.S128 .f32) (q : Fin 128) :
    Cert.KSpec.row128 b (ix2 (0 : Fin 1) q) = b (ix1 q) := by
  unfold Cert.KSpec.row128
  exact shapeCast_apply b _ (ix2 (0 : Fin 1) q) (ix1 q) (by
    rw [Shape.rowMajor_val_two, Shape.rowMajor_val_one]; show q.val = 0 * 128 + q.val; omega)

/-! ## The layer -/

theorem layerRef_eq (h : FVec Ideal Cert.KernelIdeal.S100000x128 .f32) (x5 : IVec Cert.KernelIdeal.S2x1600000 32)
    (wl : FVec Ideal Cert.KernelIdeal.S128x128 .f32) (b : FVec Ideal Cert.KernelIdeal.S128 .f32) (wr : FVec Ideal Cert.KernelIdeal.S128x128 .f32) :
    Cert.RSpec.layerRef h x5 wl b wr
      = fun i => Cert.Spec.denseAt h (Cert.Agg.sumThenDivide (Cert.KSpec.gatherRows h x5) (Cert.KSpec.dstOf x5)) wl
          (Cert.KSpec.row128 b) wr (i 0) (i 1) := by
  have hg : Cert.RSpec.gatherRows h x5 = Cert.KSpec.gatherRows h x5 := by
    unfold Cert.RSpec.gatherRows Cert.KSpec.gatherRows Cert.RSpec.wrap Cert.KSpec.srcCol Cert.RSpec.srcOf Cert.KSpec.srcOf; rfl
  have hd : Cert.RSpec.dstOf x5 = Cert.KSpec.dstOf x5 := by
    unfold Cert.RSpec.dstOf Cert.KSpec.dstOf; rfl
  unfold Cert.RSpec.layerRef
  rw [hg, hd]
  generalize Cert.Agg.sumThenDivide (Cert.KSpec.gatherRows h x5) (Cert.KSpec.dstOf x5) = m
  funext i
  obtain ⟨r, q, rfl⟩ : ∃ (r : Fin 100000) (q : Fin 128), i = ix2 r q := ⟨i 0, i 1, eq_ix2 i⟩
  rw [addf_apply, addf_apply, dot_at, dot_at, bias_at]
  show _ = Cert.Spec.denseAt h m wl (Cert.KSpec.row128 b) wr r q
  unfold Cert.Spec.denseAt
  rw [row128_at]
  exact add_right_comm _ _ _

end Cert.RefLayer

end
-- ==== Proof.Agg.lean ====
/-
  Mean aggregation over incoming edges, two ways: the proof.

  Fix an operand element `(r, c)`. An update element `(e, f)` of the row-scatter lands on it only if edge `e`'s
  destination word, read signed, is `r`: the scatter's start on the row axis is that word, unclamped, and the row axis
  carries no window coordinate. Such a word is not negative, so the wrap-around select keeps it, and it is below
  `100000`, so the table read's clamp keeps it: every update that lands on `(r, c)` carries the same scale, the
  reciprocal in-degree table's entry at `r`. The in-degree `∑_{e lands on r} 1` is a natural number, so its maximum
  with one is a real `y ≥ 1`, the table's entry is the real `1 / y`, and a non-negative real factor comes out of a sum
  of extended reals whatever the summands are: `∑ msg · (1 / y) = (∑ msg) · (1 / y)`. On the other side the quotient
  of the sum by the non-zero real `y` is its product with `1 / y`.
-/
import proofs.«422622_j33603824124606_3_alg».proof.Proof.AggDefs
import Idealize.ShloMosaic.PureOps.Ideal
import Idealize.ShloMosaic.PureOps.Ideal.Laws
import Idealize.ShloMosaic.PureOps.IdealRules
import Idealize.ShloMosaic.Lib.ValueIdx
import Idealize.ShloMosaic.Lib.StableHlo.Predicate
import Mathlib.Data.EReal.Operations
import Mathlib.Algebra.BigOperators.Group.Finset.Basic

noncomputable section

open scoped BigOperators

namespace Cert.Agg

open Idealize.ShloMosaic Idealize.ShloMosaic.ValueIdx

/-! ### Extended-real sums -/

/-- A non-negative real factor comes out of a sum of extended reals, whatever the summands. -/
private theorem sum_mul_const {ι : Type} (s : Finset ι) (a : ι → EReal) {k : EReal} (h0 : 0 ≤ k) (ht : k ≠ ⊤) :
    ∑ j ∈ s, a j * k = (∑ j ∈ s, a j) * k := by
  classical
  induction s using Finset.induction_on with
  | empty => simp
  | insert x s hx ih =>
    rw [Finset.sum_insert hx, Finset.sum_insert hx, ih, EReal.right_distrib_of_nonneg_of_ne_top h0 ht]

/-- A sum of ones is the number of its terms, a real. -/
private theorem sum_one_card {ι : Type} (s : Finset ι) : ∑ _j ∈ s, (1 : EReal) = ((s.card : ℝ) : EReal) := by
  classical
  induction s using Finset.induction_on with
  | empty => simp
  | insert x s hx ih =>
    rw [Finset.sum_insert hx, ih, Finset.card_insert_of_notMem hx, Nat.cast_add, Nat.cast_one, EReal.coe_add, EReal.coe_one,
      add_comm]

/-- The word `0x3F800000` is the real one. -/
private theorem ofBits_one_f32 : Ideal.ofBits .f32 0x3F800000#32 = 1 := IdealRules.sign_bit.ideal_onePat .f32

/-! ### The accumulating scatter at one element -/

/-- A scatter-add of ones into a zero is, maximised with one, a real number at least one. -/
private theorem degree_real {s si su : Shape} (d : ScatterDims s si su) {w : Nat} (x : s.Idx → EReal) (idx : IVec si w)
    (upd : su.Idx → EReal) (r : s.Idx) (hx : x r = 0) (hu : ∀ j, upd j = 1) :
    ∃ y : ℝ, 1 ≤ y ∧ max (Ideal.hostScatterAdd d x idx upd r) 1 = (y : EReal) := by
  unfold Ideal.hostScatterAdd
  rw [hx, zero_add, Finset.sum_congr rfl (fun j _ => hu j), sum_one_card]
  exact ⟨max _ 1, le_max_right _ _, by rw [← EReal.coe_one]; exact EReal.coe_strictMono.monotone.map_max.symm⟩

/-- Scatter-adding into a zero updates that carry a common non-negative real factor `k` wherever they land on `i` is
    scatter-adding the bare updates and multiplying by `k`. -/
private theorem scatter_scaled {s si su : Shape} (d : ScatterDims s si su) {w : Nat} (x : s.Idx → EReal) (idx : IVec si w)
    (upd upd' : su.Idx → EReal) (i : s.Idx) {k : EReal} (h0 : 0 ≤ k) (ht : k ≠ ⊤) (hx : x i = 0)
    (h : ∀ j, d.resultIdx? j idx = some i → upd' j = upd j * k) :
    Ideal.hostScatterAdd d x idx upd' i = Ideal.hostScatterAdd d x idx upd i * k := by
  unfold Ideal.hostScatterAdd
  rw [hx, zero_add, zero_add, ← sum_mul_const _ _ h0 ht]
  exact Finset.sum_congr rfl (fun j hj => h j (Finset.mem_filter.1 hj).2)

/-! ### The host operations read at an element -/

/-- The host quotient at an element is the quotient of the elements. -/
private theorem hostDivf_apply {s : Shape} (x y : FVec Ideal s .f32) (i : s.Idx) : Host.divf x y i = Ideal.div (x i) (y i) := rfl

/-- The host's accumulating scatter is the exact one. -/
private theorem scatterAdd_eq {s si su : Shape} {w : Nat} (d : ScatterDims s si su) (x : FVec Ideal s .f32) (idx : IVec si w)
    (upd : FVec Ideal su .f32) : Host.scatterAdd d x idx upd = Ideal.hostScatterAdd d x idx upd := rfl

/-- The splat of the word `0` reads zero everywhere. -/
private theorem zero_apply {t : Shape} (h : (⟨0, ![]⟩ : Shape).BroadcastsInDim t ![]) (j : t.Idx) :
    broadcastInDim t ![] h (constant (F := Ideal) ⟨0, ![]⟩ .f32 0x00000000#32) j = 0 := by
  rw [StableHlo.Predicate.bcast_scalar h (by simp [Shape.numel]), constant_apply, Ideal.ofBits_zero_f32]

/-- The splat of the word `0x3F800000` reads one everywhere. -/
private theorem one_apply {t : Shape} (h : (⟨0, ![]⟩ : Shape).BroadcastsInDim t ![]) (j : t.Idx) :
    broadcastInDim t ![] h (constant (F := Ideal) ⟨0, ![]⟩ .f32 0x3F800000#32) j = 1 := by
  rw [StableHlo.Predicate.bcast_scalar h (by simp [Shape.numel]), constant_apply, ofBits_one_f32]

variable [Cert.KernelIdeal.Facts₀] [Cert.ReferenceIdeal.Facts₀]

section Blocked
open Cert.KernelIdeal Cert.KernelIdeal.Facts₀ StableHlo.Predicate

/-! ### Where an update lands -/

/-- The row-scatter's start on the row axis is the edge's destination word, read signed. -/
private theorem start2 {w : Nat} (idx : IVec S1600000x1 w) (e : Fin 1600000) (f : Fin 128) :
    scatter_S100000x128_S1600000x1_S1600000x128_1_0_0_1.start (ij e f) idx 0 = (idx (ixP e)).toInt := by
  unfold ScatterDims.start
  rw [dif_pos (show (0 : Fin S100000x128.rank) ∈ scatter_S100000x128_S1600000x1_S1600000x128_1_0_0_1.scatterDimsToOperandDims from
    List.mem_singleton.mpr rfl)]
  congr 2
  funext b
  match b with
  | ⟨0, _⟩ => rfl
  | ⟨1, _⟩ => rfl

/-- The row axis is an inserted one: no window coordinate on it. -/
private theorem window2 (j : S1600000x128.Idx) :
    scatter_S100000x128_S1600000x1_S1600000x128_1_0_0_1.window j 0 = 0 := by
  unfold ScatterDims.window
  rw [dif_neg (show (0 : Fin S100000x128.rank) ∉ scatter_S100000x128_S1600000x1_S1600000x128_1_0_0_1.sKept from
    (by decide : (0 : Fin S100000x128.rank) ∉ S100000x128.kept [0]))]

/-- An update element that lands on operand element `i` belongs to an edge whose destination word, read signed, is
    `i`'s row. -/
private theorem lands2 {w : Nat} (idx : IVec S1600000x1 w) (e : Fin 1600000) (f : Fin 128) (i : S100000x128.Idx)
    (h : scatter_S100000x128_S1600000x1_S1600000x128_1_0_0_1.resultIdx? (ij e f) idx = some i) :
    (idx (ixP e)).toInt = ((i 0).val : Int) := by
  unfold ScatterDims.resultIdx? at h
  split at h
  · next hb =>
    have h0 := (hb 0).1
    have hi := congrArg (fun g : S100000x128.Idx => (g 0).val) (Option.some.inj h)
    simp only at hi
    rw [start2, window2] at h0 hi
    omega
  · exact absurd h (by simp)

/-! ### The scale an edge carries -/

/-- A destination word that is a row number is not negative, so the wrap-around select keeps it. -/
private theorem wrap_keep (x : BitVec 32) (n : Nat) (hx : x.toInt = (n : Int)) :
    Scalar.select (IntOp.cmpi .slt x 0#32) (IntOp.addi x 100000#32) x = x := by
  have hs : x.slt 0#32 = false := by
    rw [BitVec.slt, hx]
    simp
  show Scalar.select (BitVec.ofBool (x.slt 0#32)) _ _ = _
  rw [hs]
  exact select_zero _ _

/-- The wrapped destination of an edge whose destination word is a row number is that word. -/
private theorem wrap_apply (dst : IVec S1600000 32) (p : Fin 1600000) (n : Nat) (hx : (dst (Shape.Idx.ofFin p)).toInt = (n : Int)) :
    select (cmpi .slt dst (broadcastInDim S1600000 ![] bcast_S_S1600000 (constantI S_ 32 0#32)))
      (addi dst (broadcastInDim S1600000 ![] bcast_S_S1600000 (constantI S_ 32 100000#32))) dst (Shape.Idx.ofFin p)
      = dst (Shape.Idx.ofFin p) :=
  wrap_keep _ n hx

/-- The scale of an update element that lands on row `r`: the table's entry at `r`. -/
private theorem scale_of_lands (inv : FVec Ideal S100000 .f32) (dst : IVec S1600000 32) (e : Fin 1600000) (f : Fin 128)
    (r : Fin 100000) (c : Fin 128)
    (h : scatter_S100000x128_S1600000x1_S1600000x128_1_0_0_1.resultIdx? (ij e f)
      (broadcastInDim S1600000x1 ![0] bcast_S1600000_S1600000x1_0 dst) = some (ij r c)) :
    (broadcastInDim S1600000x128 ![0, 1] bcast_S1600000x1_S1600000x128_0_1
        (broadcastInDim S1600000x1 ![0] bcast_S1600000_S1600000x1_0
          (Host.gather gather_S100000_S1600000x1_S1600000_n_0_n_n_0_1_1 inv
            (broadcastInDim S1600000x1 ![0] bcast_S1600000_S1600000x1_0
              (select (cmpi .slt dst (broadcastInDim S1600000 ![] bcast_S_S1600000 (constantI S_ 32 0#32)))
                (addi dst (broadcastInDim S1600000 ![] bcast_S_S1600000 (constantI S_ 32 100000#32))) dst))))) (ij e f)
      = inv (Shape.Idx.ofFin r) := by
  have hl : (broadcastInDim S1600000x1 ![0] bcast_S1600000_S1600000x1_0 dst (ixP e)).toInt = (r.val : Int) :=
    lands2 _ e f _ h
  rw [bcast_col1] at hl
  rw [bcast_rows, gather_take _ rfl rfl rfl rfl _ _ _ (by norm_num)]
  refine congrArg inv (congrArg Shape.Idx.ofFin (Fin.ext ?_))
  show min (_ : BitVec 32).toInt.toNat (100000 - 1) = r.val
  rw [bcast_col1, wrap_apply dst e _ hl, hl]
  have hr := r.isLt
  simp only [Int.toNat_natCast]
  omega

/-- The reciprocal in-degree of row `r`, read off the blocked program's host code. -/
private theorem invDeg_apply (dst : IVec S1600000 32) (r : Fin 100000) :
    invDeg dst (Shape.Idx.ofFin r) = Ideal.div 1 (max
      (Ideal.hostScatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)) (Shape.Idx.ofFin r)) 1) := by
  unfold invDeg
  rw [hostDivf_apply, maximumf_apply, scatterAdd_eq, one_apply]

end Blocked

section Plain
open Cert.ReferenceIdeal Cert.ReferenceIdeal.Facts₀ StableHlo.Predicate

/-- The plain program's aggregation at row `r`, column `c`: the scatter-added messages there over `max (in-degree of r) 1`. -/
private theorem sumThenDivide_apply (msg : FVec Ideal S1600000x128 .f32) (dst : IVec S1600000 32) (r : Fin 100000) (c : Fin 128) :
    sumThenDivide msg dst (ij r c) = Ideal.div
      (Ideal.hostScatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst) msg (ij r c))
      (max
        (Ideal.hostScatterAdd scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)) (Shape.Idx.ofFin r)) 1) := by
  unfold sumThenDivide
  rw [hostDivf_apply, bcast_rows, maximumf_apply, scatterAdd_eq, scatterAdd_eq, one_apply]

end Plain

section Main
open Cert.KernelIdeal Cert.KernelIdeal.Facts₀ StableHlo.Predicate

/-- Scaling each message by the reciprocal in-degree before the per-destination sum is dividing the sum by the
    in-degree afterwards. -/
theorem scaledSum_eq_sumThenDivide (msg : FVec Ideal Cert.KernelIdeal.S1600000x128 .f32) (dst : IVec Cert.KernelIdeal.S1600000 32) :
    scaledSum (invDeg dst) msg dst = sumThenDivide msg dst := by
  funext i
  obtain ⟨r, c, rfl⟩ : ∃ (r : Fin 100000) (c : Fin 128), i = ij r c := ⟨i 0, i 1, (ij_eta i).symm⟩
  -- the in-degree of row r, maximised with one, is a real y ≥ 1
  obtain ⟨y, hy, hc⟩ := degree_real scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))
    (Shape.Idx.ofFin r) (zero_apply bcast_S_S100000 (Shape.Idx.ofFin r)) (fun j => one_apply bcast_S_S1600000 j)
  have hy0 : y ≠ 0 := ne_of_gt (lt_of_lt_of_le one_pos hy)
  have hk0 : (0 : EReal) ≤ ((1 / y : ℝ) : EReal) := EReal.coe_nonneg.2 (by positivity)
  have hinv : invDeg dst (Shape.Idx.ofFin r) = ((1 / y : ℝ) : EReal) := by
    rw [invDeg_apply, hc, Ideal.div_coe hy0, one_mul]
  -- the blocked side: the common factor 1 / y comes out of the sum
  have hL : scaledSum (invDeg dst) msg dst (ij r c)
      = Ideal.hostScatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 dst) msg (ij r c) * ((1 / y : ℝ) : EReal) := by
    unfold scaledSum
    rw [scatterAdd_eq]
    refine scatter_scaled _ _ _ msg _ (ij r c) hk0 (EReal.coe_ne_top _) (zero_apply bcast_S_S100000x128 (ij r c)) ?_
    intro j hj
    obtain ⟨e, f, rfl⟩ : ∃ (e : Fin 1600000) (f : Fin 128), j = ij e f := ⟨j 0, j 1, (ij_eta j).symm⟩
    rw [mulf_apply, scale_of_lands (invDeg dst) dst e f r c hj, hinv]
  -- the plain side: the quotient by y is the product with 1 / y
  have hR : sumThenDivide msg dst (ij r c)
      = Ideal.hostScatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 dst) msg (ij r c) * ((1 / y : ℝ) : EReal) := by
    rw [sumThenDivide_apply msg dst r c]
    refine Eq.trans (congrArg (Ideal.div _) (hc : _ = (y : EReal))) ?_
    rw [Ideal.div_coe hy0]
    rfl
  exact hL.trans hR.symm

end Main

end Cert.Agg

end
-- ==== Proof.RefValue.lean ====
/-
  The plain program's two results are the blocked program's value functions of the same arguments, where the three
  table-index inputs are not negative.

  Stage by stage: the two input layers agree (the one-hot reading of a table row against the clamped gather), so the joined
  hidden array is the same; a convolution layer of any hidden array is the same function in both programs (scaling the
  messages before the per-destination sum against dividing the sum afterwards; the order of the three summands); the
  rectifier is the same; and the plain program's two results are the two row ranges of its second layer, which the
  blocked program computes range by range.
-/
import proofs.«422622_j33603824124606_3_alg».proof.Proof.Gen.ReferenceIdeal.Read
import proofs.«422622_j33603824124606_3_alg».proof.Proof.Gen.KernelIdeal
import proofs.«422622_j33603824124606_3_alg».proof.Proof.RSpec
import proofs.«422622_j33603824124606_3_alg».proof.Proof.KSpec
import proofs.«422622_j33603824124606_3_alg».proof.Proof.RefPol
import proofs.«422622_j33603824124606_3_alg».proof.Proof.RefComp
import proofs.«422622_j33603824124606_3_alg».proof.Proof.RefLayer
import proofs.«422622_j33603824124606_3_alg».proof.Proof.Agg
import Idealize.ShloMosaic.Lib.Pipeline.Value
import Idealize.ShloMosaic.Lib.ValueIdx
import Idealize.ShloMosaic.PureOps.Ideal.Laws

set_option maxRecDepth 16384

noncomputable section

namespace Cert.RefValue

open Idealize.ShloMosaic Idealize.ShloMosaic.ValueIdx Cert.KernelIdeal Cert.KSpec

/-- The blocked program's joined input layers, of the arguments. -/
abbrev H0 (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 a16 : FVec Ideal S128x128 .f32) (a17 : FVec Ideal S128 .f32)
    (a18 : FVec Ideal S128x128 .f32) : FVec Ideal S100000x128 .f32 :=
  joined (hPol a0 a1 a6 a9 a10) (hComp a2 a3 a4 a7 a8 a11 a12)

/-- The blocked program's first hidden layer, of the arguments. -/
abbrev H1 (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 a16 : FVec Ideal S128x128 .f32) (a17 : FVec Ideal S128 .f32)
    (a18 : FVec Ideal S128x128 .f32) : FVec Ideal S100000x128 .f32 :=
  h1 (H0 a0 a1 a2 a3 a4 a5 a6 a7 a8 a9 a10 a11 a12 a13 a14 a15 a16 a17 a18) a5 a13 a14 a15

open Cert.ReferenceIdeal.Read

/-! ## The two input layers and their join -/

/-- The plain program's first input layer is the blocked program's. -/
private theorem pol_stage (a0 : FVec Ideal S20000x64 .f32) (a1 : IVec S20000 32) (a6 : FVec Ideal S50x8 .f32)
    (a9 : FVec Ideal S72x128 .f32) (a10 : FVec Ideal S128 .f32) (h1' : ∀ r : Fin 20000, 0 ≤ (a1 (ix1 r)).toInt) :
    val_main_v27 (F := Ideal) a0 a1 a6 a9 a10 = hPol a0 a1 a6 a9 a10 :=
  (show val_main_v27 (F := Ideal) a0 a1 a6 a9 a10 = Cert.RSpec.polRef a0 a1 a6 a9 a10 from rfl).trans
    (Cert.RefPol.polRef_eq a0 a1 a6 a9 a10 h1')

/-- The plain program's second input layer is the blocked program's. -/
private theorem comp_stage (a2 : FVec Ideal S80000x96 .f32) (a3 a4 : IVec S80000 32) (a7 : FVec Ideal S12x8 .f32)
    (a8 : FVec Ideal S150x8 .f32) (a11 : FVec Ideal S112x128 .f32) (a12 : FVec Ideal S128 .f32)
    (h3 : ∀ r : Fin 80000, 0 ≤ (a3 (ix1 r)).toInt) (h4 : ∀ r : Fin 80000, 0 ≤ (a4 (ix1 r)).toInt) :
    val_main_v32 (F := Ideal) a2 a3 a4 a7 a8 a11 a12 = hComp a2 a3 a4 a7 a8 a11 a12 :=
  (show val_main_v32 (F := Ideal) a2 a3 a4 a7 a8 a11 a12 = Cert.RSpec.compRef a2 a3 a4 a7 a8 a11 a12 from rfl).trans
    (Cert.RefComp.compRef_eq a2 a3 a4 a7 a8 a11 a12 h3 h4)

/-- So the joined hidden arrays agree. -/
private theorem joined_stage (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (h1' : ∀ r : Fin 20000, 0 ≤ (a1 (ix1 r)).toInt) (h3 : ∀ r : Fin 80000, 0 ≤ (a3 (ix1 r)).toInt)
    (h4 : ∀ r : Fin 80000, 0 ≤ (a4 (ix1 r)).toInt) :
    val_main_v33 (F := Ideal) a0 a1 a2 a3 a4 a6 a7 a8 a9 a10 a11 a12
      = joined (hPol a0 a1 a6 a9 a10) (hComp a2 a3 a4 a7 a8 a11 a12) := by
  unfold val_main_v33
  rw [pol_stage a0 a1 a6 a9 a10 h1', comp_stage a2 a3 a4 a7 a8 a11 a12 h3 h4]
  rfl

/-! ## One convolution layer, of any hidden array -/

/-- The plain layer of a hidden array is the blocked program's dense layer of it, row by row: dividing the summed
    messages by the in-degree is scaling them before the sum. -/
private theorem layer_any (h : FVec Ideal S100000x128 .f32) (x5 : IVec S2x1600000 32) (wl : FVec Ideal S128x128 .f32)
    (b : FVec Ideal S128 .f32) (wr : FVec Ideal S128x128 .f32) :
    Cert.RSpec.layerRef h x5 wl b wr = fun i => layer h x5 wl b wr (i 0) (i 1) := by
  rw [Cert.RefLayer.layerRef_eq]
  funext i
  unfold layer agg
  rw [Cert.Agg.scaledSum_eq_sumThenDivide]

/-- The plain program's first convolution layer, before its rectifier, is the plain layer of its joined hidden array. -/
private theorem conv1_ref (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 : FVec Ideal S128x128 .f32) :
    val_main_v62 (F := Ideal) a0 a1 a2 a3 a4 a5 a6 a7 a8 a9 a10 a11 a12 a13 a14 a15
      = Cert.RSpec.layerRef (val_main_v33 (F := Ideal) a0 a1 a2 a3 a4 a6 a7 a8 a9 a10 a11 a12) a5 a13 a14 a15 := rfl

/-- The rectifier at an entry: the maximum with zero. -/
private theorem relu1_apply (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 : FVec Ideal S128x128 .f32) (i : S100000x128.Idx) :
    val_main_v63 (F := Ideal) a0 a1 a2 a3 a4 a5 a6 a7 a8 a9 a10 a11 a12 a13 a14 a15 i
      = max (val_main_v62 (F := Ideal) a0 a1 a2 a3 a4 a5 a6 a7 a8 a9 a10 a11 a12 a13 a14 a15 i) 0 := by
  rw [val_main_v63_apply, val_main_call2_v0_apply, val_main_call2_cst_apply]
  exact congrArg (max _) Ideal.ofBits_zero_f32

/-- The plain program's first hidden layer is the blocked program's. -/
private theorem hidden1_stage (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 : FVec Ideal S128x128 .f32)
    (h1' : ∀ r : Fin 20000, 0 ≤ (a1 (ix1 r)).toInt) (h3 : ∀ r : Fin 80000, 0 ≤ (a3 (ix1 r)).toInt)
    (h4 : ∀ r : Fin 80000, 0 ≤ (a4 (ix1 r)).toInt) :
    val_main_v63 (F := Ideal) a0 a1 a2 a3 a4 a5 a6 a7 a8 a9 a10 a11 a12 a13 a14 a15
      = h1 (joined (hPol a0 a1 a6 a9 a10) (hComp a2 a3 a4 a7 a8 a11 a12)) a5 a13 a14 a15 := by
  funext i
  rw [relu1_apply, conv1_ref, joined_stage a0 a1 a2 a3 a4 a5 a6 a7 a8 a9 a10 a11 a12 h1' h3 h4, layer_any]
  rfl

/-- The plain program's second convolution layer is the plain layer of its first hidden layer. -/
private theorem conv2_ref (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 a16 : FVec Ideal S128x128 .f32) (a17 : FVec Ideal S128 .f32)
    (a18 : FVec Ideal S128x128 .f32) :
    val_main_v88 (F := Ideal) a0 a1 a2 a3 a4 a5 a6 a7 a8 a9 a10 a11 a12 a13 a14 a15 a16 a17 a18
      = Cert.RSpec.layerRef (val_main_v63 (F := Ideal) a0 a1 a2 a3 a4 a5 a6 a7 a8 a9 a10 a11 a12 a13 a14 a15) a5 a16 a17 a18 := rfl

/-- So the second layer, at every row, is the blocked program's dense layer of its first hidden layer. -/
private theorem conv2_stage (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 a16 : FVec Ideal S128x128 .f32) (a17 : FVec Ideal S128 .f32)
    (a18 : FVec Ideal S128x128 .f32)
    (h1' : ∀ r : Fin 20000, 0 ≤ (a1 (ix1 r)).toInt) (h3 : ∀ r : Fin 80000, 0 ≤ (a3 (ix1 r)).toInt)
    (h4 : ∀ r : Fin 80000, 0 ≤ (a4 (ix1 r)).toInt) :
    val_main_v88 (F := Ideal) a0 a1 a2 a3 a4 a5 a6 a7 a8 a9 a10 a11 a12 a13 a14 a15 a16 a17 a18
      = fun i => layer (H1 a0 a1 a2 a3 a4 a5 a6 a7 a8 a9 a10 a11 a12 a13 a14 a15 a16 a17 a18) a5 a16 a17 a18 (i 0) (i 1) := by
  rw [conv2_ref, hidden1_stage a0 a1 a2 a3 a4 a5 a6 a7 a8 a9 a10 a11 a12 a13 a14 a15 h1' h3 h4, layer_any]

/-! ## The two results: the two row ranges of the second layer -/

theorem out_pol (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 a16 : FVec Ideal S128x128 .f32) (a17 : FVec Ideal S128 .f32)
    (a18 : FVec Ideal S128x128 .f32)
    (h1' : ∀ r : Fin 20000, 0 ≤ (a1 (ix1 r)).toInt) (h3 : ∀ r : Fin 80000, 0 ≤ (a3 (ix1 r)).toInt)
    (h4 : ∀ r : Fin 80000, 0 ≤ (a4 (ix1 r)).toInt) :
    Cert.ReferenceIdeal.Read.val_main_v89 (F := Ideal) a0 a1 a2 a3 a4 a5 a6 a7 a8 a9 a10 a11 a12 a13 a14 a15 a16 a17 a18
      = outPol (H1 a0 a1 a2 a3 a4 a5 a6 a7 a8 a9 a10 a11 a12 a13 a14 a15 a16 a17 a18) a5 a16 a17 a18 := by
  funext i
  rw [val_main_v89_apply, conv2_stage a0 a1 a2 a3 a4 a5 a6 a7 a8 a9 a10 a11 a12 a13 a14 a15 a16 a17 a18 h1' h3 h4]
  rfl

theorem out_comp (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 a16 : FVec Ideal S128x128 .f32) (a17 : FVec Ideal S128 .f32)
    (a18 : FVec Ideal S128x128 .f32)
    (h1' : ∀ r : Fin 20000, 0 ≤ (a1 (ix1 r)).toInt) (h3 : ∀ r : Fin 80000, 0 ≤ (a3 (ix1 r)).toInt)
    (h4 : ∀ r : Fin 80000, 0 ≤ (a4 (ix1 r)).toInt) :
    Cert.ReferenceIdeal.Read.val_main_v90 (F := Ideal) a0 a1 a2 a3 a4 a5 a6 a7 a8 a9 a10 a11 a12 a13 a14 a15 a16 a17 a18
      = outComp (H1 a0 a1 a2 a3 a4 a5 a6 a7 a8 a9 a10 a11 a12 a13 a14 a15 a16 a17 a18) a5 a16 a17 a18 := by
  funext i
  rw [val_main_v90_apply, conv2_stage a0 a1 a2 a3 a4 a5 a6 a7 a8 a9 a10 a11 a12 a13 a14 a15 a16 a17 a18 h1' h3 h4]
  show layer _ a5 a16 a17 a18 ⟨20000 + (i 0).val, _⟩ ⟨(i 1).val, _⟩ = layer _ a5 a16 a17 a18 ⟨(i 0).val + 20000, _⟩ (i 1)
  congr 1
  exact Fin.ext (Nat.add_comm _ _)

end Cert.RefValue

end
-- ==== Proof.PreFacts.lean ====
/-
  What the precondition says of the three table-index inputs.

  The precondition is one boolean: the conjunction, over the float inputs, of "every entry is finite" and, over the three
  table-index inputs, of "every entry is not negative" (each an `and`-reduction of an elementwise comparison). When the
  boolean is true every conjunct is, and an `and`-reduction that is true is true at every entry: each index word, read
  signed, is at least zero.
-/
import proofs.«422622_j33603824124606_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

variable [Cert.Pre_finite_inputs.Facts]

/-- The shape with no axis has one index. -/
private instance : Subsingleton S_.Idx := ⟨fun a b => funext fun d => d.elim0⟩

/-- A true signed "at least zero" comparison says the word, read signed, is not negative. -/
private theorem toInt_nonneg_of_sge (a : BitVec 32) (h : IntOp.cmpi .sge a 0#32 = 1#1) : 0 ≤ a.toInt := by
  unfold IntOp.cmpi at h
  have hb : (0#32).sle a = true := (StableHlo.Predicate.ofBool_eq_one_iff _).1 h
  have hle : (0#32).toInt ≤ a.toInt := BitVec.sle_iff_toInt_le.1 hb
  rwa [BitVec.toInt_zero] at hle

/-- An `and`-reduction of the entrywise comparison "at least the zero word" that is true is true at every entry. -/
private theorem nonneg_of_all {t : Shape} {axes : List (Fin t.rank)} (x : IVec t 32)
    (hb : S_.BroadcastsInDim t (![] : Fin 0 → Fin t.rank)) (hr : t.ReducesTo axes S_) (hu : 0 < S_.numel)
    (e : Host.reduce IntOp.andi (cmpi .sge x (broadcastInDim t ![] hb (constantI S_ 32 0#32))) (constantI S_ 1 1#1) hr hu ix0 = 1#1)
    (i : t.Idx) : 0 ≤ (x i).toInt := by
  have h1 : cmpi .sge x (broadcastInDim t ![] hb (constantI S_ 32 0#32)) i = 1#1 :=
    Host.reduce_andi_all _ _ hr hu ix0 e i
  have h2 : broadcastInDim t ![] hb (constantI S_ 32 0#32) i = 0#32 :=
    StableHlo.Predicate.bcast_scalar hb hu _ _
  refine toInt_nonneg_of_sge _ ?_
  rw [← h2]
  exact h1

/-- A conjunction of two booleans that is true has both true. -/
private theorem and_split (x y : IVec S_ 1) (h : andi x y ix0 = 1#1) : x ix0 = 1#1 ∧ y ix0 = 1#1 :=
  IntOp.andi_eq_one.1 h

/-- The last conjunct, peeled. -/
private theorem part5_split (v81 : IVec S_ 1) (v83 : IVec S80000 1) (c33 : IVec S_ 1)
    (h : fn_part5 (F := Ideal) v81 v83 c33 ix0 = 1#1) :
    v81 ix0 = 1#1 ∧ Host.reduce IntOp.andi v83 c33 Facts.reducesTo_S80000_S_d0 Facts.h_S_ ix0 = 1#1 := by
  unfold fn_part5 at h
  exact and_split _ _ h

/-- The three last conjuncts are the three index inputs' "every entry is not negative". -/
private theorem part4_nonneg (a1 : IVec S20000 32) (a3 a4 : IVec S80000 32) (a18 : FVec Ideal S128x128 .f32) (v63 v67 : IVec S_ 1)
    (h : fn_part4 (F := Ideal) a1 a3 a4 a18 v63 v67 ix0 = 1#1) :
    (∀ r : Fin 20000, 0 ≤ (a1 (ix1 r)).toInt) ∧ (∀ r : Fin 80000, 0 ≤ (a3 (ix1 r)).toInt)
      ∧ (∀ r : Fin 80000, 0 ≤ (a4 (ix1 r)).toInt) := by
  unfold fn_part4 at h
  obtain ⟨h81, h84⟩ := part5_split _ _ _ h
  obtain ⟨h77, h80⟩ := and_split _ _ h81
  obtain ⟨-, h76⟩ := and_split _ _ h77
  exact ⟨fun r => nonneg_of_all a1 _ _ _ h76 (ix1 r), fun r => nonneg_of_all a3 _ _ _ h80 (ix1 r),
    fun r => nonneg_of_all a4 _ _ _ h84 (ix1 r)⟩

theorem nonneg_of_pre (a0 : FVec Ideal S20000x64 .f32) (a1 : IVec S20000 32) (a2 : FVec Ideal S80000x96 .f32) (a3 a4 : IVec S80000 32)
    (a5 : IVec S2x1600000 32) (a6 : FVec Ideal S50x8 .f32) (a7 : FVec Ideal S12x8 .f32) (a8 : FVec Ideal S150x8 .f32)
    (a9 : FVec Ideal S72x128 .f32) (a10 : FVec Ideal S128 .f32) (a11 : FVec Ideal S112x128 .f32) (a12 : FVec Ideal S128 .f32)
    (a13 : FVec Ideal S128x128 .f32) (a14 : FVec Ideal S128 .f32) (a15 a16 : FVec Ideal S128x128 .f32) (a17 : FVec Ideal S128 .f32)
    (a18 : FVec Ideal S128x128 .f32)
    (h : Cert.Pre_finite_inputs.fn (F := Ideal) a0 a1 a2 a3 a4 a5 a6 a7 a8 a9 a10 a11 a12 a13 a14 a15 a16 a17 a18 = fun _ => 1#1) :
    (∀ r : Fin 20000, 0 ≤ (a1 (ix1 r)).toInt) ∧ (∀ r : Fin 80000, 0 ≤ (a3 (ix1 r)).toInt)
      ∧ (∀ r : Fin 80000, 0 ≤ (a4 (ix1 r)).toInt) := by
  have h0 := congrFun h ix0
  unfold fn fn_part1 fn_part2 fn_part3 at h0
  exact part4_nonneg a1 a3 a4 _ _ _ h0

end Cert.PreFacts

end
-- ==== Proof.lean ====
/-
  The certificate: the blocked program (five kernels with host code between them) and the plain program compute the same
  two arrays over the extended reals, from memories that agree on the nineteen arguments, where the float inputs are
  finite and the three table-index inputs are not negative.

  Both are a two-layer mean-aggregating graph convolution. They differ in three places. The blocked program reads an
  embedding-table row as a one-hot matrix product at an index clipped into the table, the plain program by a gather whose
  start index is clamped: on a non-negative index the two read the same row, and `0 · x = 0`, `1 · x = x` hold for every
  extended real, so the one-hot sum is that row. The blocked program scales every message by the reciprocal in-degree of
  its destination before adding the messages up, the plain program divides the sums: the scale is a non-negative real, so
  the product distributes over the sum whatever the messages are, and a quotient by a non-zero real is the product with its
  reciprocal. And the dense half of a layer adds its three summands in another order. Everything else (the matrix products
  row block by row block against whole products, the formats of the matrix unit's operands) is the same function at the
  ideal values.

  The frames of the two printed kernel programs are generated; the plain program's frame is its generated run with the
  results dropped. The blocked program's run with its results named is the generated launch called again (module KRun);
  the result arrays as functions of the arguments are module KHost over the five regions' values (modules Region0 … 4);
  the plain program's results as the same functions are module RefValue (over RefPol, RefComp, RefLayer, Agg, Embed).
-/
import proofs.«422622_j33603824124606_3_alg».proof.Defs
import proofs.«422622_j33603824124606_3_alg».proof.Proof.Gen.Kernel
import proofs.«422622_j33603824124606_3_alg».proof.Proof.Gen.Kernel.Skeleton
import proofs.«422622_j33603824124606_3_alg».proof.Proof.Gen.Kernel.Launch
import proofs.«422622_j33603824124606_3_alg».proof.Proof.Gen.Kernel.Points
import proofs.«422622_j33603824124606_3_alg».proof.Proof.Gen.Kernel.Frame
import proofs.«422622_j33603824124606_3_alg».proof.Proof.Gen.KernelIdeal
import proofs.«422622_j33603824124606_3_alg».proof.Proof.Gen.KernelIdeal.Skeleton
import proofs.«422622_j33603824124606_3_alg».proof.Proof.Gen.KernelIdeal.Launch
import proofs.«422622_j33603824124606_3_alg».proof.Proof.Gen.KernelIdeal.Points
import proofs.«422622_j33603824124606_3_alg».proof.Proof.Gen.KernelIdeal.Frame
import proofs.«422622_j33603824124606_3_alg».proof.Proof.Gen.ReferenceIdeal
import proofs.«422622_j33603824124606_3_alg».proof.Proof.Gen.Pre_finite_inputs
import proofs.«422622_j33603824124606_3_alg».proof.Proof.Gen.ReferenceIdeal.Run
import proofs.«422622_j33603824124606_3_alg».proof.Proof.Gen.ReferenceIdeal.Read
import proofs.«422622_j33603824124606_3_alg».proof.Proof.KRun
import proofs.«422622_j33603824124606_3_alg».proof.Proof.KHost
import proofs.«422622_j33603824124606_3_alg».proof.Proof.RefValue
import proofs.«422622_j33603824124606_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The plain program's first result, at arguments that agree with the blocked program's and satisfy the precondition,
    is the blocked program's first result array. -/
theorem res_pol (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      = Cert.KernelIdeal.Gen.W16 m ρ c (Proc.devRef .tc Cert.KernelIdeal.main_v73) := by
  obtain ⟨n1, n3, n4⟩ := Cert.PreFacts.nonneg_of_pre _ _ _ _ _ _ _ _ _ _ _ _ _ _ _ _ _ _ _ (hpre c)
  rw [Cert.RefValue.out_pol _ _ _ _ _ _ _ _ _ _ _ _ _ _ _ _ _ _ _ n1 n3 n4]
  exact (Cert.KernelIdeal.Host.out_pol m ρ c).symm

/-- The same for the second result. -/
theorem res_comp (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      = Cert.KernelIdeal.Gen.W16 m ρ c (Proc.devRef .tc Cert.KernelIdeal.main_v75) := by
  obtain ⟨n1, n3, n4⟩ := Cert.PreFacts.nonneg_of_pre _ _ _ _ _ _ _ _ _ _ _ _ _ _ _ _ _ _ _ (hpre c)
  rw [Cert.RefValue.out_comp _ _ _ _ _ _ _ _ _ _ _ _ _ _ _ _ _ _ _ n1 n3 n4]
  exact (Cert.KernelIdeal.Host.out_comp m ρ c).symm

/-- Both programs run, and end with equal results: the blocked program's two result arrays are what its last segment
    boundary holds; the plain program's run ends at its stages' terms of the same arguments, which are those arrays. -/
theorem algebraic : Cert.algebraic_KernelIdeal_ReferenceIdeal := by
  intro m ρ m' ρ' hpre hagree
  refine ⟨fun c => Cert.KernelIdeal.Gen.W16 m ρ c (Proc.devRef .tc Cert.KernelIdeal.main_v73),
    fun c => Cert.KernelIdeal.Gen.W16 m ρ c (Proc.devRef .tc Cert.KernelIdeal.main_v75),
    Cert.KernelIdeal.Gen.run (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v89_eq]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    exact res_pol m ρ hpre c
  · rw [Cert.ReferenceIdeal.Read.val_main_v90_eq]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    exact res_comp m ρ hpre c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
